-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x14x14 : Shape := ⟨4, ![8, 512, 14, 14]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S8x512x14x14 : S_.BroadcastsInDim S8x512x14x14 (![] : Fin 0 → Fin S8x512x14x14.rank)
  reducesTo_S8x512x14x14_S_d0_1_2_3 : S8x512x14x14.ReducesTo [0, 1, 2, 3] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256x1 .f32) (main_arg5 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8x512x14x14 .f32) (main_arg1 : FVec F S8x512x14x14 .f32) (main_arg2 : FVec F S1024x256 .f32) (main_arg3 : FVec F S256 .f32) (main_arg4 : FVec F S256x1 .f32) (main_arg5 : FVec F S1 .f32) : IVec S_ 1 :=
  let main_v0 : FVec F S8x512x14x14 .f32 := Host.absf main_arg0
  let main_cst : FVec F S_ .f32 := constant S_ .f32 0x7F800000#32
  let main_v1 : FVec F S8x512x14x14 .f32 := broadcastInDim S8x512x14x14 ![] bcast_S_S8x512x14x14 main_cst
  let main_v2 : IVec S8x512x14x14 1 := cmpf .olt main_v0 main_v1
  let main_c : IVec S_ 1 := constantI S_ 1 1#1
  let main_v3 : IVec S_ 1 := (fun x v => Host.reduce IntOp.andi x v reducesTo_S8x512x14x14_S_d0_1_2_3 h_S_) main_v2 main_c
  let main_v4 : FVec F S8x512x14x14 .f32 := Host.absf main_arg1
  let main_cst_0 : FVec F S_ .f32 := constant S_ .f32 0x7F800000#32
  let main_v5 : FVec F S8x512x14x14 .f32 := broadcastInDim S8x512x14x14 ![] bcast_S_S8x512x14x14 main_cst_0
  let main_v6 : IVec S8x512x14x14 1 := cmpf .olt main_v4 main_v5
  let main_c_1 : IVec S_ 1 := constantI S_ 1 1#1
  let main_v7 : IVec S_ 1 := (fun x v => Host.reduce IntOp.andi x v reducesTo_S8x512x14x14_S_d0_1_2_3 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8x512x14x14 : Shape := ⟨4, ![8, 512, 14, 14]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S8x512x196 : Shape := ⟨3, ![8, 512, 196]⟩
abbrev S8x196x512 : Shape := ⟨3, ![8, 196, 512]⟩
abbrev S512x256 : Shape := ⟨2, ![512, 256]⟩
abbrev S8x196x256 : Shape := ⟨3, ![8, 196, 256]⟩
abbrev S1x196x512 : Shape := ⟨3, ![1, 196, 512]⟩
abbrev S1x196x256 : Shape := ⟨3, ![1, 196, 256]⟩
abbrev S196x512 : Shape := ⟨2, ![196, 512]⟩
abbrev S196x256 : Shape := ⟨2, ![196, 256]⟩
abbrev S_ : Shape := ⟨0, ![]⟩
abbrev S8x256x256 : Shape := ⟨3, ![8, 256, 256]⟩
abbrev S1x256 : Shape := ⟨2, ![1, 256]⟩
abbrev S1x1 : Shape := ⟨2, ![1, 1]⟩
abbrev S8x1x1 : Shape := ⟨3, ![8, 1, 1]⟩
abbrev S1x64x256 : Shape := ⟨3, ![1, 64, 256]⟩
abbrev S1x1x1 : Shape := ⟨3, ![1, 1, 1]⟩
abbrev S64x256 : Shape := ⟨2, ![64, 256]⟩
abbrev S64x1x256 : Shape := ⟨3, ![64, 1, 256]⟩
abbrev S64x64x256 : Shape := ⟨3, ![64, 64, 256]⟩
abbrev S1x1x256 : Shape := ⟨3, ![1, 1, 256]⟩
abbrev S64x64 : Shape := ⟨2, ![64, 64]⟩
abbrev S64 : Shape := ⟨1, ![64]⟩
abbrev S1x64 : Shape := ⟨2, ![1, 64]⟩
abbrev S8x1 : Shape := ⟨2, ![8, 1]⟩

abbrev nBuf : Space → Nat
  | .hbm => 26
  | .vmem => 20
  | .smem => 0
  | _ => 0

abbrev bufTy : (tb : Table) → Fin (tcTables nBuf tb) → BufTy
  | .hbm, ⟨0, _⟩ => ⟨S8x512x14x14, .f32⟩
  | .hbm, ⟨1, _⟩ => ⟨S8x512x14x14, .f32⟩
  | .hbm, ⟨2, _⟩ => ⟨S1024x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S8x512x196, .f32⟩
  | .hbm, ⟨7, _⟩ => ⟨S8x196x512, .f32⟩
  | .hbm, ⟨8, _⟩ => ⟨S8x512x196, .f32⟩
  | .hbm, ⟨9, _⟩ => ⟨S8x196x512, .f32⟩
  | .hbm, ⟨10, _⟩ => ⟨S512x256, .f32⟩
  | .hbm, ⟨11, _⟩ => ⟨S512x256, .f32⟩
  | .hbm, ⟨12, _⟩ => ⟨S8x196x256, .f32⟩
  | .hbm, ⟨13, _⟩ => ⟨S8x196x256, .f32⟩
  | .hbm, ⟨14, _⟩ => ⟨S_, .i32⟩
  | .hbm, ⟨15, _⟩ => ⟨S_, .f32⟩
  | .hbm, ⟨16, _⟩ => ⟨S8x256x256, .f32⟩
  | .hbm, ⟨17, _⟩ => ⟨S_, .i32⟩
  | .hbm, ⟨18, _⟩ => ⟨S_, .f32⟩
  | .hbm, ⟨19, _⟩ => ⟨S8x256x256, .f32⟩
  | .hbm, ⟨20, _⟩ => ⟨S256, .f32⟩
  | .hbm, ⟨21, _⟩ => ⟨S1x256, .f32⟩
  | .hbm, ⟨22, _⟩ => ⟨S1x256, .f32⟩
  | .hbm, ⟨23, _⟩ => ⟨S1x1, .f32⟩
  | .hbm, ⟨24, _⟩ => ⟨S8x1x1, .f32⟩
  | .hbm, ⟨25, _⟩ => ⟨S8x1, .f32⟩
  | .local _ .vmem, ⟨0, _⟩ => ⟨S1x196x512, .f32⟩
  | .local _ .vmem, ⟨1, _⟩ => ⟨S1x196x512, .f32⟩
  | .local _ .vmem, ⟨2, _⟩ => ⟨S1x196x512, .f32⟩
  | .local _ .vmem, ⟨3, _⟩ => ⟨S1x196x512, .f32⟩
  | .local _ .vmem, ⟨4, _⟩ => ⟨S512x256, .f32⟩
  | .local _ .vmem, ⟨5, _⟩ => ⟨S512x256, .f32⟩
  | .local _ .vmem, ⟨6, _⟩ => ⟨S1x196x256, .f32⟩
  | .local _ .vmem, ⟨7, _⟩ => ⟨S1x196x256, .f32⟩
  | .local _ .vmem, ⟨8, _⟩ => ⟨S1x196x256, .f32⟩
  | .local _ .vmem, ⟨9, _⟩ => ⟨S1x196x256, .f32⟩
  | .local _ .vmem, ⟨10, _⟩ => ⟨S1x64x256, .f32⟩
  | .local _ .vmem, ⟨11, _⟩ => ⟨S1x64x256, .f32⟩
  | .local _ .vmem, ⟨12, _⟩ => ⟨S1x64x256, .f32⟩
  | .local _ .vmem, ⟨13, _⟩ => ⟨S1x64x256, .f32⟩
  | .local _ .vmem, ⟨14, _⟩ => ⟨S1x256, .f32⟩
  | .local _ .vmem, ⟨15, _⟩ => ⟨S1x256, .f32⟩
  | .local _ .vmem, ⟨16, _⟩ => ⟨S1x1, .f32⟩
  | .local _ .vmem, ⟨17, _⟩ => ⟨S1x1x1, .f32⟩
  | .local _ .vmem, ⟨18, _⟩ => ⟨S1x1x1, .f32⟩
  | .local _ .vmem, ⟨19, _⟩ => ⟨S1x1x1, .f32⟩
  | _, _ => ⟨S8x512x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x196x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x196x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x196x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x196x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![8, 4, 4], ![false, false, false]⟩

def k1_cond2 (i : grid1.Coords) : BitVec 1 :=
  let arg1 : BitVec 32 := BitVec.ofNat 32 (i 1).val
  let c3_i32 : BitVec 32 := 3#32
  let v60 : BitVec 1 := Scalar.cmpi .eq arg1 c3_i32
  let arg2 : BitVec 32 := BitVec.ofNat 32 (i 2).val
  let c3_i32_25 : BitVec 32 := 3#32
  let v61 : BitVec 1 := Scalar.cmpi .eq arg2 c3_i32_25
  let v62 : BitVec 1 := Scalar.andi v60 v61
  let v63 : BitVec 32 := Scalar.extui v62
  let c0_i32_26 : BitVec 32 := 0#32
  let v64 : BitVec 1 := Scalar.cmpi .ne v63 c0_i32_26
  v64

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x64x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x1x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

class Facts₀ : Prop where
  shapeCasts_S8x512x14x14_S8x512x196 : S8x512x14x14.ShapeCasts S8x512x196
  transposes_S8x512x196_S8x196x512_0_2_1 : S8x512x196.Transposes [0, 2, 1] S8x196x512
  slices_S1024x256_S512x256_0_0 : S1024x256.Slices ![0, 0] S512x256
  slices_S1024x256_S512x256_512_0 : S1024x256.Slices ![512, 0] S512x256
  inb_S1x196x512_S1x196x512_0_0_0 : ∀ a, (![0, 0, 0] : Fin 3 → Nat) a + S1x196x512.size a ≤ S1x196x512.size a
  h_S1x196x512 : 0 < S1x196x512.numel
  shapeCasts_S1x196x512_S196x512 : S1x196x512.ShapeCasts S196x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x196x256_S1x196x256_0_0_0 : ∀ a, (![0, 0, 0] : Fin 3 → Nat) a + S1x196x256.size a ≤ S1x196x256.size a
  h_S1x196x256 : 0 < S1x196x256.numel
  shapeCasts_S1x196x256_S196x256 : S1x196x256.ShapeCasts S196x256
  shapeCasts_S196x256_S1x196x256 : S196x256.ShapeCasts S1x196x256
  pads_S8x196x256_S8x256x256_000_0600_000 : S8x196x256.Pads (![0, 0, 0] : Fin 3 → Nat) ![0, 60, 0] ![0, 0, 0] S8x256x256
  h_S_ : 0 < S_.numel
  shapeCasts_S256x1_S256 : S256x1.ShapeCasts S256
  shapeCasts_S256_S1x256 : S256.ShapeCasts S1x256
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S256 : S1x256.ShapeCasts S256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  shapeCasts_S64x256_S64x1x256 : S64x256.ShapeCasts S64x1x256
  shapeCasts_S64x256_S1x64x256 : S64x256.ShapeCasts S1x64x256
  broadcasts_S64x1x256_S64x64x256 : S64x1x256.Broadcasts S64x64x256
  broadcasts_S1x64x256_S64x64x256 : S1x64x256.Broadcasts S64x64x256
  shapeCasts_S256_S1x1x256 : S256.ShapeCasts S1x1x256
  broadcasts_S1x1x256_S64x64x256 : S1x1x256.Broadcasts S64x64x256
  reduces_S64x64x256_S64x64 : S64x64x256.Reduces [2] S64x64
  iota_S64x64_d0_w32 : S64x64.Iotas .tc 32 [0]
  iota_S64x64_d1_w32 : S64x64.Iotas .tc 32 [1]
  reduces_S64x64_S64 : S64x64.Reduces [1] S64
  shapeCasts_S64_S1x64 : S64.ShapeCasts S1x64
  reduces_S1x64_S1 : S1x64.Reduces [1] S1
  shapeCasts_S8x1x1_S8x1 : S8x1x1.ShapeCasts S8x1
  dot_S196x512_S512x256_S196x256_1_0_0_1_n_n_wf : DotDims.WF S196x512 S512x256 S196x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x196x512.size a ≤ S8x196x512.size a
  hwx0_0 : ∀ i : grid0.Coords, EltTy.bits .f32 = 32 ∨ (Rect.block (s := S8x196x512) S1x196x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x196x512.size a ≤ S8x196x512.size a
  hwx0_1 : ∀ i : grid0.Coords, EltTy.bits .f32 = 32 ∨ (Rect.block (s := S8x196x512) S1x196x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x196x256.size a ≤ S8x196x256.size a
  hwx0_4 : ∀ i : grid0.Coords, EltTy.bits .f32 = 32 ∨ (Rect.block (s := S8x196x256) S1x196x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x196x256.size a ≤ S8x196x256.size a
  hwx0_5 : ∀ i : grid0.Coords, EltTy.bits .f32 = 32 ∨ (Rect.block (s := S8x196x256) S1x196x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x256.size a ≤ S8x256x256.size a
  hwx1_0 : ∀ i : grid1.Coords, EltTy.bits .f32 = 32 ∨ (Rect.block (s := S8x256x256) S1x64x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x256.size a ≤ S8x256x256.size a
  hwx1_1 : ∀ i : grid1.Coords, EltTy.bits .f32 = 32 ∨ (Rect.block (s := S8x256x256) S1x64x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x1.size a ≤ S8x1x1.size a
  hwx1_5 : ∀ i : grid1.Coords, EltTy.bits .f32 = 32 ∨ (Rect.block (s := S8x1x1) S1x1x1.size (cc1_transform_5 i) (hinb1_5 i)).WholeWords (EltTy.packing .f32)

variable [Facts₀]

def dot_S196x512_S512x256_S196x256_1_0_0_1_n_n : DotDims S196x512 S512x256 S196x256 where
  lhsContracting := [1]
  rhsContracting := [0]
  lhsNonContracting := [0]
  rhsNonContracting := [1]
  lhsBatch := []
  rhsBatch := []
  wf := dot_S196x512_S512x256_S196x256_1_0_0_1_n_n_wf

abbrev win0_0 : Pipeline.Window sig grid0 :=
  Pipeline.Window.ofSpec (Memref.whole main_v1) S1x196x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x196x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x196x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x196x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S1x64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x64x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x1x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8x512x14x14 : Shape := ⟨4, ![8, 512, 14, 14]⟩
abbrev S1024x256 : Shape := ⟨2, ![1024, 256]⟩
abbrev S256 : Shape := ⟨1, ![256]⟩
abbrev S256x1 : Shape := ⟨2, ![256, 1]⟩
abbrev S1 : Shape := ⟨1, ![1]⟩
abbrev S8x512x196 : Shape := ⟨3, ![8, 512, 196]⟩
abbrev S8x196x512 : Shape := ⟨3, ![8, 196, 512]⟩
abbrev S512x256 : Shape := ⟨2, ![512, 256]⟩
abbrev S8x196x256 : Shape := ⟨3, ![8, 196, 256]⟩
abbrev S8x196x1x256 : Shape := ⟨4, ![8, 196, 1, 256]⟩
abbrev S8x1x196x256 : Shape := ⟨4, ![8, 1, 196, 256]⟩
abbrev S8x196x196x256 : Shape := ⟨4, ![8, 196, 196, 256]⟩
abbrev S1x1x1x256 : Shape := ⟨4, ![1, 1, 1, 256]⟩
abbrev S_ : Shape := ⟨0, ![]⟩
abbrev S8x196x196x1 : Shape := ⟨4, ![8, 196, 196, 1]⟩
abbrev S1x1x1x1 : Shape := ⟨4, ![1, 1, 1, 1]⟩
abbrev S8x38416 : Shape := ⟨2, ![8, 38416]⟩
abbrev S8 : Shape := ⟨1, ![8]⟩
abbrev S8x1 : Shape := ⟨2, ![8, 1]⟩

abbrev nBuf : Space → Nat
  | .hbm => 33
  | .vmem => 0
  | .smem => 0
  | _ => 0

abbrev bufTy : (tb : Table) → Fin (tcTables nBuf tb) → BufTy
  | .hbm, ⟨0, _⟩ => ⟨S8x512x14x14, .f32⟩
  | .hbm, ⟨1, _⟩ => ⟨S8x512x14x14, .f32⟩
  | .hbm, ⟨2, _⟩ => ⟨S1024x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S8x512x196, .f32⟩
  | .hbm, ⟨7, _⟩ => ⟨S8x196x512, .f32⟩
  | .hbm, ⟨8, _⟩ => ⟨S8x512x196, .f32⟩
  | .hbm, ⟨9, _⟩ => ⟨S8x196x512, .f32⟩
  | .hbm, ⟨10, _⟩ => ⟨S512x256, .f32⟩
  | .hbm, ⟨11, _⟩ => ⟨S8x196x256, .f32⟩
  | .hbm, ⟨12, _⟩ => ⟨S512x256, .f32⟩
  | .hbm, ⟨13, _⟩ => ⟨S8x196x256, .f32⟩
  | .hbm, ⟨14, _⟩ => ⟨S8x196x1x256, .f32⟩
  | .hbm, ⟨15, _⟩ => ⟨S8x1x196x256, .f32⟩
  | .hbm, ⟨16, _⟩ => ⟨S8x196x196x256, .f32⟩
  | .hbm, ⟨17, _⟩ => ⟨S8x196x196x256, .f32⟩
  | .hbm, ⟨18, _⟩ => ⟨S8x196x196x256, .f32⟩
  | .hbm, ⟨19, _⟩ => ⟨S1x1x1x256, .f32⟩
  | .hbm, ⟨20, _⟩ => ⟨S8x196x196x256, .f32⟩
  | .hbm, ⟨21, _⟩ => ⟨S8x196x196x256, .f32⟩
  | .hbm, ⟨22, _⟩ => ⟨S_, .f32⟩
  | .hbm, ⟨23, _⟩ => ⟨S8x196x196x256, .f32⟩
  | .hbm, ⟨24, _⟩ => ⟨S8x196x196x256, .f32⟩
  | .hbm, ⟨25, _⟩ => ⟨S8x196x196x1, .f32⟩
  | .hbm, ⟨26, _⟩ => ⟨S1x1x1x1, .f32⟩
  | .hbm, ⟨27, _⟩ => ⟨S8x196x196x1, .f32⟩
  | .hbm, ⟨28, _⟩ => ⟨S8x196x196x1, .f32⟩
  | .hbm, ⟨29, _⟩ => ⟨S8x38416, .f32⟩
  | .hbm, ⟨30, _⟩ => ⟨S_, .f32⟩
  | .hbm, ⟨31, _⟩ => ⟨S8, .f32⟩
  | .hbm, ⟨32, _⟩ => ⟨S8x1, .f32⟩
  | _, _ => ⟨S8x512x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  shapeCasts_S8x512x14x14_S8x512x196 : S8x512x14x14.ShapeCasts S8x512x196
  transposes_S8x512x196_S8x196x512_0_2_1 : S8x512x196.Transposes [0, 2, 1] S8x196x512
  slices_S1024x256_S512x256_0_0 : S1024x256.Slices ![0, 0] S512x256
  slices_S1024x256_S512x256_512_0 : S1024x256.Slices ![512, 0] S512x256
  bcast_S8x196x256_S8x196x1x256_0_1_3 : S8x196x256.BroadcastsInDim S8x196x1x256 (![0, 1, 3] : Fin 3 → Fin S8x196x1x256.rank)
  bcast_S8x196x256_S8x1x196x256_0_2_3 : S8x196x256.BroadcastsInDim S8x1x196x256 (![0, 2, 3] : Fin 3 → Fin S8x1x196x256.rank)
  bcast_S8x196x1x256_S8x196x196x256_0_1_2_3 : S8x196x1x256.BroadcastsInDim S8x196x196x256 (![0, 1, 2, 3] : Fin 4 → Fin S8x196x196x256.rank)
  bcast_S8x1x196x256_S8x196x196x256_0_1_2_3 : S8x1x196x256.BroadcastsInDim S8x196x196x256 (![0, 1, 2, 3] : Fin 4 → Fin S8x196x196x256.rank)
  bcast_S256_S1x1x1x256_3 : S256.BroadcastsInDim S1x1x1x256 (![3] : Fin 1 → Fin S1x1x1x256.rank)
  bcast_S1x1x1x256_S8x196x196x256_0_1_2_3 : S1x1x1x256.BroadcastsInDim S8x196x196x256 (![0, 1, 2, 3] : Fin 4 → Fin S8x196x196x256.rank)
  bcast_S_S8x196x196x256 : S_.BroadcastsInDim S8x196x196x256 (![] : Fin 0 → Fin S8x196x196x256.rank)
  bcast_S1_S1x1x1x1_3 : S1.BroadcastsInDim S1x1x1x1 (![3] : Fin 1 → Fin S1x1x1x1.rank)
  bcast_S1x1x1x1_S8x196x196x1_0_1_2_3 : S1x1x1x1.BroadcastsInDim S8x196x196x1 (![0, 1, 2, 3] : Fin 4 → Fin S8x196x196x1.rank)
  shapeCasts_S8x196x196x1_S8x38416 : S8x196x196x1.ShapeCasts S8x38416
  reducesTo_S8x38416_S8_d1 : S8x38416.ReducesTo [1] S8
  h_S_ : 0 < S_.numel
  bcast_S8_S8x1_0 : S8.BroadcastsInDim S8x1 (![0] : Fin 1 → Fin S8x1.rank)
  dot_S8x196x512_S512x256_S8x196x256_2_0_01_1_n_n_wf : DotDims.WF S8x196x512 S512x256 S8x196x256 [2] [0] [0, 1] [1] [] []
  dot_S8x196x196x256_S256x1_S8x196x196x1_3_0_012_1_n_n_wf : DotDims.WF S8x196x196x256 S256x1 S8x196x196x1 [3] [0] [0, 1, 2] [1] [] []

variable [Facts₀]

def dot_S8x196x512_S512x256_S8x196x256_2_0_01_1_n_n : DotDims S8x196x512 S512x256 S8x196x256 where
  lhsContracting := [2]
  rhsContracting := [0]
  lhsNonContracting := [0, 1]
  rhsNonContracting := [1]
  lhsBatch := []
  rhsBatch := []
  wf := dot_S8x196x512_S512x256_S8x196x256_2_0_01_1_n_n_wf
def dot_S8x196x196x256_S256x1_S8x196x196x1_3_0_012_1_n_n : DotDims S8x196x196x256 S256x1 S8x196x196x1 where
  lhsContracting := [3]
  rhsContracting := [0]
  lhsNonContracting := [0, 1, 2]
  rhsNonContracting := [1]
  lhsBatch := []
  rhsBatch := []
  wf := dot_S8x196x196x256_S256x1_S8x196x196x1_3_0_012_1_n_n_wf

class Facts : Prop extends Facts₀ where

variable [Facts]
-- ==== Proof.K.Reg0.lean ====
/-
  Region 0 of the kernel program: the projection kernel on its grid of 8 points (one per batch entry).

  At point t the body finds, in the staging buffers of its four input windows, the blocks of the two
  feature arrays at batch entry t (196 × 512 each) and the two whole weight halves (512 × 256 each); it leaves
  in each of its two output windows' buffers the product of one feature block with one weight half, a closed
  function of the input blocks: the single whole-buffer store's payload laid over the buffer.

  This module states, at any float instance and at any entry contents V of the core's buffers, the blocks
  the body finds, what it leaves, the body's triple, and the pipeline's proof data with its body obligation.
-/
import proofs.«180940_j64441689309605_1_alg».proof.Proof.Gen.Kernel.Launch
import proofs.«180940_j64441689309605_1_alg».proof.Proof.Gen.Kernel.Skeleton
import proofs.«180940_j64441689309605_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

-- membership in a rectangle of extents 196 × 512: the structural look recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it was
    not fetched the block index has not moved since the last fetch, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The weight windows are fetched once, at the first point; their index map is constant, so the same argument serves. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole rectangle -/

abbrev rX : Rect S1x196x512 := Rect.unit (s := S1x196x512) ![0, 0, 0] S1x196x512.size inb_S1x196x512_S1x196x512_0_0_0
abbrev rW : Rect S512x256 := Rect.unit (s := S512x256) ![0, 0] S512x256.size inb_S512x256_S512x256_0_0
abbrev rO : Rect S1x196x256 := Rect.unit (s := S1x196x256) ![0, 0, 0] S1x196x256.size inb_S1x196x256_S1x196x256_0_0_0

/-! ## What the body leaves in each output window's buffer -/

/-- The first output's buffer after the body: its one whole store, the product of the first feature block with
    the upper weight half. -/
def out0_4 (x0 : Vec F S1x196x512 .f32) (x2 : Vec F S512x256 .f32) : Vec F S1x196x256 .f32 :=
  View.canon [⟨rO, k0_pay1 (View.ld x0 rX) (View.ld x2 rW)⟩]

/-- The second output's buffer after the body: the product of the second feature block with the lower weight half. -/
def out0_5 (x1 : Vec F S1x196x512 .f32) (x3 : Vec F S512x256 .f32) : Vec F S1x196x256 .f32 :=
  View.canon [⟨rO, k0_pay2 (View.ld x1 rX) (View.ld x3 rW)⟩]

/-- One store through the whole rectangle covers the buffer. -/
theorem cover0_O (p0 : Vec F S1x196x256 .f32) (y : S1x196x256.Idx) :
    ∃ pc ∈ ([⟨rO, p0⟩] : List (View.Piece (Elt F) S1x196x256 .f32)), y ∈ pc.1.set :=
  View.cover_of_tiled [⟨rO, p0⟩] S1x196x256.size (by rfl) y

/-! ## The body's triple -/

set_option maxHeartbeats 4000000 in
/-- The kernel body on whole staging memrefs, the inputs' at read contents x0 … x3 and the outputs' at anything, runs
    to the continuation holding the inputs' as they were and each output's at its closed form of the inputs'. -/
theorem sound_kernel0 (c : Dev nD) (E : Set ℕ) (i : grid0.Coords)
    (arg1 : Memref sig .tc .vmem S1x196x512 .f32) (harg1 : arg1.IsWhole) (arg2 : Memref sig .tc .vmem S1x196x512 .f32) (harg2 : arg2.IsWhole)
    (arg3 : Memref sig .tc .vmem S512x256 .f32) (harg3 : arg3.IsWhole) (arg4 : Memref sig .tc .vmem S512x256 .f32) (harg4 : arg4.IsWhole)
    (arg5 : Memref sig .tc .vmem S1x196x256 .f32) (harg5 : arg5.IsWhole) (arg6 : Memref sig .tc .vmem S1x196x256 .f32) (harg6 : arg6.IsWhole)
    (x0 x1 : Vec F S1x196x512 .f32) (x2 x3 : Vec F S512x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x2) ∗ owns (c : Thread nD τ) arg6 fullShare (out0_5 x1 x3)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_O _)
  iexists _; isplitr
  swap; · iexact H5
  ipureintro
  exact View.read_writes_eq_canon _ _ _ (cover0_O _)

/-! ## The pipeline's proof data -/

/-- The proof data of the region on core c: the arrays as the region finds them; after the body at point t each
    input's buffer at its block and each output's at its closed form of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 2 t)
    | ⟨5, _⟩ => out0_5 (iblk0 V c 1 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1Runs.lean ====
/-
  The second kernel region, the pairwise relation kernel, one grid point at a time.

  The grid is 8 × 4 × 4: point `t` is batch entry `t / 16`, row tile `(t / 4) % 4`, column tile `t % 4`.  The body
  keeps a one-word running total in a scratch buffer: at the first tile of a batch entry (`t % 16 = 0`) it resets the
  total to zero, at every tile it adds the tile's masked sum of scores, and at the last tile (`t % 16 = 15`) it copies
  the total into the one-word output block, which is written back there and nowhere else.  So the body has three
  cases — first tile, middle tile, last tile — and this module runs the body once per case on arbitrary whole staging
  buffers: what each case leaves in the scratch and in the output block is found by the run itself.
-/
import proofs.«180940_j64441689309605_1_alg».proof.Proof.Gen.Kernel.Launch
import proofs.«180940_j64441689309605_1_alg».proof.Proof.Gen.Kernel.Skeleton
import proofs.«180940_j64441689309605_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: a block that is
    not fetched again has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two conditions of the body, decided over the grid -/

/-- "first tile of the batch entry": both tile coordinates are zero. -/
abbrev cond1_0 (i : grid1.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "last tile of the batch entry": both tile coordinates are three. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last tile nothing is stored into the output block, and it is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The staging and scratch memrefs -/

abbrev VO1_5 : View sig .tc .vmem S1x1x1 .f32 := (Memref.whole cc1_stg5_0 : Memref sig .tc .vmem S1x1x1 .f32).view
abbrev ms1_0 (t : Fin cfg1.N) : Memref sig .tc .vmem S1x64x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1 .f32 := win1_5.stage (cfg1.slots t 5)
abbrev hs1_5 (t : Fin cfg1.N) : (ms1_5 t).IsWhole := hstage1_5 ((cfg1.slots t 5).cast nbuf1_5)
/-- The running total's scratch buffer. -/
abbrev scM1_0 : Memref sig .tc .vmem S1x1x1 .f32 := Memref.whole cc1_scratch0
abbrev VS1_0 : View sig .tc .vmem S1x1x1 .f32 := scM1_0.view

/-- The first region's ten staging buffers, each whole at some contents: scoped buffers this region never touches. -/
abbrev rest0 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The region's invariant with the scratch buffer held as `S`: the untouched staging buffers, `S`, and the generator
    register at some state. -/
abbrev restWith (c : Dev nD) (S : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S) ∗ ∃ r, prngReg c r)

theorem restWith_open (c : Dev nD) (S : sProp 𝕄) : restWith c S ⊢ iprop(S ∗ rest0 c ∗ ∃ r, prngReg c r) := by
  iintro ⟨⟨H0, H1, H2, H3, H4, H5, H6, H7, H8, H9, HS⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hg

theorem restWith_close (c : Dev nD) (S : sProp 𝕄) : iprop(S ∗ rest0 c ∗ ∃ r, prngReg c r) ⊢ restWith c S := by
  iintro ⟨HS, ⟨H0, H1, H2, H3, H4, H5, H6, H7, H8, H9⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iexact Hg

/-- The class invariant of this region (every scoped buffer that is no staging buffer of it at anything, the generator
    register at some state) holds the scratch buffer at anything. -/
theorem PhiA1_eq (c : Dev nD) :
    (Pipeline.ΦA spec1 c : sProp 𝕄) = restWith c iprop(∃ d, owns (c : Thread nD τ) scM1_0 fullShare d) := by
  unfold Pipeline.ΦA; rw [scopedRest1_eq]; simp only [scM1_0, owns_whole]; try rfl

/-! ## The body, case by case -/

set_option maxHeartbeats 4000000 in
/-- FIRST TILE (reset, accumulate, no copy out): what the run leaves in the scratch, as the pieces it stored. -/
noncomputable def kernelRun1_A (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x0 : Vec F S1x64x256 .f32) (x1 : Vec F S1x64x256 .f32) (x2 : Vec F S1x256 .f32) (x3 : Vec F S1x256 .f32) (x4 : Vec F S1x1 .f32) :
    Σ' (L5 : List (View.Piece (Elt F) S1x1x1 .f32)), { LS0 : List (View.Piece (Elt F) S1x1x1 .f32) //
      ∀ (xi5 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__relation_kernel i arg3 harg3 arg4 harg4 arg5 harg5 arg6 harg6 arg7 harg7 arg8 harg8 arg9 harg9) K } := by
  refine ⟨[], ?_, fun xi5 E K => ?run⟩
  case run =>
    simp only [cc1__relation_kernel_eq_skeleton]; unfold cc1__relation_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

set_option maxHeartbeats 4000000 in
/-- MIDDLE TILE (accumulate only): the scratch enters at the total so far, \`xs0\`; the output block is handed back untouched. -/
noncomputable def kernelRun1_B (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) :
    Σ' (L5 : List (View.Piece (Elt F) S1x1x1 .f32)), { LS0 : List (View.Piece (Elt F) S1x1x1 .f32) //
      ∀ (xi5 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__relation_kernel i arg3 harg3 arg4 harg4 arg5 harg5 arg6 harg6 arg7 harg7 arg8 harg8 arg9 harg9) K } := by
  refine ⟨[], ?_, fun xi5 E K => ?run⟩
  case run =>
    simp only [cc1__relation_kernel_eq_skeleton]; unfold cc1__relation_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

set_option maxHeartbeats 4000000 in
/-- LAST TILE (accumulate, then copy the total into the output block): the output block enters at anything and leaves with the pieces the run stored. -/
noncomputable def kernelRun1_C (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) :
    Σ' (L5 : List (View.Piece (Elt F) S1x1x1 .f32)), { LS0 : List (View.Piece (Elt F) S1x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__relation_kernel i arg3 harg3 arg4 harg4 arg5 harg5 arg6 harg6 arg7 harg7 arg8 harg8 arg9 harg9) K } := by
  refine ⟨?_, ?_, fun E K => ?run⟩
  case run =>
    simp only [cc1__relation_kernel_eq_skeleton]; unfold cc1__relation_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Fr

end
-- ==== Proof.K.Reg1.lean ====
/-
  The second kernel region's proof data: what the scratch (the running total) and the output block hold after every
  grid point, the region's invariant carrying the scratch from point to point, and the body's obligation at every
  point.

  After point `n` the scratch holds what the case of `n` computes from the point's input blocks and, unless `n` is
  the first tile of its batch entry, from what point `n - 1` left there.  The output block is stored only at the
  last tile of a batch entry, where it is also written back; elsewhere it is idle.
-/
import proofs.«180940_j64441689309605_1_alg».proof.Proof.K.Reg1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output block: its pieces read back (none, a placeholder nothing consults, where the block is idle). -/
def out1_A_5 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x0 : Vec F S1x64x256 .f32) (x1 : Vec F S1x64x256 .f32) (x2 : Vec F S1x256 .f32) (x3 : Vec F S1x256 .f32) (x4 : Vec F S1x1 .f32) : Vec F S1x1x1 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- Case A's stores into the scratch cover it. -/
theorem scover1_A_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x0 : Vec F S1x64x256 .f32) (x1 : Vec F S1x64x256 .f32) (x2 : Vec F S1x256 .f32) (x3 : Vec F S1x256 .f32) (x4 : Vec F S1x1 .f32) (y : S1x1x1.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S1x1x1.size (by sl_kernel_rfl) y

/-- What case A leaves in the scratch: the running total after this tile. -/
def sout1_A_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x0 : Vec F S1x64x256 .f32) (x1 : Vec F S1x64x256 .f32) (x2 : Vec F S1x256 .f32) (x3 : Vec F S1x256 .f32) (x4 : Vec F S1x1 .f32) : Vec F S1x1x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- What case B leaves in the output block: its pieces read back (none, a placeholder nothing consults, where the block is idle). -/
def out1_B_5 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) : Vec F S1x1x1 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- Case B's stores into the scratch cover it. -/
theorem scover1_B_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) (y : S1x1x1.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S1x1x1.size (by sl_kernel_rfl) y

/-- What case B leaves in the scratch: the running total after this tile. -/
def sout1_B_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) : Vec F S1x1x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- In the last-tile case the run's one store into the output block covers it. -/
theorem cover1_C_5 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) (y : S1x1x1.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1x1x1.size (by sl_kernel_rfl) y

/-- What case C leaves in the output block: its pieces read back (none, a placeholder nothing consults, where the block is idle). -/
def out1_C_5 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) : Vec F S1x1x1 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- Case C's stores into the scratch cover it. -/
theorem scover1_C_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) (y : S1x1x1.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1x1x1.size (by sl_kernel_rfl) y

/-- What case C leaves in the scratch: the running total after this tile. -/
def sout1_C_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) : Vec F S1x1x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

section Data

variable (V : (c : Dev nD) → (b : Ref sig .tc) → Buf (Elt F) ((c : Thread nD τ).loc b))

/-- THE ACCUMULATION: what the output block and the scratch hold after the body at position `n`. -/
def outsAt1 (c : Dev nD) : (n : ℕ) → n < cfg1.N → Vec F S1x1x1 .f32 × Vec F S1x1x1 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 16 = 0 then
      if h1 : (n + 1) % 16 = 15 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 16 = 15 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards the
    scratch at the running total the point before left. -/
def PhiS (c : Dev nD) : (n : ℕ) → n ≤ cfg1.N → sProp 𝕄
  | 0, _ => Pipeline.ΦA spec1 c
  | n + 1, hn => restWith c (owns (c : Thread nD τ) scM1_0 fullShare ((outsAt1 V c n hn).2))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = restWith c (owns (c : Thread nD τ) scM1_0 fullShare ((outsAt1 V c n hn).2)) := rfl

theorem PhiS_pos (c : Dev nD) (n : ℕ) (h : n ≤ cfg1.N) (hz : n ≠ 0) :
    PhiS V c n h = restWith c (owns (c : Thread nD τ) scM1_0 fullShare ((outsAt1 V c (n - 1) (by omega)).2)) := by
  cases n with
  | zero => exact absurd rfl hz
  | succ n => rfl

/-- The proof data of the second pipeline on core `c`: the arrays as the region finds them; after the body each input's
    buffer at its block and the output block at the accumulation's first component; the invariant `PhiS`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]

end Data

end Cert.Kernel.Fr

end
-- ==== Proof.K.Fold.lean ====
/-
  The contents of every unscoped buffer at the boundaries of @main's nine items, followed from the launch memory: a
  host stretch applies its operations, a kernel region leaves its arrays at what its write-backs fold to and every other
  buffer as it was.
-/
import proofs.«180940_j64441689309605_1_alg».proof.Proof.K.Reg0
import proofs.«180940_j64441689309605_1_alg».proof.Proof.K.Reg1
import Idealize.ShloMosaic.Lib.Pipeline.RegionsLoop

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each item's boundary -/

abbrev W0 : Dev nD → Valuation τ sig (Elt F) := fun c b => m (c, b)
abbrev W1 : Dev nD → Valuation τ sig (Elt F) := fun c => StableHlo.after hostOps0 (W0 m c)
/-- The projection region's entry contents, read at the TensorCore's references. -/
abbrev Vr1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vx0 : (c : Dev nD) → (b : Ref sig .tc) → Buf (Elt F) ((c : Thread nD τ).loc b) := fun c b => W2 m c b
theorem hF0 (c : Dev nD) (w : Fin cfg0.W) : (dat0 (Vr1 m) c).arrAt w cfg0.N = Vx0 m c (Pipeline.arrRef spec0 w) :=
  (W2_arr m c w).symm
theorem hrest0 (c : Dev nD) : ∀ b, b ∉ Finset.univ.image (Pipeline.arrRef spec0) → Vx0 m c b = Vr1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
/-- The relation region's entry contents, read at the TensorCore's references. -/
abbrev Vr7 : (c : Dev nD) → (b : Ref sig .tc) → Buf (Elt F) ((c : Thread nD τ).loc b) := fun c b => W7 m c b
def W8 (c : Dev nD) : Valuation τ sig (Elt F) :=
  Pipeline.withArrays spec1 c (W7 m c) fun w => (dat1 (Vr7 m) c).arrAt w cfg1.N
theorem W8_arr (c : Dev nD) (w : Fin cfg1.W) :
    W8 m c (Proc.devRef .tc (Pipeline.arrRef spec1 w)) = (dat1 (Vr7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev Vx1 : (c : Dev nD) → (b : Ref sig .tc) → Buf (Elt F) ((c : Thread nD τ).loc b) := fun c b => W8 m c b
theorem hF1 (c : Dev nD) (w : Fin cfg1.W) : (dat1 (Vr7 m) c).arrAt w cfg1.N = Vx1 m c (Pipeline.arrRef spec1 w) :=
  (W8_arr m c w).symm
theorem hrest1 (c : Dev nD) : ∀ b, b ∉ Finset.univ.image (Pipeline.arrRef spec1) → Vx1 m c b = Vr7 m c b :=
  fun b hb => W8_of_ne m c b fun w e => hb (Finset.mem_image.mpr ⟨w, Finset.mem_univ _, e⟩)
abbrev W9 : Dev nD → Valuation τ sig (Elt F) := fun c => StableHlo.after hostOps2 (W8 m c)

end Cert.Kernel.Fr

end
-- ==== Proof.K.Reg1Body.lean ====
/-
  The body of the second kernel region at every grid point: the case the point is in is decided by `t % 16`; the
  invariant hands the body the scratch at the running total the point before left (at anything before the very first
  point, where the first-tile case resets it) and takes it back at this point's total.
-/
import proofs.«180940_j64441689309605_1_alg».proof.Proof.K.Reg1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4]
  have hN : t.val < 128 := lt_of_lt_of_eq t.isLt (show cfg1.N = 128 from N_1)
  by_cases h0 : t.val % 16 = 0
  · have h1 : ¬t.val % 16 = 15 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold sout1_A_0; (try dsimp only)
    by_cases hz : t.val = 0
    · rw [PhiS_castSucc V c t, PhiS_zero V c _ _ hz, PhiA1_eq]
      iintro ⟨HΦ, Ho, ⟨%d0, H0⟩, ⟨%d1, H1⟩, ⟨%d2, H2⟩, ⟨%d3, H3⟩, ⟨%d4, H4⟩, ⟨%d5, H5⟩⟩
      ihave HΦ' := (restWith_open c _) $$ HΦ
      icases HΦ' with ⟨HS0, Hr, Hg⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · iapply (restWith_close c _)
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (restWith_open c _) $$ HΦ
      icases HΦ' with ⟨HS0, Hr, Hg⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hr Hg]
      · iapply (restWith_close c _)
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 16 = 15
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0; (try dsimp only)
      rw [PhiS_castSucc V c t, PhiS_pos V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (restWith_open c _) $$ HΦ
      icases HΦ' with ⟨HS0, Hr, Hg⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hr Hg]
      · iapply (restWith_close c _)
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0; (try dsimp only)
      rw [PhiS_castSucc V c t, PhiS_pos V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (restWith_open c _) $$ HΦ
      icases HΦ' with ⟨HS0, Hr, Hg⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · iapply (restWith_close c _)
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the running total's value is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  iintro H
  ihave H' := (restWith_open c _) $$ H
  icases H' with ⟨HS0, Hr, Hg⟩
  iapply (restWith_close c _)
  isplitl [HS0]; · iexists _; iexact HS0
  isplitl [Hr]; · iexact Hr
  iexact Hg

end Body

end Cert.Kernel.Fr

end
-- ==== Proof.K.Run.lean ====
/-
  The whole program as a run: @main is nine items — a stretch of host operations (the two feature maps re-laid as
  [8, 196, 512] and the weight's two halves cut out), the projection kernel's region, five short stretches (the two
  projections padded with 60 zero rows each, the second layer's weight and the two biases re-laid as rows), the
  relation kernel's region, and the final reshape.  The contents of every unscoped buffer are followed from the launch
  memory through the items: a host stretch applies its operations, a region leaves its arrays at what its write-backs
  fold to and every other buffer as it was.  Every weakly fair execution terminates with every unscoped buffer at
  the last of these contents.
-/
import proofs.«180940_j64441689309605_1_alg».proof.Proof.Gen.Kernel.Regions
import proofs.«180940_j64441689309605_1_alg».proof.Proof.K.Fold
import proofs.«180940_j64441689309605_1_alg».proof.Proof.K.Reg1Body
import Idealize.ShloMosaic.Lib.Pipeline.RegionsLoop

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr7 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := StableHlo.held (c : Thread nD τ) (Pipeline.ucRefs τ sig) (W9 m c)

/-! ## The two regions as items -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (Vr7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr7 m) c)
    unfold Pipeline.ΦA
    iintro ⟨Hp, -, Hr⟩
    isplitl [Hr]; · iexact Hr
    iexact Hp
  hout c := by
    rw [Pipeline.ownSems0_none]
    refine BIBase.Entails.trans (hout1 (Vr7 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr7 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .region (reg1 m),
    .host (hseg hostOps2 hostOps2_sub hostOps2_fresh (W8 m)) ]

set_option backward.isDefEq.respectTransparency.types false in
/-- THE RUN: from any memory with zero counters every weakly fair execution of @main terminates, nothing faulting, and
    every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := fun c => StableHlo.held (c : Thread nD τ) (Pipeline.ucRefs τ sig) (W9 m c))
    (hch := ⟨fun _ => .rfl, fun _ => .rfl, fun _ => .rfl, fun _ => .rfl, fun _ => .rfl, fun _ => .rfl, fun _ => .rfl, fun _ => .rfl, fun _ => .rfl,
      fun c => sep_mono .rfl (show R c ⊢ (iprop(∃ W, owes (c : Thread nD τ) (0 : CellTallies nD τ sig Unit) W) : sProp 𝕄) from by
        iintro ⟨-, HO⟩
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      unfold StableHlo.held
      iintro ⟨Hh, HSI⟩
      imodintro
      iapply (pointsTo_read_all (Pipeline.ucRefs τ sig) (fun b => (((c : Thread nD τ)).1, b)) (W9 m c) s')
      isplitl [Hh] <;> iassumption)
    (hQ := fun s h c => h c)

end Cert.Kernel.Fr

end
-- ==== Proof.K.Frame.lean ====
/-
  The frame: no item of @main writes an argument — no host stretch names one as its result, and neither region has
  one among its windows' arrays — so each argument's buffer walks back through the boundaries to the launch memory.
-/
import proofs.«180940_j64441689309605_1_alg».proof.Proof.K.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host stretch writes and that is no array of either region ends as launched. -/
theorem W9_kept (c : Dev nD) (r : Ref sig .tc) (h0 : r ∉ hostOps0_W) (ha : ∀ w, Pipeline.arrRef spec0 w ≠ r)
    (h1 : r ∉ hostOps1_W) (h11 : r ∉ hostOps1_1_W) (h12 : r ∉ hostOps1_2_W) (h13 : r ∉ hostOps1_3_W) (h14 : r ∉ hostOps1_4_W)
    (hb : ∀ w, Pipeline.arrRef spec1 w ≠ r) (h2 : r ∉ hostOps2_W) :
    W9 m c (Proc.devRef .tc r) = m ((c : Thread nD τ).loc r) :=
  calc W9 m c (Proc.devRef .tc r)
    _ = W8 m c (Proc.devRef .tc r) := StableHlo.after_of_writes_sub hostOps2 _ hostOps2_writes h2
    _ = W7 m c (Proc.devRef .tc r) := W8_of_ne m c r hb
    _ = W6 m c (Proc.devRef .tc r) := StableHlo.after_of_writes_sub hostOps1_4 _ hostOps1_4_writes h14
    _ = W5 m c (Proc.devRef .tc r) := StableHlo.after_of_writes_sub hostOps1_3 _ hostOps1_3_writes h13
    _ = W4 m c (Proc.devRef .tc r) := StableHlo.after_of_writes_sub hostOps1_2 _ hostOps1_2_writes h12
    _ = W3 m c (Proc.devRef .tc r) := StableHlo.after_of_writes_sub hostOps1_1 _ hostOps1_1_writes h11
    _ = W2 m c (Proc.devRef .tc r) := StableHlo.after_of_writes_sub hostOps1 _ hostOps1_writes h1
    _ = W1 m c (Proc.devRef .tc r) := W2_of_ne m c r ha
    _ = W0 m c (Proc.devRef .tc r) := StableHlo.after_of_writes_sub hostOps0 _ hostOps0_writes h0
    _ = m ((c : Thread nD τ).loc r) := rfl

theorem W9_main_arg0 (c : Dev nD) : W9 m c (Proc.devRef .tc main_arg0) = m ((c : Thread nD τ).loc main_arg0) :=
  W9_kept m c main_arg0 (by decide) (by decide) (by decide) (by decide) (by decide) (by decide) (by decide) (by decide) (by decide)
theorem W9_main_arg1 (c : Dev nD) : W9 m c (Proc.devRef .tc main_arg1) = m ((c : Thread nD τ).loc main_arg1) :=
  W9_kept m c main_arg1 (by decide) (by decide) (by decide) (by decide) (by decide) (by decide) (by decide) (by decide) (by decide)
theorem W9_main_arg2 (c : Dev nD) : W9 m c (Proc.devRef .tc main_arg2) = m ((c : Thread nD τ).loc main_arg2) :=
  W9_kept m c main_arg2 (by decide) (by decide) (by decide) (by decide) (by decide) (by decide) (by decide) (by decide) (by decide)
theorem W9_main_arg3 (c : Dev nD) : W9 m c (Proc.devRef .tc main_arg3) = m ((c : Thread nD τ).loc main_arg3) :=
  W9_kept m c main_arg3 (by decide) (by decide) (by decide) (by decide) (by decide) (by decide) (by decide) (by decide) (by decide)
theorem W9_main_arg4 (c : Dev nD) : W9 m c (Proc.devRef .tc main_arg4) = m ((c : Thread nD τ).loc main_arg4) :=
  W9_kept m c main_arg4 (by decide) (by decide) (by decide) (by decide) (by decide) (by decide) (by decide) (by decide) (by decide)
theorem W9_main_arg5 (c : Dev nD) : W9 m c (Proc.devRef .tc main_arg5) = m ((c : Thread nD τ).loc main_arg5) :=
  W9_kept m c main_arg5 (by decide) (by decide) (by decide) (by decide) (by decide) (by decide) (by decide) (by decide) (by decide)

/-- The run with the result buffer named and the arguments as launched. -/
theorem run_named : θ_run defs (onTc (τ := τ) (main (F := F))) ⟨m, fun _ => 0, ρ⟩ (fun r => ∀ c : Dev nD,
      r.2.mem ((c.tc : Thread nD τ).loc main_v14) = W9 m c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v14 (by decide)),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c)⟩) (run_all m ρ)

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.Kernel.Fr

end
-- ==== Proof.KI.Reg0.lean ====
/-
  Region 0 of the kernel program: the projection kernel on its grid of 8 points (one per batch entry).

  At point t the body finds, in the staging buffers of its four input windows, the blocks of the two
  feature arrays at batch entry t (196 × 512 each) and the two whole weight halves (512 × 256 each); it leaves
  in each of its two output windows' buffers the product of one feature block with one weight half, a closed
  function of the input blocks: the single whole-buffer store's payload laid over the buffer.

  This module states, at any float instance and at any entry contents V of the core's buffers, the blocks
  the body finds, what it leaves, the body's triple, and the pipeline's proof data with its body obligation.
-/
import proofs.«180940_j64441689309605_1_alg».proof.Proof.Gen.KernelIdeal.Launch
import proofs.«180940_j64441689309605_1_alg».proof.Proof.Gen.KernelIdeal.Skeleton
import proofs.«180940_j64441689309605_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

-- membership in a rectangle of extents 196 × 512: the structural look recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it was
    not fetched the block index has not moved since the last fetch, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The weight windows are fetched once, at the first point; their index map is constant, so the same argument serves. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole rectangle -/

abbrev rX : Rect S1x196x512 := Rect.unit (s := S1x196x512) ![0, 0, 0] S1x196x512.size inb_S1x196x512_S1x196x512_0_0_0
abbrev rW : Rect S512x256 := Rect.unit (s := S512x256) ![0, 0] S512x256.size inb_S512x256_S512x256_0_0
abbrev rO : Rect S1x196x256 := Rect.unit (s := S1x196x256) ![0, 0, 0] S1x196x256.size inb_S1x196x256_S1x196x256_0_0_0

/-! ## What the body leaves in each output window's buffer -/

/-- The first output's buffer after the body: its one whole store, the product of the first feature block with
    the upper weight half. -/
def out0_4 (x0 : Vec F S1x196x512 .f32) (x2 : Vec F S512x256 .f32) : Vec F S1x196x256 .f32 :=
  View.canon [⟨rO, k0_pay1 (View.ld x0 rX) (View.ld x2 rW)⟩]

/-- The second output's buffer after the body: the product of the second feature block with the lower weight half. -/
def out0_5 (x1 : Vec F S1x196x512 .f32) (x3 : Vec F S512x256 .f32) : Vec F S1x196x256 .f32 :=
  View.canon [⟨rO, k0_pay2 (View.ld x1 rX) (View.ld x3 rW)⟩]

/-- One store through the whole rectangle covers the buffer. -/
theorem cover0_O (p0 : Vec F S1x196x256 .f32) (y : S1x196x256.Idx) :
    ∃ pc ∈ ([⟨rO, p0⟩] : List (View.Piece (Elt F) S1x196x256 .f32)), y ∈ pc.1.set :=
  View.cover_of_tiled [⟨rO, p0⟩] S1x196x256.size (by rfl) y

/-! ## The body's triple -/

set_option maxHeartbeats 4000000 in
/-- The kernel body on whole staging memrefs, the inputs' at read contents x0 … x3 and the outputs' at anything, runs
    to the continuation holding the inputs' as they were and each output's at its closed form of the inputs'. -/
theorem sound_kernel0 (c : Dev nD) (E : Set ℕ) (i : grid0.Coords)
    (arg1 : Memref sig .tc .vmem S1x196x512 .f32) (harg1 : arg1.IsWhole) (arg2 : Memref sig .tc .vmem S1x196x512 .f32) (harg2 : arg2.IsWhole)
    (arg3 : Memref sig .tc .vmem S512x256 .f32) (harg3 : arg3.IsWhole) (arg4 : Memref sig .tc .vmem S512x256 .f32) (harg4 : arg4.IsWhole)
    (arg5 : Memref sig .tc .vmem S1x196x256 .f32) (harg5 : arg5.IsWhole) (arg6 : Memref sig .tc .vmem S1x196x256 .f32) (harg6 : arg6.IsWhole)
    (x0 x1 : Vec F S1x196x512 .f32) (x2 x3 : Vec F S512x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x2) ∗ owns (c : Thread nD τ) arg6 fullShare (out0_5 x1 x3)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_O _)
  iexists _; isplitr
  swap; · iexact H5
  ipureintro
  exact View.read_writes_eq_canon _ _ _ (cover0_O _)

/-! ## The pipeline's proof data -/

/-- The proof data of the region on core c: the arrays as the region finds them; after the body at point t each
    input's buffer at its block and each output's at its closed form of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 2 t)
    | ⟨5, _⟩ => out0_5 (iblk0 V c 1 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1Runs.lean ====
/-
  The second kernel region, the pairwise relation kernel, one grid point at a time.

  The grid is 8 × 4 × 4: point `t` is batch entry `t / 16`, row tile `(t / 4) % 4`, column tile `t % 4`.  The body
  keeps a one-word running total in a scratch buffer: at the first tile of a batch entry (`t % 16 = 0`) it resets the
  total to zero, at every tile it adds the tile's masked sum of scores, and at the last tile (`t % 16 = 15`) it copies
  the total into the one-word output block, which is written back there and nowhere else.  So the body has three
  cases — first tile, middle tile, last tile — and this module runs the body once per case on arbitrary whole staging
  buffers: what each case leaves in the scratch and in the output block is found by the run itself.
-/
import proofs.«180940_j64441689309605_1_alg».proof.Proof.Gen.KernelIdeal.Launch
import proofs.«180940_j64441689309605_1_alg».proof.Proof.Gen.KernelIdeal.Skeleton
import proofs.«180940_j64441689309605_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: a block that is
    not fetched again has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two conditions of the body, decided over the grid -/

/-- "first tile of the batch entry": both tile coordinates are zero. -/
abbrev cond1_0 (i : grid1.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "last tile of the batch entry": both tile coordinates are three. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last tile nothing is stored into the output block, and it is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The staging and scratch memrefs -/

abbrev VO1_5 : View sig .tc .vmem S1x1x1 .f32 := (Memref.whole cc1_stg5_0 : Memref sig .tc .vmem S1x1x1 .f32).view
abbrev ms1_0 (t : Fin cfg1.N) : Memref sig .tc .vmem S1x64x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1 .f32 := win1_5.stage (cfg1.slots t 5)
abbrev hs1_5 (t : Fin cfg1.N) : (ms1_5 t).IsWhole := hstage1_5 ((cfg1.slots t 5).cast nbuf1_5)
/-- The running total's scratch buffer. -/
abbrev scM1_0 : Memref sig .tc .vmem S1x1x1 .f32 := Memref.whole cc1_scratch0
abbrev VS1_0 : View sig .tc .vmem S1x1x1 .f32 := scM1_0.view

/-- The first region's ten staging buffers, each whole at some contents: scoped buffers this region never touches. -/
abbrev rest0 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The region's invariant with the scratch buffer held as `S`: the untouched staging buffers, `S`, and the generator
    register at some state. -/
abbrev restWith (c : Dev nD) (S : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S) ∗ ∃ r, prngReg c r)

theorem restWith_open (c : Dev nD) (S : sProp 𝕄) : restWith c S ⊢ iprop(S ∗ rest0 c ∗ ∃ r, prngReg c r) := by
  iintro ⟨⟨H0, H1, H2, H3, H4, H5, H6, H7, H8, H9, HS⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hg

theorem restWith_close (c : Dev nD) (S : sProp 𝕄) : iprop(S ∗ rest0 c ∗ ∃ r, prngReg c r) ⊢ restWith c S := by
  iintro ⟨HS, ⟨H0, H1, H2, H3, H4, H5, H6, H7, H8, H9⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iexact Hg

/-- The class invariant of this region (every scoped buffer that is no staging buffer of it at anything, the generator
    register at some state) holds the scratch buffer at anything. -/
theorem PhiA1_eq (c : Dev nD) :
    (Pipeline.ΦA spec1 c : sProp 𝕄) = restWith c iprop(∃ d, owns (c : Thread nD τ) scM1_0 fullShare d) := by
  unfold Pipeline.ΦA; rw [scopedRest1_eq]; simp only [scM1_0, owns_whole]; try rfl

/-! ## The body, case by case -/

set_option maxHeartbeats 4000000 in
/-- FIRST TILE (reset, accumulate, no copy out): what the run leaves in the scratch, as the pieces it stored. -/
noncomputable def kernelRun1_A (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x0 : Vec F S1x64x256 .f32) (x1 : Vec F S1x64x256 .f32) (x2 : Vec F S1x256 .f32) (x3 : Vec F S1x256 .f32) (x4 : Vec F S1x1 .f32) :
    Σ' (L5 : List (View.Piece (Elt F) S1x1x1 .f32)), { LS0 : List (View.Piece (Elt F) S1x1x1 .f32) //
      ∀ (xi5 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__relation_kernel i arg3 harg3 arg4 harg4 arg5 harg5 arg6 harg6 arg7 harg7 arg8 harg8 arg9 harg9) K } := by
  refine ⟨[], ?_, fun xi5 E K => ?run⟩
  case run =>
    simp only [cc1__relation_kernel_eq_skeleton]; unfold cc1__relation_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

set_option maxHeartbeats 4000000 in
/-- MIDDLE TILE (accumulate only): the scratch enters at the total so far, \`xs0\`; the output block is handed back untouched. -/
noncomputable def kernelRun1_B (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) :
    Σ' (L5 : List (View.Piece (Elt F) S1x1x1 .f32)), { LS0 : List (View.Piece (Elt F) S1x1x1 .f32) //
      ∀ (xi5 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__relation_kernel i arg3 harg3 arg4 harg4 arg5 harg5 arg6 harg6 arg7 harg7 arg8 harg8 arg9 harg9) K } := by
  refine ⟨[], ?_, fun xi5 E K => ?run⟩
  case run =>
    simp only [cc1__relation_kernel_eq_skeleton]; unfold cc1__relation_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

set_option maxHeartbeats 4000000 in
/-- LAST TILE (accumulate, then copy the total into the output block): the output block enters at anything and leaves with the pieces the run stored. -/
noncomputable def kernelRun1_C (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) :
    Σ' (L5 : List (View.Piece (Elt F) S1x1x1 .f32)), { LS0 : List (View.Piece (Elt F) S1x1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__relation_kernel i arg3 harg3 arg4 harg4 arg5 harg5 arg6 harg6 arg7 harg7 arg8 harg8 arg9 harg9) K } := by
  refine ⟨?_, ?_, fun E K => ?run⟩
  case run =>
    simp only [cc1__relation_kernel_eq_skeleton]; unfold cc1__relation_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Fr

end
-- ==== Proof.KI.Reg1.lean ====
/-
  The second kernel region's proof data: what the scratch (the running total) and the output block hold after every
  grid point, the region's invariant carrying the scratch from point to point, and the body's obligation at every
  point.

  After point `n` the scratch holds what the case of `n` computes from the point's input blocks and, unless `n` is
  the first tile of its batch entry, from what point `n - 1` left there.  The output block is stored only at the
  last tile of a batch entry, where it is also written back; elsewhere it is idle.
-/
import proofs.«180940_j64441689309605_1_alg».proof.Proof.KI.Reg1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output block: its pieces read back (none, a placeholder nothing consults, where the block is idle). -/
def out1_A_5 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x0 : Vec F S1x64x256 .f32) (x1 : Vec F S1x64x256 .f32) (x2 : Vec F S1x256 .f32) (x3 : Vec F S1x256 .f32) (x4 : Vec F S1x1 .f32) : Vec F S1x1x1 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- Case A's stores into the scratch cover it. -/
theorem scover1_A_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x0 : Vec F S1x64x256 .f32) (x1 : Vec F S1x64x256 .f32) (x2 : Vec F S1x256 .f32) (x3 : Vec F S1x256 .f32) (x4 : Vec F S1x1 .f32) (y : S1x1x1.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S1x1x1.size (by sl_kernel_rfl) y

/-- What case A leaves in the scratch: the running total after this tile. -/
def sout1_A_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i)
    (x0 : Vec F S1x64x256 .f32) (x1 : Vec F S1x64x256 .f32) (x2 : Vec F S1x256 .f32) (x3 : Vec F S1x256 .f32) (x4 : Vec F S1x1 .f32) : Vec F S1x1x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- What case B leaves in the output block: its pieces read back (none, a placeholder nothing consults, where the block is idle). -/
def out1_B_5 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) : Vec F S1x1x1 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- Case B's stores into the scratch cover it. -/
theorem scover1_B_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) (y : S1x1x1.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S1x1x1.size (by sl_kernel_rfl) y

/-- What case B leaves in the scratch: the running total after this tile. -/
def sout1_B_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) : Vec F S1x1x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- In the last-tile case the run's one store into the output block covers it. -/
theorem cover1_C_5 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) (y : S1x1x1.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1x1x1.size (by sl_kernel_rfl) y

/-- What case C leaves in the output block: its pieces read back (none, a placeholder nothing consults, where the block is idle). -/
def out1_C_5 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) : Vec F S1x1x1 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- Case C's stores into the scratch cover it. -/
theorem scover1_C_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) (y : S1x1x1.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1x1x1.size (by sl_kernel_rfl) y

/-- What case C leaves in the scratch: the running total after this tile. -/
def sout1_C_0 (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i)
    (x0 : Vec F S1x64x256 .f32) (x1 : Vec F S1x64x256 .f32) (x2 : Vec F S1x256 .f32) (x3 : Vec F S1x256 .f32) (x4 : Vec F S1x1 .f32) (xs0 : Vec F S1x1x1 .f32) : Vec F S1x1x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

section Data

variable (V : (c : Dev nD) → (b : Ref sig .tc) → Buf (Elt F) ((c : Thread nD τ).loc b))

/-- THE ACCUMULATION: what the output block and the scratch hold after the body at position `n`. -/
def outsAt1 (c : Dev nD) : (n : ℕ) → n < cfg1.N → Vec F S1x1x1 .f32 × Vec F S1x1x1 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 16 = 0 then
      if h1 : (n + 1) % 16 = 15 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 16 = 15 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer at anything; afterwards the
    scratch at the running total the point before left. -/
def PhiS (c : Dev nD) : (n : ℕ) → n ≤ cfg1.N → sProp 𝕄
  | 0, _ => Pipeline.ΦA spec1 c
  | n + 1, hn => restWith c (owns (c : Thread nD τ) scM1_0 fullShare ((outsAt1 V c n hn).2))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = restWith c (owns (c : Thread nD τ) scM1_0 fullShare ((outsAt1 V c n hn).2)) := rfl

theorem PhiS_pos (c : Dev nD) (n : ℕ) (h : n ≤ cfg1.N) (hz : n ≠ 0) :
    PhiS V c n h = restWith c (owns (c : Thread nD τ) scM1_0 fullShare ((outsAt1 V c (n - 1) (by omega)).2)) := by
  cases n with
  | zero => exact absurd rfl hz
  | succ n => rfl

/-- The proof data of the second pipeline on core `c`: the arrays as the region finds them; after the body each input's
    buffer at its block and the output block at the accumulation's first component; the invariant `PhiS`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]

end Data

end Cert.KernelIdeal.Fr

end
-- ==== Proof.KI.Fold.lean ====
/-
  The contents of every unscoped buffer at the boundaries of @main's nine items, followed from the launch memory: a
  host stretch applies its operations, a kernel region leaves its arrays at what its write-backs fold to and every other
  buffer as it was.
-/
import proofs.«180940_j64441689309605_1_alg».proof.Proof.KI.Reg0
import proofs.«180940_j64441689309605_1_alg».proof.Proof.KI.Reg1
import Idealize.ShloMosaic.Lib.Pipeline.RegionsLoop

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each item's boundary -/

abbrev W0 : Dev nD → Valuation τ sig (Elt F) := fun c b => m (c, b)
abbrev W1 : Dev nD → Valuation τ sig (Elt F) := fun c => StableHlo.after hostOps0 (W0 m c)
/-- The projection region's entry contents, read at the TensorCore's references. -/
abbrev Vr1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vx0 : (c : Dev nD) → (b : Ref sig .tc) → Buf (Elt F) ((c : Thread nD τ).loc b) := fun c b => W2 m c b
theorem hF0 (c : Dev nD) (w : Fin cfg0.W) : (dat0 (Vr1 m) c).arrAt w cfg0.N = Vx0 m c (Pipeline.arrRef spec0 w) :=
  (W2_arr m c w).symm
theorem hrest0 (c : Dev nD) : ∀ b, b ∉ Finset.univ.image (Pipeline.arrRef spec0) → Vx0 m c b = Vr1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
/-- The relation region's entry contents, read at the TensorCore's references. -/
abbrev Vr7 : (c : Dev nD) → (b : Ref sig .tc) → Buf (Elt F) ((c : Thread nD τ).loc b) := fun c b => W7 m c b
def W8 (c : Dev nD) : Valuation τ sig (Elt F) :=
  Pipeline.withArrays spec1 c (W7 m c) fun w => (dat1 (Vr7 m) c).arrAt w cfg1.N
theorem W8_arr (c : Dev nD) (w : Fin cfg1.W) :
    W8 m c (Proc.devRef .tc (Pipeline.arrRef spec1 w)) = (dat1 (Vr7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev Vx1 : (c : Dev nD) → (b : Ref sig .tc) → Buf (Elt F) ((c : Thread nD τ).loc b) := fun c b => W8 m c b
theorem hF1 (c : Dev nD) (w : Fin cfg1.W) : (dat1 (Vr7 m) c).arrAt w cfg1.N = Vx1 m c (Pipeline.arrRef spec1 w) :=
  (W8_arr m c w).symm
theorem hrest1 (c : Dev nD) : ∀ b, b ∉ Finset.univ.image (Pipeline.arrRef spec1) → Vx1 m c b = Vr7 m c b :=
  fun b hb => W8_of_ne m c b fun w e => hb (Finset.mem_image.mpr ⟨w, Finset.mem_univ _, e⟩)
abbrev W9 : Dev nD → Valuation τ sig (Elt F) := fun c => StableHlo.after hostOps2 (W8 m c)

end Cert.KernelIdeal.Fr

end
-- ==== Proof.KI.Reg1Body.lean ====
/-
  The body of the second kernel region at every grid point: the case the point is in is decided by `t % 16`; the
  invariant hands the body the scratch at the running total the point before left (at anything before the very first
  point, where the first-tile case resets it) and takes it back at this point's total.
-/
import proofs.«180940_j64441689309605_1_alg».proof.Proof.KI.Reg1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4]
  have hN : t.val < 128 := lt_of_lt_of_eq t.isLt (show cfg1.N = 128 from N_1)
  by_cases h0 : t.val % 16 = 0
  · have h1 : ¬t.val % 16 = 15 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold sout1_A_0; (try dsimp only)
    by_cases hz : t.val = 0
    · rw [PhiS_castSucc V c t, PhiS_zero V c _ _ hz, PhiA1_eq]
      iintro ⟨HΦ, Ho, ⟨%d0, H0⟩, ⟨%d1, H1⟩, ⟨%d2, H2⟩, ⟨%d3, H3⟩, ⟨%d4, H4⟩, ⟨%d5, H5⟩⟩
      ihave HΦ' := (restWith_open c _) $$ HΦ
      icases HΦ' with ⟨HS0, Hr, Hg⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · iapply (restWith_close c _)
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (restWith_open c _) $$ HΦ
      icases HΦ' with ⟨HS0, Hr, Hg⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hr Hg]
      · iapply (restWith_close c _)
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 16 = 15
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0; (try dsimp only)
      rw [PhiS_castSucc V c t, PhiS_pos V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (restWith_open c _) $$ HΦ
      icases HΦ' with ⟨HS0, Hr, Hg⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hr Hg]
      · iapply (restWith_close c _)
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0; (try dsimp only)
      rw [PhiS_castSucc V c t, PhiS_pos V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (restWith_open c _) $$ HΦ
      icases HΦ' with ⟨HS0, Hr, Hg⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · iapply (restWith_close c _)
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the running total's value is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  iintro H
  ihave H' := (restWith_open c _) $$ H
  icases H' with ⟨HS0, Hr, Hg⟩
  iapply (restWith_close c _)
  isplitl [HS0]; · iexists _; iexact HS0
  isplitl [Hr]; · iexact Hr
  iexact Hg

end Body

end Cert.KernelIdeal.Fr

end
-- ==== Proof.KI.Run.lean ====
/-
  The whole program as a run: @main is nine items — a stretch of host operations (the two feature maps re-laid as
  [8, 196, 512] and the weight's two halves cut out), the projection kernel's region, five short stretches (the two
  projections padded with 60 zero rows each, the second layer's weight and the two biases re-laid as rows), the
  relation kernel's region, and the final reshape.  The contents of every unscoped buffer are followed from the launch
  memory through the items: a host stretch applies its operations, a region leaves its arrays at what its write-backs
  fold to and every other buffer as it was.  Every weakly fair execution terminates with every unscoped buffer at
  the last of these contents.
-/
import proofs.«180940_j64441689309605_1_alg».proof.Proof.Gen.KernelIdeal.Regions
import proofs.«180940_j64441689309605_1_alg».proof.Proof.KI.Fold
import proofs.«180940_j64441689309605_1_alg».proof.Proof.KI.Reg1Body
import Idealize.ShloMosaic.Lib.Pipeline.RegionsLoop

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr7 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := StableHlo.held (c : Thread nD τ) (Pipeline.ucRefs τ sig) (W9 m c)

/-! ## The two regions as items -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (Vr7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr7 m) c)
    unfold Pipeline.ΦA
    iintro ⟨Hp, -, Hr⟩
    isplitl [Hr]; · iexact Hr
    iexact Hp
  hout c := by
    rw [Pipeline.ownSems0_none]
    refine BIBase.Entails.trans (hout1 (Vr7 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr7 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .region (reg1 m),
    .host (hseg hostOps2 hostOps2_sub hostOps2_fresh (W8 m)) ]

set_option backward.isDefEq.respectTransparency.types false in
/-- THE RUN: from any memory with zero counters every weakly fair execution of @main terminates, nothing faulting, and
    every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := fun c => StableHlo.held (c : Thread nD τ) (Pipeline.ucRefs τ sig) (W9 m c))
    (hch := ⟨fun _ => .rfl, fun _ => .rfl, fun _ => .rfl, fun _ => .rfl, fun _ => .rfl, fun _ => .rfl, fun _ => .rfl, fun _ => .rfl, fun _ => .rfl,
      fun c => sep_mono .rfl (show R c ⊢ (iprop(∃ W, owes (c : Thread nD τ) (0 : CellTallies nD τ sig Unit) W) : sProp 𝕄) from by
        iintro ⟨-, HO⟩
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      unfold StableHlo.held
      iintro ⟨Hh, HSI⟩
      imodintro
      iapply (pointsTo_read_all (Pipeline.ucRefs τ sig) (fun b => (((c : Thread nD τ)).1, b)) (W9 m c) s')
      isplitl [Hh] <;> iassumption)
    (hQ := fun s h c => h c)

end Cert.KernelIdeal.Fr

end
-- ==== Proof.KI.Frame.lean ====
/-
  The frame: no item of @main writes an argument — no host stretch names one as its result, and neither region has
  one among its windows' arrays — so each argument's buffer walks back through the boundaries to the launch memory.
-/
import proofs.«180940_j64441689309605_1_alg».proof.Proof.KI.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host stretch writes and that is no array of either region ends as launched. -/
theorem W9_kept (c : Dev nD) (r : Ref sig .tc) (h0 : r ∉ hostOps0_W) (ha : ∀ w, Pipeline.arrRef spec0 w ≠ r)
    (h1 : r ∉ hostOps1_W) (h11 : r ∉ hostOps1_1_W) (h12 : r ∉ hostOps1_2_W) (h13 : r ∉ hostOps1_3_W) (h14 : r ∉ hostOps1_4_W)
    (hb : ∀ w, Pipeline.arrRef spec1 w ≠ r) (h2 : r ∉ hostOps2_W) :
    W9 m c (Proc.devRef .tc r) = m ((c : Thread nD τ).loc r) :=
  calc W9 m c (Proc.devRef .tc r)
    _ = W8 m c (Proc.devRef .tc r) := StableHlo.after_of_writes_sub hostOps2 _ hostOps2_writes h2
    _ = W7 m c (Proc.devRef .tc r) := W8_of_ne m c r hb
    _ = W6 m c (Proc.devRef .tc r) := StableHlo.after_of_writes_sub hostOps1_4 _ hostOps1_4_writes h14
    _ = W5 m c (Proc.devRef .tc r) := StableHlo.after_of_writes_sub hostOps1_3 _ hostOps1_3_writes h13
    _ = W4 m c (Proc.devRef .tc r) := StableHlo.after_of_writes_sub hostOps1_2 _ hostOps1_2_writes h12
    _ = W3 m c (Proc.devRef .tc r) := StableHlo.after_of_writes_sub hostOps1_1 _ hostOps1_1_writes h11
    _ = W2 m c (Proc.devRef .tc r) := StableHlo.after_of_writes_sub hostOps1 _ hostOps1_writes h1
    _ = W1 m c (Proc.devRef .tc r) := W2_of_ne m c r ha
    _ = W0 m c (Proc.devRef .tc r) := StableHlo.after_of_writes_sub hostOps0 _ hostOps0_writes h0
    _ = m ((c : Thread nD τ).loc r) := rfl

theorem W9_main_arg0 (c : Dev nD) : W9 m c (Proc.devRef .tc main_arg0) = m ((c : Thread nD τ).loc main_arg0) :=
  W9_kept m c main_arg0 (by decide) (by decide) (by decide) (by decide) (by decide) (by decide) (by decide) (by decide) (by decide)
theorem W9_main_arg1 (c : Dev nD) : W9 m c (Proc.devRef .tc main_arg1) = m ((c : Thread nD τ).loc main_arg1) :=
  W9_kept m c main_arg1 (by decide) (by decide) (by decide) (by decide) (by decide) (by decide) (by decide) (by decide) (by decide)
theorem W9_main_arg2 (c : Dev nD) : W9 m c (Proc.devRef .tc main_arg2) = m ((c : Thread nD τ).loc main_arg2) :=
  W9_kept m c main_arg2 (by decide) (by decide) (by decide) (by decide) (by decide) (by decide) (by decide) (by decide) (by decide)
theorem W9_main_arg3 (c : Dev nD) : W9 m c (Proc.devRef .tc main_arg3) = m ((c : Thread nD τ).loc main_arg3) :=
  W9_kept m c main_arg3 (by decide) (by decide) (by decide) (by decide) (by decide) (by decide) (by decide) (by decide) (by decide)
theorem W9_main_arg4 (c : Dev nD) : W9 m c (Proc.devRef .tc main_arg4) = m ((c : Thread nD τ).loc main_arg4) :=
  W9_kept m c main_arg4 (by decide) (by decide) (by decide) (by decide) (by decide) (by decide) (by decide) (by decide) (by decide)
theorem W9_main_arg5 (c : Dev nD) : W9 m c (Proc.devRef .tc main_arg5) = m ((c : Thread nD τ).loc main_arg5) :=
  W9_kept m c main_arg5 (by decide) (by decide) (by decide) (by decide) (by decide) (by decide) (by decide) (by decide) (by decide)

/-- The run with the result buffer named and the arguments as launched. -/
theorem run_named : θ_run defs (onTc (τ := τ) (main (F := F))) ⟨m, fun _ => 0, ρ⟩ (fun r => ∀ c : Dev nD,
      r.2.mem ((c.tc : Thread nD τ).loc main_v14) = W9 m c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v14 (by decide)),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c)⟩) (run_all m ρ)

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.KernelIdeal.Fr

end
-- ==== Proof.KI.Val1Tile.lean ====
/-
  The value of one grid point of the relation kernel, in the extended reals.

  A grid point is a batch entry and a tile (I, J) of 64 × 64 location pairs.  The body loads the row tile's block of
  the first projection, the column tile's block of the second, the first bias row, the second layer's weight row and
  the second bias; for every pair (ii, jj) of the tile it forms the score
      (∑ h, max (p1[ii, h] + p2[jj, h] + b1[h]) 0 · W2[h]) + b2,
  replaces the score by zero where location I·64 + ii or J·64 + jj is 196 or more, sums the 64 × 64 masked scores
  (along the columns, then along the rows) and adds the sum to the one-word running total in the scratch buffer.  At
  the first tile of a batch entry the total is reset to zero before the addition; at the last tile the new total is
  also copied into the one-word output block.

  Part 1 (any float model): what each of the three cases stores is the skeleton's payload of the loaded blocks.
  Part 2 (extended reals): that payload at its one index is the total so far plus the tile's masked sum `tilePart`,
  a sum over ii, jj : Fin 64 with an if-then-else for the mask; only the pointwise reading of the operations and the
  reading of a lane sum as a finite sum are used.
-/
import proofs.«180940_j64441689309605_1_alg».proof.Proof.KI.Reg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## What each case stores, as the payloads of the blocks -/

section Pieces
variable {F : FTy → Type} [FloatOps F]

theorem zero3 : (![0, 0, 0] : Fin 3 → Nat) = fun _ => 0 := funext fun a => by fin_cases a <;> rfl
theorem zero2 : (![0, 0] : Fin 2 → Nat) = fun _ => 0 := funext fun a => by fin_cases a <;> rfl

/-- First tile: the scratch is stored twice, the zero word and then the zero word plus the tile's masked sum; the
    second store covers the first and reads it back. -/
theorem sout1_A_0_eq (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i) (x0 : Vec F S1x64x256 .f32) (x1 : Vec F S1x64x256 .f32) (x2 : Vec F S1x256 .f32) (x3 : Vec F S1x256 .f32) (x4 : Vec F S1x1 .f32) :
    sout1_A_0 c i arg3 harg3 arg4 harg4 arg5 harg5 arg6 harg6 arg7 harg7 arg8 harg8 arg9 harg9 hc0 hc1 x0 x1 x2 x3 x4
      = k1_pay1 (k1_pay3 x0 x1 x3 x2 x4) (Scalar.muli (BitVec.ofNat 32 (i 1).val) 64#32) (Scalar.muli (BitVec.ofNat 32 (i 2).val) 64#32) (iota .tc S64x64 32 [0] iota_S64x64_d0_w32) (k1_pay2 (F := F)) := by
  unfold sout1_A_0
  rw [View.read_writes_eq_canon _ _ _ (scover1_A_0 c i arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S1x1x1) zero3]
  simp only [View.readAt_eq_ld, harg3.read_unread, harg4.read_unread, harg5.read_unread, harg6.read_unread, harg7.read_unread, harg8.read_unread, harg9.read_unread, View.ld_unit_zero (S := S1x1x1) zero3, View.ld_unit_zero (S := S1x64x256) zero3, View.ld_unit_zero (S := S1x256) zero2, View.ld_unit_zero (S := S1x1) zero2, View.readCov_unit_zero (S := S1x1x1) _ zero3]

/-- Middle tile: the one store is the total so far plus the tile's masked sum. -/
theorem sout1_B_0_eq (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i) (x0 : Vec F S1x64x256 .f32) (x1 : Vec F S1x64x256 .f32) (x2 : Vec F S1x256 .f32) (x3 : Vec F S1x256 .f32) (x4 : Vec F S1x1 .f32) (xs0 : Vec F S1x1x1 .f32) :
    sout1_B_0 c i arg3 harg3 arg4 harg4 arg5 harg5 arg6 harg6 arg7 harg7 arg8 harg8 arg9 harg9 hc0 hc1 x0 x1 x2 x3 x4 xs0
      = k1_pay1 (k1_pay3 x0 x1 x3 x2 x4) (Scalar.muli (BitVec.ofNat 32 (i 1).val) 64#32) (Scalar.muli (BitVec.ofNat 32 (i 2).val) 64#32) (iota .tc S64x64 32 [0] iota_S64x64_d0_w32) xs0 := by
  unfold sout1_B_0
  rw [View.read_writes_eq_canon _ _ _ (scover1_B_0 c i arg3 harg3 arg4 harg4 arg5 harg5 arg6 harg6 arg7 harg7 arg8 harg8 arg9 harg9 hc0 hc1 x0 x1 x2 x3 x4 xs0)]
  unfold kernelRun1_B
  dsimp only
  sl_unfold_words
  rw [View.canon_unit_zero zero3]
  simp only [View.readAt_eq_ld, harg3.read_unread, harg4.read_unread, harg5.read_unread, harg6.read_unread, harg7.read_unread, harg8.read_unread, harg9.read_unread, View.ld_unit_zero (S := S1x1x1) zero3, View.ld_unit_zero (S := S1x64x256) zero3, View.ld_unit_zero (S := S1x256) zero2, View.ld_unit_zero (S := S1x1) zero2]

/-- Last tile: the scratch as in a middle tile. -/
theorem sout1_C_0_eq (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i) (x0 : Vec F S1x64x256 .f32) (x1 : Vec F S1x64x256 .f32) (x2 : Vec F S1x256 .f32) (x3 : Vec F S1x256 .f32) (x4 : Vec F S1x1 .f32) (xs0 : Vec F S1x1x1 .f32) :
    sout1_C_0 c i arg3 harg3 arg4 harg4 arg5 harg5 arg6 harg6 arg7 harg7 arg8 harg8 arg9 harg9 hc0 hc1 x0 x1 x2 x3 x4 xs0
      = k1_pay1 (k1_pay3 x0 x1 x3 x2 x4) (Scalar.muli (BitVec.ofNat 32 (i 1).val) 64#32) (Scalar.muli (BitVec.ofNat 32 (i 2).val) 64#32) (iota .tc S64x64 32 [0] iota_S64x64_d0_w32) xs0 := by
  unfold sout1_C_0
  rw [View.read_writes_eq_canon _ _ _ (scover1_C_0 c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero zero3]
  simp only [View.readAt_eq_ld, harg3.read_unread, harg4.read_unread, harg5.read_unread, harg6.read_unread, harg7.read_unread, harg8.read_unread, harg9.read_unread, View.ld_unit_zero (S := S1x1x1) zero3, View.ld_unit_zero (S := S1x64x256) zero3, View.ld_unit_zero (S := S1x256) zero2, View.ld_unit_zero (S := S1x1) zero2]

/-- Last tile: the word copied into the output block is the scratch just stored. -/
theorem out1_C_5_eq (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i) (x0 : Vec F S1x64x256 .f32) (x1 : Vec F S1x64x256 .f32) (x2 : Vec F S1x256 .f32) (x3 : Vec F S1x256 .f32) (x4 : Vec F S1x1 .f32) (xs0 : Vec F S1x1x1 .f32) :
    out1_C_5 c i arg3 harg3 arg4 harg4 arg5 harg5 arg6 harg6 arg7 harg7 arg8 harg8 arg9 harg9 hc0 hc1 x0 x1 x2 x3 x4 xs0
      = sout1_C_0 c i arg3 harg3 arg4 harg4 arg5 harg5 arg6 harg6 arg7 harg7 arg8 harg8 arg9 harg9 hc0 hc1 x0 x1 x2 x3 x4 xs0 := by
  rw [sout1_C_0_eq]
  unfold out1_C_5
  rw [View.read_writes_eq_canon _ _ _ (cover1_C_5 c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero zero3]
  simp only [View.readAt_eq_ld, harg3.read_unread, harg4.read_unread, harg5.read_unread, harg6.read_unread, harg7.read_unread, harg8.read_unread, harg9.read_unread, View.ld_unit_zero (S := S1x1x1) zero3, View.ld_unit_zero (S := S1x64x256) zero3, View.ld_unit_zero (S := S1x256) zero2, View.ld_unit_zero (S := S1x1) zero2, View.readCov_unit_zero (S := S1x1x1) _ zero3]

end Pieces

/-! ## The layout operations of the payloads, read at an index -/

section Layout
variable {α : Type}

/-- A block [1, 64, 256] viewed [64, 256], then [64, 1, 256], and repeated along the middle axis: at (ii, jj, h)
    it is the block at (0, ii, h). -/
theorem rowsBcast_apply (x : S1x64x256.Idx → α) (ii jj : Fin 64) (h : Fin 256) :
    broadcastTo S64x64x256 (shapeCast S64x1x256 (shapeCast S64x256 x shapeCasts_S1x64x256_S64x256) shapeCasts_S64x256_S64x1x256)
      broadcasts_S64x1x256_S64x64x256 (ix3 ii jj h) = x (ix3 0 ii h) := by
  refine (broadcastTo_apply _ _ _ (ix3 ii (0 : Fin 1) h) (fun a => match a with
      | ⟨0, _⟩ => by show ii.val = if (64 : Nat) = 1 then 0 else ii.val; rfl
      | ⟨1, _⟩ => by show (0 : Nat) = if (1 : Nat) = 1 then 0 else jj.val; rfl
      | ⟨2, _⟩ => by show h.val = if (256 : Nat) = 1 then 0 else h.val; rfl)).trans ?_
  refine (shapeCast_apply _ _ _ (ix2 ii h) (by
      rw [Shape.rowMajor_val_two, Shape.rowMajor_val_three]
      show ii.val * 256 + h.val = (ii.val * 1 + 0) * 256 + h.val
      omega)).trans ?_
  exact shapeCast_1ab_ab_apply x _ ii h

/-- The same block viewed [64, 256], then [1, 64, 256], and repeated along the first axis: at (ii, jj, h) it is the
    block at (0, jj, h). -/
theorem colsBcast_apply (x : S1x64x256.Idx → α) (ii jj : Fin 64) (h : Fin 256) :
    broadcastTo S64x64x256 (shapeCast S1x64x256 (shapeCast S64x256 x shapeCasts_S1x64x256_S64x256) shapeCasts_S64x256_S1x64x256)
      broadcasts_S1x64x256_S64x64x256 (ix3 ii jj h) = x (ix3 0 jj h) := by
  refine (broadcastTo_apply _ _ _ (ix3 (0 : Fin 1) jj h) (fun a => match a with
      | ⟨0, _⟩ => by show (0 : Nat) = if (1 : Nat) = 1 then 0 else ii.val; rfl
      | ⟨1, _⟩ => by show jj.val = if (64 : Nat) = 1 then 0 else jj.val; rfl
      | ⟨2, _⟩ => by show h.val = if (256 : Nat) = 1 then 0 else h.val; rfl)).trans ?_
  refine (shapeCast_ab_1ab_apply _ _ (0 : Fin 1) jj h).trans ?_
  exact shapeCast_1ab_ab_apply x _ jj h

/-- A row [1, 256] viewed [256], then [1, 1, 256], and repeated along both leading axes: at (ii, jj, h) it is the row
    at (0, h). -/
theorem laneBcast_apply (x : S1x256.Idx → α) (ii jj : Fin 64) (h : Fin 256) :
    broadcastTo S64x64x256 (shapeCast S1x1x256 (shapeCast S256 (shapeCast S1x256 x shapeCasts_S1x256_S1x256) shapeCasts_S1x256_S256)
      shapeCasts_S256_S1x1x256) broadcasts_S1x1x256_S64x64x256 (ix3 ii jj h) = x (ix2 0 h) := by
  refine (broadcastTo_apply _ _ _ (ix3 (0 : Fin 1) (0 : Fin 1) h) (fun a => match a with
      | ⟨0, _⟩ => by show (0 : Nat) = if (1 : Nat) = 1 then 0 else ii.val; rfl
      | ⟨1, _⟩ => by show (0 : Nat) = if (1 : Nat) = 1 then 0 else jj.val; rfl
      | ⟨2, _⟩ => by show h.val = if (256 : Nat) = 1 then 0 else h.val; rfl)).trans ?_
  refine (shapeCast_apply _ _ _ (ix1 h) (by
      rw [Shape.rowMajor_val_one, Shape.rowMajor_val_three]
      show h.val = (0 * 1 + 0) * 256 + h.val
      omega)).trans ?_
  refine (shapeCast_1a_a_apply _ _ h).trans ?_
  rw [shapeCast_self]

/-- The one word of a [1, 1] array. -/
theorem extractAt00_apply (x : S1x1.Idx → α) (h : ∀ a, (![0, 0] : Fin 2 → Nat) a < S1x1.size a) :
    extractAt ![0, 0] x h = x (ix2 0 0) :=
  congrArg x (funext fun a => match a with | ⟨0, _⟩ => rfl | ⟨1, _⟩ => rfl)

end Layout

/-! ## The three lane sums -/

/-- The sum over the hidden axis of a [64, 64, 256] array, at (ii, jj). -/
theorem sumHidden_apply (src : FVec Ideal S64x64x256 .f32) (ii jj : Fin 64) :
    multiReduction (F := Ideal) .add [2] S64x64 src 0x00000000#32 reduces_S64x64x256_S64x64 (.inl rfl) rfl (ix2 ii jj)
      = ∑ h : Fin 256, src (ix3 ii jj h) :=
  (Ideal.multiReduction_add_single src 0x00000000#32 reduces_S64x64x256_S64x64 (.inl rfl) rfl (ix2 ii jj)).trans
    (Finset.sum_congr rfl fun h _ => congrArg src (funext fun a => match a with | ⟨0, _⟩ => rfl | ⟨1, _⟩ => rfl | ⟨2, _⟩ => rfl))

/-- The sum over the columns of a [64, 64] array, at row ii. -/
theorem sumCols_apply (src : FVec Ideal S64x64 .f32) (ii : Fin 64) :
    multiReduction (F := Ideal) .add [1] S64 src 0x00000000#32 reduces_S64x64_S64 (.inl rfl) rfl (ix1 ii)
      = ∑ jj : Fin 64, src (ix2 ii jj) :=
  (Ideal.multiReduction_add_single src 0x00000000#32 reduces_S64x64_S64 (.inl rfl) rfl (ix1 ii)).trans
    (Finset.sum_congr rfl fun jj _ => congrArg src (funext fun a => match a with | ⟨0, _⟩ => rfl | ⟨1, _⟩ => rfl))

/-- The sum of a [1, 64] array along its row. -/
theorem sumRow_apply (src : FVec Ideal S1x64 .f32) :
    multiReduction (F := Ideal) .add [1] S1 src 0x00000000#32 reduces_S1x64_S1 (.inl rfl) rfl (ix1 0)
      = ∑ ii : Fin 64, src (ix2 0 ii) :=
  (Ideal.multiReduction_add_single src 0x00000000#32 reduces_S1x64_S1 (.inl rfl) rfl (ix1 0)).trans
    (Finset.sum_congr rfl fun ii _ => congrArg src (funext fun a => match a with | ⟨0, _⟩ => rfl | ⟨1, _⟩ => rfl))

/-! ## The mask -/

/-- A 64-tile's offset plus a lane number, compared below 196 as signed 32-bit words, is the comparison of the numbers:
    with at most four tiles nothing wraps. -/
theorem mask_iff : ∀ I : Fin 4, ∀ ii : Fin 64,
    IntOp.cmpi .slt (IntOp.addi (Scalar.muli (BitVec.ofNat 32 I.val) 64#32) (BitVec.ofNat 32 ii.val)) 196#32 = 1#1
      ↔ I.val * 64 + ii.val < 196 := by decide +kernel

theorem andi_bit_iff : ∀ p q : BitVec 1, IntOp.andi p q = 1#1 ↔ p = 1#1 ∧ q = 1#1 := by decide

/-- A select on a one-bit word that encodes a proposition is the if-then-else on the proposition. -/
theorem select_of_iff {α : Type} {c : BitVec 1} {P : Prop} [Decidable P] (h : c = 1#1 ↔ P) (a b : α) :
    Scalar.select c a b = if P then a else b := by
  by_cases hp : P
  · rw [h.mpr hp, select_one, if_pos hp]
  · rw [eq_zero_of_ne_one (mt h.mp hp), select_zero, if_neg hp]

/-! ## The payloads at an index -/

/-- The score of the pair (ii, jj) of the tile: the hidden layer's positive part against the second layer's weights,
    summed over the 256 hidden units, plus the second bias. -/
theorem k1_pay3_apply (x0 x1 : Vec Ideal S1x64x256 .f32) (x3 x2 : Vec Ideal S1x256 .f32) (x4 : Vec Ideal S1x1 .f32) (ii jj : Fin 64) :
    (k1_pay3 x0 x1 x3 x2 x4 : S64x64.Idx → EReal) (ix2 ii jj)
      = (∑ h : Fin 256, max ((x0 : S1x64x256.Idx → EReal) (ix3 0 ii h) + (x1 : S1x64x256.Idx → EReal) (ix3 0 jj h)
            + (x3 : S1x256.Idx → EReal) (ix2 0 h)) 0 * (x2 : S1x256.Idx → EReal) (ix2 0 h))
          + (x4 : S1x1.Idx → EReal) (ix2 0 0) := by
  unfold k1_pay3
  refine (addf_apply _ _ _).trans ?_
  refine congrArg₂ (· + ·) ?_ ?_
  · refine (sumHidden_apply _ ii jj).trans ?_
    refine Finset.sum_congr rfl fun h _ => ?_
    refine (mulf_apply _ _ _).trans ?_
    refine congrArg₂ (· * ·) ?_ (laneBcast_apply x2 ii jj h)
    refine (maximumf_apply _ _ _).trans ?_
    refine congrArg₂ max ?_ Ideal.ofBits_zero_f32
    refine (addf_apply _ _ _).trans ?_
    refine congrArg₂ (· + ·) ?_ (laneBcast_apply x3 ii jj h)
    refine (addf_apply _ _ _).trans ?_
    exact congrArg₂ (· + ·) (rowsBcast_apply x0 ii jj h) (colsBcast_apply x1 ii jj h)
  · refine (extractAt00_apply _ _).trans ?_
    rw [shapeCast_self]

/-- The mask at lane (ii, jj) of tile (I, J): both locations are below 196. -/
theorem lane_iff (I J : Fin 4) (ii jj : Fin 64) :
    (andi (cmpi .slt (addi (broadcast S64x64 (Scalar.muli (BitVec.ofNat 32 I.val) 64#32)) (iota .tc S64x64 32 [0] iota_S64x64_d0_w32)) (broadcast S64x64 196#32))
          (cmpi .slt (addi (broadcast S64x64 (Scalar.muli (BitVec.ofNat 32 J.val) 64#32)) (iota .tc S64x64 32 [1] iota_S64x64_d1_w32)) (broadcast S64x64 196#32))
        : IVec S64x64 1) (ix2 ii jj) = 1#1
      ↔ I.val * 64 + ii.val < 196 ∧ J.val * 64 + jj.val < 196 := by
  show IntOp.andi (IntOp.cmpi .slt (IntOp.addi (Scalar.muli _ 64#32) (iota .tc S64x64 32 [0] iota_S64x64_d0_w32 (ix2 ii jj))) 196#32)
      (IntOp.cmpi .slt (IntOp.addi (Scalar.muli _ 64#32) (iota .tc S64x64 32 [1] iota_S64x64_d1_w32 (ix2 ii jj))) 196#32) = 1#1 ↔ _
  rw [iota_single_apply, iota_single_apply, andi_bit_iff]
  exact and_congr (mask_iff I ii) (mask_iff J jj)

/-- The masked sum of the scores of tile (I, J): the pairs of the 64 × 64 tile whose two locations are both below 196.
    `x0` is the row tile's block of the first projection, `x1` the column tile's block of the second, `x2` the second
    layer's weight row, `x3` the first bias row, `x4` the second bias. -/
def tilePart (x0 x1 : Vec Ideal S1x64x256 .f32) (x2 x3 : Vec Ideal S1x256 .f32) (x4 : Vec Ideal S1x1 .f32) (I J : ℕ) : EReal :=
  ∑ ii : Fin 64, ∑ jj : Fin 64, if I * 64 + ii.val < 196 ∧ J * 64 + jj.val < 196 then
    (∑ h : Fin 256, max ((x0 : S1x64x256.Idx → EReal) (ix3 0 ii h) + (x1 : S1x64x256.Idx → EReal) (ix3 0 jj h)
          + (x3 : S1x256.Idx → EReal) (ix2 0 h)) 0 * (x2 : S1x256.Idx → EReal) (ix2 0 h))
        + (x4 : S1x1.Idx → EReal) (ix2 0 0)
  else 0

/-- The stored word: the running total plus the tile's masked sum (summed along the columns, then along the rows). -/
theorem k1_pay1_apply (v54 : Vec Ideal S1x1x1 .f32) (i : grid1.Coords) (x0 x1 : Vec Ideal S1x64x256 .f32) (x2 x3 : Vec Ideal S1x256 .f32)
    (x4 : Vec Ideal S1x1 .f32) :
    (k1_pay1 (F := Ideal) (k1_pay3 x0 x1 x3 x2 x4) (Scalar.muli (BitVec.ofNat 32 (i 1).val) 64#32)
        (Scalar.muli (BitVec.ofNat 32 (i 2).val) 64#32) (iota .tc S64x64 32 [0] iota_S64x64_d0_w32) v54 : S1x1x1.Idx → EReal) (ix3 0 0 0)
      = (v54 : S1x1x1.Idx → EReal) (ix3 0 0 0) + tilePart x0 x1 x2 x3 x4 (i 1).val (i 2).val := by
  have h1 : (i 1).val < 4 := (i 1).isLt
  have h2 : (i 2).val < 4 := (i 2).isLt
  unfold k1_pay1
  refine (congrFun (shapeCast_self _ _) _).trans ?_
  refine (addf_apply _ _ _).trans ?_
  refine congrArg (fun t => (v54 : S1x1x1.Idx → EReal) (ix3 0 0 0) + t) ?_
  refine (broadcast_apply _ _).trans ?_
  refine (extractAt00_apply _ _).trans ?_
  refine (shapeCast_a_1a_apply _ _ 0 0).trans ?_
  refine (sumRow_apply _).trans ?_
  unfold tilePart
  refine Finset.sum_congr rfl fun ii _ => ?_
  refine (shapeCast_a_1a_apply _ _ 0 ii).trans ?_
  refine (sumCols_apply _ ii).trans ?_
  refine Finset.sum_congr rfl fun jj _ => ?_
  refine (select_apply _ _ _ _).trans ?_
  refine (congrArg₂ (Scalar.select _) (k1_pay3_apply x0 x1 x3 x2 x4 ii jj) Ideal.ofBits_zero_f32).trans ?_
  exact select_of_iff (lane_iff ⟨(i 1).val, h1⟩ ⟨(i 2).val, h2⟩ ii jj) _ _

/-- The reset word is zero. -/
theorem k1_pay2_apply : (k1_pay2 (F := Ideal) : S1x1x1.Idx → EReal) (ix3 0 0 0) = 0 := by
  unfold k1_pay2
  refine (congrFun (shapeCast_self _ _) _).trans ?_
  exact Ideal.ofBits_zero_f32

/-! ## The scratch and the output block after a grid point -/

/-- After a first tile the running total is zero plus the tile's masked sum. -/
theorem sout1_A_0_apply (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : cond1_0 i) (hc1 : ¬cond1_1 i) (x0 : Vec Ideal S1x64x256 .f32) (x1 : Vec Ideal S1x64x256 .f32) (x2 : Vec Ideal S1x256 .f32) (x3 : Vec Ideal S1x256 .f32) (x4 : Vec Ideal S1x1 .f32) :
    (sout1_A_0 (F := Ideal) c i arg3 harg3 arg4 harg4 arg5 harg5 arg6 harg6 arg7 harg7 arg8 harg8 arg9 harg9 hc0 hc1 x0 x1 x2 x3 x4 : S1x1x1.Idx → EReal) (ix3 0 0 0)
      = 0 + tilePart x0 x1 x2 x3 x4 (i 1).val (i 2).val :=
  (congrFun (sout1_A_0_eq (F := Ideal) c i arg3 harg3 arg4 harg4 arg5 harg5 arg6 harg6 arg7 harg7 arg8 harg8 arg9 harg9 hc0 hc1 x0 x1 x2 x3 x4) (ix3 0 0 0)).trans
    ((k1_pay1_apply (k1_pay2 (F := Ideal)) i x0 x1 x2 x3 x4).trans
      (congrArg (fun t => t + tilePart x0 x1 x2 x3 x4 (i 1).val (i 2).val) k1_pay2_apply))

/-- After a middle tile the running total is the total before plus the tile's masked sum. -/
theorem sout1_B_0_apply (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : ¬cond1_1 i) (x0 : Vec Ideal S1x64x256 .f32) (x1 : Vec Ideal S1x64x256 .f32) (x2 : Vec Ideal S1x256 .f32) (x3 : Vec Ideal S1x256 .f32) (x4 : Vec Ideal S1x1 .f32) (xs0 : Vec Ideal S1x1x1 .f32) :
    (sout1_B_0 (F := Ideal) c i arg3 harg3 arg4 harg4 arg5 harg5 arg6 harg6 arg7 harg7 arg8 harg8 arg9 harg9 hc0 hc1 x0 x1 x2 x3 x4 xs0 : S1x1x1.Idx → EReal) (ix3 0 0 0)
      = (xs0 : S1x1x1.Idx → EReal) (ix3 0 0 0) + tilePart x0 x1 x2 x3 x4 (i 1).val (i 2).val :=
  (congrFun (sout1_B_0_eq (F := Ideal) c i arg3 harg3 arg4 harg4 arg5 harg5 arg6 harg6 arg7 harg7 arg8 harg8 arg9 harg9 hc0 hc1 x0 x1 x2 x3 x4 xs0) (ix3 0 0 0)).trans (k1_pay1_apply xs0 i x0 x1 x2 x3 x4)

/-- After a last tile likewise. -/
theorem sout1_C_0_apply (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i) (x0 : Vec Ideal S1x64x256 .f32) (x1 : Vec Ideal S1x64x256 .f32) (x2 : Vec Ideal S1x256 .f32) (x3 : Vec Ideal S1x256 .f32) (x4 : Vec Ideal S1x1 .f32) (xs0 : Vec Ideal S1x1x1 .f32) :
    (sout1_C_0 (F := Ideal) c i arg3 harg3 arg4 harg4 arg5 harg5 arg6 harg6 arg7 harg7 arg8 harg8 arg9 harg9 hc0 hc1 x0 x1 x2 x3 x4 xs0 : S1x1x1.Idx → EReal) (ix3 0 0 0)
      = (xs0 : S1x1x1.Idx → EReal) (ix3 0 0 0) + tilePart x0 x1 x2 x3 x4 (i 1).val (i 2).val :=
  (congrFun (sout1_C_0_eq (F := Ideal) c i arg3 harg3 arg4 harg4 arg5 harg5 arg6 harg6 arg7 harg7 arg8 harg8 arg9 harg9 hc0 hc1 x0 x1 x2 x3 x4 xs0) (ix3 0 0 0)).trans (k1_pay1_apply xs0 i x0 x1 x2 x3 x4)

/-- At a last tile the output block receives that same total. -/
theorem out1_C_5_apply (c : Dev nD) (i : grid1.Coords) (arg3 : Memref sig .tc .vmem S1x64x256 .f32) (harg3 : arg3.IsWhole) (arg4 : Memref sig .tc .vmem S1x64x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S1x1x1 .f32) (harg8 : arg8.IsWhole) (arg9 : Memref sig .tc .vmem S1x1x1 .f32) (harg9 : arg9.IsWhole) (hc0 : ¬cond1_0 i) (hc1 : cond1_1 i) (x0 : Vec Ideal S1x64x256 .f32) (x1 : Vec Ideal S1x64x256 .f32) (x2 : Vec Ideal S1x256 .f32) (x3 : Vec Ideal S1x256 .f32) (x4 : Vec Ideal S1x1 .f32) (xs0 : Vec Ideal S1x1x1 .f32) :
    (out1_C_5 (F := Ideal) c i arg3 harg3 arg4 harg4 arg5 harg5 arg6 harg6 arg7 harg7 arg8 harg8 arg9 harg9 hc0 hc1 x0 x1 x2 x3 x4 xs0 : S1x1x1.Idx → EReal) (ix3 0 0 0)
      = (xs0 : S1x1x1.Idx → EReal) (ix3 0 0 0) + tilePart x0 x1 x2 x3 x4 (i 1).val (i 2).val :=
  (congrFun (out1_C_5_eq (F := Ideal) c i arg3 harg3 arg4 harg4 arg5 harg5 arg6 harg6 arg7 harg7 arg8 harg8 arg9 harg9 hc0 hc1 x0 x1 x2 x3 x4 xs0) (ix3 0 0 0)).trans
    (sout1_C_0_apply c i arg3 harg3 arg4 harg4 arg5 harg5 arg6 harg6 arg7 harg7 arg8 harg8 arg9 harg9 hc0 hc1 x0 x1 x2 x3 x4 xs0)

end Cert.KernelIdeal.Val

end
-- ==== Proof.Spec.lean ====
/-
  The relation head on two 14×14 feature maps, as one function of the six argument arrays.

  Each of the 196 locations `l` of a map (row `l / 14`, column `l % 14`) carries a feature vector of 512 channels.
  The first linear layer acts on the concatenation of a location `i` of the first map and a location `j` of the
  second; splitting its 1024×256 weight into the upper and lower 512 rows makes it the sum of two projections,
  `proj f1 W1 0 b i` and `proj f2 W1 512 b j`.  The score of the pair `(i, j)` is the second layer applied to the
  positive part of that sum plus the first bias, and the result for batch entry `b` is the sum of the scores over
  all 196 · 196 pairs.

  The sums are sums in the extended reals, where addition is commutative and associative (a commutative monoid),
  so regrouping a sum — by rows, by tiles of 64 × 64 pairs with the pairs beyond 196 left out, one tile after the
  other into a running total — never changes it; no distributivity and no cancellation is used anywhere, so no
  finiteness is needed.
-/
import Idealize.ShloMosaic.PureOps.Ideal
import Idealize.ShloMosaic.Lib.ValueIdx

noncomputable section

open scoped BigOperators

namespace Cert.Relation

open Idealize.ShloMosaic Idealize.ShloMosaic.ValueIdx

abbrev Feat : Type := (⟨4, ![8, 512, 14, 14]⟩ : Shape).Idx → EReal
abbrev Wt1 : Type := (⟨2, ![1024, 256]⟩ : Shape).Idx → EReal
abbrev Bias1 : Type := (⟨1, ![256]⟩ : Shape).Idx → EReal
abbrev Wt2 : Type := (⟨2, ![256, 1]⟩ : Shape).Idx → EReal
abbrev Bias2 : Type := (⟨1, ![1]⟩ : Shape).Idx → EReal

/-- Location `l` of batch entry `b` projected on hidden unit `h` by the 512 rows of `W` from row `off` on. -/
def proj (x : Feat) (W : Wt1) (off : ℕ) (hoff : off + 512 ≤ 1024) (b : Fin 8) (l : Fin 196) (h : Fin 256) : EReal :=
  ∑ k : Fin 512, x (ix4 b k ⟨l.val / 14, by omega⟩ ⟨l.val % 14, by omega⟩) * W (ix2 ⟨off + k.val, by omega⟩ h)

/-- The hidden layer of the pair `(i, j)`: the positive part of the two projections plus the bias. -/
def hidden (f1 f2 : Feat) (W1 : Wt1) (b1 : Bias1) (b : Fin 8) (i j : Fin 196) (h : Fin 256) : EReal :=
  max (proj f1 W1 0 (by omega) b i h + proj f2 W1 512 (by omega) b j h + b1 (ix1 h)) 0

/-- The score of the pair `(i, j)`. -/
def score (f1 f2 : Feat) (W1 : Wt1) (b1 : Bias1) (W2 : Wt2) (b2 : Bias2) (b : Fin 8) (i j : Fin 196) : EReal :=
  (∑ h : Fin 256, hidden f1 f2 W1 b1 b i j h * W2 (ix2 h 0)) + b2 (ix1 0)

/-- The result for batch entry `b`: all pairs' scores summed. -/
def total (f1 f2 : Feat) (W1 : Wt1) (b1 : Bias1) (W2 : Wt2) (b2 : Bias2) (b : Fin 8) : EReal :=
  ∑ i : Fin 196, ∑ j : Fin 196, score f1 f2 W1 b1 W2 b2 b i j

/-- The result array, 8 × 1. -/
def result (f1 f2 : Feat) (W1 : Wt1) (b1 : Bias1) (W2 : Wt2) (b2 : Bias2) : (⟨2, ![8, 1]⟩ : Shape).Idx → EReal :=
  fun idx => total f1 f2 W1 b1 W2 b2 (idx 0)

end Cert.Relation

end
-- ==== Proof.SpecSums.lean ====
/-
  Regrouping finite sums in a commutative monoid.

  A sum indexed by `k < a * b` whose term depends on `k` only through the pair `(k / b, k % b)` is the double
  sum over `i < a`, `j < b`, because `k ↦ (k / b, k % b)` is a bijection onto the pairs.  From this follow: the
  flat sum over the 196 · 196 pairs is the double sum; four blocks of 64 indices, the indices from 196 on left out,
  exhaust the indices below 196; sixteen tiles of 64 × 64 pairs, the pairs with an index from 196 on left out,
  exhaust the 196 × 196 pairs; and a running total is the sum of its parts.  Only commutativity and associativity
  of addition are used.
-/
import proofs.«180940_j64441689309605_1_alg».proof.Proof.Spec
import Mathlib.Algebra.BigOperators.Fin
import Mathlib.Data.Fintype.BigOperators
import Mathlib.Logic.Equiv.Fin.Basic

noncomputable section

open scoped BigOperators

namespace Cert.Relation

section Generic

variable {M : Type*} [AddCommMonoid M]

/-- A sum over `a * b` indices `k`, read as the pairs `(k / b, k % b)`, is the double sum: every pair `(i, j)`
with `i < a`, `j < b` is `(k / b, k % b)` for exactly one `k < a * b`, namely `k = j + b * i`. -/
theorem sum_divMod (a b : ℕ) (F : ℕ → ℕ → M) :
    (∑ k : Fin (a * b), F (k.val / b) (k.val % b)) = ∑ i : Fin a, ∑ j : Fin b, F i.val j.val := by
  rw [← Fintype.sum_prod_type' (fun (i : Fin a) (j : Fin b) => F i.val j.val)]
  symm
  apply Fintype.sum_equiv finProdFinEquiv
  rintro ⟨i, j⟩
  have hb : 0 < b := Nat.pos_of_ne_zero (fun h => by have := j.isLt; omega)
  have h1 : (j.val + b * i.val) / b = i.val := by
    rw [Nat.add_mul_div_left _ _ hb, Nat.div_eq_of_lt j.isLt, Nat.zero_add]
  have h2 : (j.val + b * i.val) % b = j.val := by
    rw [Nat.add_mul_mod_self_left, Nat.mod_eq_of_lt j.isLt]
  show F i.val j.val = F ((j.val + b * i.val) / b) ((j.val + b * i.val) % b)
  rw [h1, h2]

/-- Four blocks of 64 indices, the indices from 196 on left out, exhaust the indices below 196 once each:
`I * 64 + ii` runs through every `k < 256` once, and the terms with `196 ≤ k` are zero. -/
theorem blocks_sum (f : ℕ → M) :
    (∑ I : Fin 4, ∑ ii : Fin 64, if I.val * 64 + ii.val < 196 then f (I.val * 64 + ii.val) else 0)
      = ∑ i : Fin 196, f i.val := by
  refine (sum_divMod 4 64 (fun I ii => if I * 64 + ii < 196 then f (I * 64 + ii) else 0)).symm.trans ?_
  have hk : ∀ k : ℕ, k / 64 * 64 + k % 64 = k := fun k => by omega
  simp only [hk]
  rw [Fin.sum_univ_eq_sum_range (fun k => if k < 196 then f k else 0) (4 * 64)]
  rw [Fin.sum_univ_eq_sum_range f 196]
  rw [← Finset.sum_filter]
  refine Finset.sum_congr ?_ (fun _ _ => rfl)
  ext k
  simp only [Finset.mem_filter, Finset.mem_range]
  omega

end Generic

/-- Tiles of 64 × 64 pairs, the pairs with an index beyond 196 left out, four tiles by four, exhaust the 196 × 196 pairs once each. -/
theorem tiles_sum (sc : ℕ → ℕ → EReal) :
    (∑ q : Fin 16, ∑ ii : Fin 64, ∑ jj : Fin 64,
      if q.val / 4 * 64 + ii.val < 196 ∧ q.val % 4 * 64 + jj.val < 196 then sc (q.val / 4 * 64 + ii.val) (q.val % 4 * 64 + jj.val) else 0)
    = ∑ i : Fin 196, ∑ j : Fin 196, sc i.val j.val := by
  -- the tile number `q` is the pair (tile row `q / 4`, tile column `q % 4`)
  refine (sum_divMod 4 4 (fun I J => ∑ ii : Fin 64, ∑ jj : Fin 64,
      if I * 64 + ii.val < 196 ∧ J * 64 + jj.val < 196 then sc (I * 64 + ii.val) (J * 64 + jj.val) else 0)).trans ?_
  -- the rows of the pairs: four blocks of 64, applied to the row sums
  rw [← blocks_sum (fun n => ∑ j : Fin 196, sc n j.val)]
  refine Finset.sum_congr rfl (fun I _ => ?_)
  rw [Finset.sum_comm]
  refine Finset.sum_congr rfl (fun ii _ => ?_)
  -- one row `I * 64 + ii`: its columns are four blocks of 64 again, or the row is left out altogether
  by_cases hA : I.val * 64 + ii.val < 196
  · rw [if_pos hA]
    simp only [hA, true_and]
    exact blocks_sum (fun n => sc (I.val * 64 + ii.val) n)
  · rw [if_neg hA]
    simp only [hA, false_and, if_false, Finset.sum_const_zero]

/-- A running total started from zero. -/
def running (part : ℕ → EReal) : ℕ → EReal
  | 0 => 0 + part 0
  | n + 1 => running part n + part (n + 1)

theorem running_eq_sum (part : ℕ → EReal) (n : ℕ) : running part n = ∑ q : Fin (n + 1), part q.val := by
  induction n with
  | zero => simp [running]
  | succ n ih =>
    rw [running, ih, Fin.sum_univ_castSucc (fun q : Fin (n + 1 + 1) => part q.val)]
    simp only [Fin.coe_castSucc, Fin.val_last]

/-- The host's flat sum over 196·196 = 38416 pairs, pair k being (k / 196, k % 196), started from zero. -/
theorem flat_sum (sc : ℕ → ℕ → EReal) :
    (0 : EReal) + ∑ k : Fin 38416, sc (k.val / 196) (k.val % 196) = ∑ i : Fin 196, ∑ j : Fin 196, sc i.val j.val := by
  rw [zero_add]
  exact sum_divMod 196 196 sc

end Cert.Relation

end
-- ==== Proof.KI.Val1Acc.lean ====
/-
  What the second region leaves in its output array, in the extended reals.

  The region's grid has 128 points: point t works on batch entry t / 16 and on the tile of 64 × 64 location pairs in
  tile row (t / 4) % 4 and tile column t % 4. A scratch word carries a running total through the sixteen tiles of a
  batch entry: the first tile starts it from zero, every tile adds its masked sum of scores, and the last tile stores
  the total into the output block, which is written back to entry (t / 16, 0, 0) of the output array only then.
  So after the region the array holds, at batch entry b, the running total of the sixteen tiles 16 b … 16 b + 15.
-/
import proofs.«180940_j64441689309605_1_alg».proof.Proof.KI.Reg1
import proofs.«180940_j64441689309605_1_alg».proof.Proof.KI.Val1Tile
import proofs.«180940_j64441689309605_1_alg».proof.Proof.SpecSums
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open Cert.Relation (running)
open scoped BigOperators

variable (V : (c : Dev nD) → (b : Ref sig .tc) → Buf (Elt Ideal) ((c : Thread nD τ).loc b)) (c : Dev nD)

/-! ## The tiles -/

/-- The five input blocks at point t: a 64-row block of each padded projection, the second layer's weights as a row,
    the first bias, the second bias. -/
abbrev pblk0 (t : Fin cfg1.N) : Vec Ideal S1x64x256 .f32 := iblk1 V c 0 t
abbrev pblk1 (t : Fin cfg1.N) : Vec Ideal S1x64x256 .f32 := iblk1 V c 1 t
abbrev pblk2 (t : Fin cfg1.N) : Vec Ideal S1x256 .f32 := iblk1 V c 2 t
abbrev pblk3 (t : Fin cfg1.N) : Vec Ideal S1x256 .f32 := iblk1 V c 3 t
abbrev pblk4 (t : Fin cfg1.N) : Vec Ideal S1x1 .f32 := iblk1 V c 4 t

/-- The masked sum of scores of the tile point t works on (zero past the grid). -/
def tileAt (t : ℕ) : EReal :=
  if h : t < cfg1.N then tilePart (pblk0 V c ⟨t, h⟩) (pblk1 V c ⟨t, h⟩) (pblk2 V c ⟨t, h⟩) (pblk3 V c ⟨t, h⟩) (pblk4 V c ⟨t, h⟩) (t / 4 % 4) (t % 4) else 0

/-- The grid's tile coordinates at point t. -/
theorem coords1 : ∀ t : Fin cfg1.N, ((grid1.coords t) 1).val = t.val / 4 % 4 ∧ ((grid1.coords t) 2).val = t.val % 4 :=
  (by decide +kernel : ∀ t : Fin grid1.N, _)

theorem tileAt_of_lt (t : Fin cfg1.N) :
    tileAt V c t.val = tilePart (pblk0 V c t) (pblk1 V c t) (pblk2 V c t) (pblk3 V c t) (pblk4 V c t) ((grid1.coords t) 1).val ((grid1.coords t) 2).val := by
  obtain ⟨e1, e2⟩ := coords1 t
  unfold tileAt
  rw [dif_pos t.isLt, e1, e2]

/-! ## One point's step of the running total -/

/-- The first tile of a batch entry starts the total from zero. -/
theorem scratch_step_A (t : Fin cfg1.N) (h0 : t.val % 16 = 0) :
    ((outsAt1 V c t.val t.isLt).2 : S1x1x1.Idx → EReal) (ix3 0 0 0) = 0 + tileAt V c t.val := by
  have h1 : ¬t.val % 16 = 15 := by omega
  rw [outsAt1_A V c t h0 h1]
  dsimp only
  rw [tileAt_of_lt V c t]
  exact sout1_A_0_apply c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)

/-- A middle tile adds its sum onto what the scratch held. -/
theorem scratch_step_B (t : Fin cfg1.N) (h0 : ¬t.val % 16 = 0) (h1 : ¬t.val % 16 = 15) :
    ((outsAt1 V c t.val t.isLt).2 : S1x1x1.Idx → EReal) (ix3 0 0 0)
      = ((outsAt1 V c (t.val - 1) (Nat.lt_of_le_of_lt (Nat.sub_le _ _) t.isLt)).2 : S1x1x1.Idx → EReal) (ix3 0 0 0) + tileAt V c t.val := by
  rw [outsAt1_B V c t h0 h1]
  dsimp only
  rw [tileAt_of_lt V c t]
  exact sout1_B_0_apply c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2

/-- So does the last tile, -/
theorem scratch_step_C (t : Fin cfg1.N) (h0 : ¬t.val % 16 = 0) (h1 : t.val % 16 = 15) :
    ((outsAt1 V c t.val t.isLt).2 : S1x1x1.Idx → EReal) (ix3 0 0 0)
      = ((outsAt1 V c (t.val - 1) (Nat.lt_of_le_of_lt (Nat.sub_le _ _) t.isLt)).2 : S1x1x1.Idx → EReal) (ix3 0 0 0) + tileAt V c t.val := by
  rw [outsAt1_C V c t h0 h1]
  dsimp only
  rw [tileAt_of_lt V c t]
  exact sout1_C_0_apply c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2

/-- which also stores the same total into the output block. -/
theorem out_step_C (t : Fin cfg1.N) (h0 : ¬t.val % 16 = 0) (h1 : t.val % 16 = 15) :
    ((outsAt1 V c t.val t.isLt).1 : S1x1x1.Idx → EReal) (ix3 0 0 0)
      = ((outsAt1 V c (t.val - 1) (Nat.lt_of_le_of_lt (Nat.sub_le _ _) t.isLt)).2 : S1x1x1.Idx → EReal) (ix3 0 0 0) + tileAt V c t.val := by
  rw [outsAt1_C V c t h0 h1]
  dsimp only
  rw [tileAt_of_lt V c t]
  exact out1_C_5_apply c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2

/-! ## The running total along the grid -/

/-- The running total of the tiles of point n's batch entry, up to point n. -/
def totalUpTo (n : ℕ) : EReal := running (fun q => tileAt V c (16 * (n / 16) + q)) (n % 16)

theorem totalUpTo_first (n : ℕ) (h0 : n % 16 = 0) : totalUpTo V c n = 0 + tileAt V c n := by
  have e : 16 * (n / 16) + 0 = n := by omega
  unfold totalUpTo
  rw [h0]
  show 0 + tileAt V c (16 * (n / 16) + 0) = _
  rw [e]

theorem totalUpTo_next (n : ℕ) (h0 : ¬(n + 1) % 16 = 0) : totalUpTo V c (n + 1) = totalUpTo V c n + tileAt V c (n + 1) := by
  have e1 : (n + 1) % 16 = n % 16 + 1 := by omega
  have e2 : (n + 1) / 16 = n / 16 := by omega
  have e3 : 16 * (n / 16) + (n % 16 + 1) = n + 1 := by omega
  unfold totalUpTo
  rw [e1, e2]
  show running (fun q => tileAt V c (16 * (n / 16) + q)) (n % 16) + tileAt V c (16 * (n / 16) + (n % 16 + 1)) = _
  rw [e3]

/-- After point n the scratch holds the running total of its batch entry's tiles up to n: by induction along the grid. -/
theorem scratch_total : ∀ (n : ℕ) (hn : n < cfg1.N),
    ((outsAt1 V c n hn).2 : S1x1x1.Idx → EReal) (ix3 0 0 0) = totalUpTo V c n
  | 0, hn => (scratch_step_A V c ⟨0, hn⟩ rfl).trans (totalUpTo_first V c 0 rfl).symm
  | n + 1, hn => by
    by_cases h0 : (n + 1) % 16 = 0
    · exact (scratch_step_A V c ⟨n + 1, hn⟩ h0).trans (totalUpTo_first V c (n + 1) h0).symm
    · rw [totalUpTo_next V c n h0, ← scratch_total n (Nat.lt_of_succ_lt hn)]
      by_cases h1 : (n + 1) % 16 = 15
      · exact scratch_step_C V c ⟨n + 1, hn⟩ h0 h1
      · exact scratch_step_B V c ⟨n + 1, hn⟩ h0 h1

theorem scratch_after (n : ℕ) (hn : n < cfg1.N) :
    ((outsAt1 V c n hn).2 : S1x1x1.Idx → EReal) (ix3 0 0 0) = running (fun q => tileAt V c (16 * (n / 16) + q)) (n % 16) :=
  scratch_total V c n hn

/-- At the last tile of a batch entry the output block holds the total of all sixteen tiles. -/
theorem out_last (t : Fin cfg1.N) (h : t.val % 16 = 15) :
    ((outsAt1 V c t.val t.isLt).1 : S1x1x1.Idx → EReal) (ix3 0 0 0) = running (fun q => tileAt V c (16 * (t.val / 16) + q)) 15 := by
  have h0 : ¬t.val % 16 = 0 := by omega
  have e1 : (t.val - 1) % 16 = 14 := by omega
  have e2 : (t.val - 1) / 16 = t.val / 16 := by omega
  have e3 : 16 * (t.val / 16) + 15 = t.val := by omega
  rw [out_step_C V c t h0 h, scratch_total V c (t.val - 1) _]
  unfold totalUpTo
  rw [e1, e2]
  show _ = running (fun q => tileAt V c (16 * (t.val / 16) + q)) 14 + tileAt V c (16 * (t.val / 16) + 15)
  rw [e3]

/-! ## The output array after the region -/

/-- Entry (b, 0, 0): the total of the sixteen tiles of batch entry b. -/
def accArr : S8x1x1.Idx → EReal := fun i => running (fun q => tileAt V c (16 * (i 0).val + q)) 15

/-- The output window's block at point t is entry (t / 16, 0, 0). -/
theorem idx_facts1_5 : ∀ t : Fin cfg1.N,
    win1_5.index t (0 : Fin 3) = t.val / 16 ∧ win1_5.index t (1 : Fin 3) = 0 ∧ win1_5.index t (2 : Fin 3) = 0 :=
  (by decide +kernel : ∀ t : Fin grid1.N, _)

theorem out_blk_at (t : Fin cfg1.N) (h : t.val % 16 = 15) (y : S1x1x1.Idx) (i : S8x1x1.Idx) (hi : (i 0).val = t.val / 16) :
    ((outsAt1 V c t.val t.isLt).1 : S1x1x1.Idx → EReal) y = accArr V c i := by
  have hy : y = ix3 0 0 0 := by
    funext a
    apply Fin.ext
    match a with
    | ⟨0, _⟩ => have : (y 0).val < 1 := (y 0).isLt; show (y 0).val = 0; omega
    | ⟨1, _⟩ => have : (y 1).val < 1 := (y 1).isLt; show (y 1).val = 0; omega
    | ⟨2, _⟩ => have : (y 2).val < 1 := (y 2).isLt; show (y 2).val = 0; omega
  rw [hy]
  unfold accArr
  rw [hi]
  exact out_last V c t h

/-- What a last-tile point writes back is its entry of the totals. -/
theorem flushed1_5_eq (t : Fin cfg1.N) (hf : (cfg1.win 5).flush t = true) :
    (dat1 V c).flushed 5 t = ((cfg1.win 5).blk t).view.read (Elt Ideal) (accArr V c) := by
  have h15 : t.val % 16 = 15 := (flush1_5 t).mp hf
  obtain ⟨e0, e1, e2⟩ := idx_facts1_5 t
  show (cfg1.win 5).cut (grid1.coords t) ((dat1 V c).after 5 t) = _
  rw [after1_5]
  funext j
  have hj : (j 0).val < 1 := (j 0).isLt
  refine out_blk_at V c t h15 _ _ ?_
  show win1_5.index t (0 : Fin 3) * 1 + 1 * (j 0).val = t.val / 16
  omega

theorem mem_blk1_5 (t : Fin cfg1.N) (i : S8x1x1.Idx) :
    i ∈ ((cfg1.win 5).blk t).view.set ↔ ∀ a : Fin 3, win1_5.index t a * S1x1x1.size a ≤ (i a).val ∧ (i a).val < win1_5.index t a * S1x1x1.size a + S1x1x1.size a := by
  show i ∈ ((View.whole main_v13).slice (win1_5.rect t)).set ↔ _
  rw [View.set_slice_whole, Rect.mem_set_unit]
  exact Iff.rfl

/-- Every entry is written back by the last tile of its batch entry. -/
theorem cover1_5 (i : S8x1x1.Idx) : ∃ t : Fin cfg1.N, (cfg1.win 5).flush t = true ∧ i ∈ ((cfg1.win 5).blk t).view.set := by
  have hi0 : (i 0).val < 8 := (i 0).isLt
  have hi1 : (i 1).val < 1 := (i 1).isLt
  have hi2 : (i 2).val < 1 := (i 2).isLt
  obtain ⟨t, ht⟩ : ∃ t : Fin cfg1.N, t.val = 16 * (i 0).val + 15 := ⟨⟨16 * (i 0).val + 15, by rw [show cfg1.N = 128 from N_1]; omega⟩, rfl⟩
  obtain ⟨e0, e1, e2⟩ := idx_facts1_5 t
  refine ⟨t, (flush1_5 t).mpr (by omega), ?_⟩
  rw [mem_blk1_5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1 ≤ (i 1).val ∧ (i 1).val < win1_5.index t (1 : Fin 3) * 1 + 1; omega
  | ⟨2, _⟩ => show win1_5.index t (2 : Fin 3) * 1 ≤ (i 2).val ∧ (i 2).val < win1_5.index t (2 : Fin 3) * 1 + 1; omega

/-- The output array after the region: the totals. -/
theorem arr1_5_eq : (dat1 (F := Ideal) V c).arrAt 5 cfg1.N = accArr V c :=
  (dat1 V c).arrAt_eq_of_cover 5 (accArr V c) (flushed1_5_eq V c) (cover1_5)

theorem arr1_5 (b : Fin 8) :
    ((dat1 (F := Ideal) V c).arrAt 5 cfg1.N : S8x1x1.Idx → EReal) (ix3 b 0 0) = running (fun q => tileAt V c (16 * b.val + q)) 15 :=
  congrFun (arr1_5_eq V c) (ix3 b 0 0)

end Cert.KernelIdeal.Val

end
-- ==== Proof.KI.Val1Blocks.lean ====
/-
  The five input blocks of the second kernel region, read at an index as entries of the region's arrays.

  The grid is 8 × 4 × 4: point t is batch entry t / 16, row tile (t / 4) % 4, column tile t % 4.  The first
  projection's window is the block of 64 rows at block index (t / 16, (t / 4) % 4, 0) of its 8 × 256 × 256 array, the
  second projection's window the block at (t / 16, t % 4, 0) of its array; the two 1 × 256 vectors and the 1 × 1 word
  are whole arrays at every point.  A block's entry at offset y is the array's entry at block index × block size + y,
  coordinate by coordinate.
-/
import proofs.«180940_j64441689309605_1_alg».proof.Proof.KI.Reg1
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-- The grid has 128 points. -/
theorem lt_128 (t : Fin cfg1.N) : t.val < 128 :=
  Nat.lt_of_lt_of_eq t.isLt (show cfg1.N = 128 from N_1)

/-- The printed index maps over the grid: the first projection's window sits at block (t / 16, (t / 4) % 4, 0), the
    second's at block (t / 16, t % 4, 0), the three small windows at block (0, 0). -/
theorem idx_facts1 : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = t.val % 4 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The first projection's block at point t, at offset y, is the array's entry in batch entry t / 16, row
    (t / 4) % 4 · 64 + y 1, column y 2. -/
theorem blk1_0_at (t : Fin cfg1.N) (y : S1x64x256.Idx) (i : S8x256x256.Idx)
    (h0 : (i 0).val = t.val / 16) (h1 : (i 1).val = t.val / 4 % 4 * 64 + (y 1).val) (h2 : (i 2).val = (y 2).val) :
    (iblk1 (F := Ideal) V c 0 t : S1x64x256.Idx → EReal) y = (V c main_v7 : S8x256x256.Idx → EReal) i := by
  obtain ⟨e0, e1, e2, -⟩ := idx_facts1 t
  have hy : (y 0).val < 1 := (y 0).isLt
  unfold iblk1
  rw [View.read_apply]
  show (V c main_v7 : S8x256x256.Idx → EReal) _ = _
  congr 1
  funext a
  apply Fin.ext
  match a with
  | ⟨0, _⟩ => show win1_0.index t (0 : Fin 3) * 1 + 1 * (y 0).val = (i 0).val; omega
  | ⟨1, _⟩ => show win1_0.index t (1 : Fin 3) * 64 + 1 * (y 1).val = (i 1).val; omega
  | ⟨2, _⟩ => show win1_0.index t (2 : Fin 3) * 256 + 1 * (y 2).val = (i 2).val; omega

/-- The second projection's block at point t, at offset y, is the array's entry in batch entry t / 16, row
    t % 4 · 64 + y 1, column y 2. -/
theorem blk1_1_at (t : Fin cfg1.N) (y : S1x64x256.Idx) (i : S8x256x256.Idx)
    (h0 : (i 0).val = t.val / 16) (h1 : (i 1).val = t.val % 4 * 64 + (y 1).val) (h2 : (i 2).val = (y 2).val) :
    (iblk1 (F := Ideal) V c 1 t : S1x64x256.Idx → EReal) y = (V c main_v8 : S8x256x256.Idx → EReal) i := by
  obtain ⟨-, -, -, e0, e1, e2, -⟩ := idx_facts1 t
  have hy : (y 0).val < 1 := (y 0).isLt
  unfold iblk1
  rw [View.read_apply]
  show (V c main_v8 : S8x256x256.Idx → EReal) _ = _
  congr 1
  funext a
  apply Fin.ext
  match a with
  | ⟨0, _⟩ => show win1_1.index t (0 : Fin 3) * 1 + 1 * (y 0).val = (i 0).val; omega
  | ⟨1, _⟩ => show win1_1.index t (1 : Fin 3) * 64 + 1 * (y 1).val = (i 1).val; omega
  | ⟨2, _⟩ => show win1_1.index t (2 : Fin 3) * 256 + 1 * (y 2).val = (i 2).val; omega

/-- The second layer's weight row (window 2): its block is its whole array at every point. -/
theorem blk1_2_at (t : Fin cfg1.N) (y : S1x256.Idx) : (iblk1 (F := Ideal) V c 2 t : S1x256.Idx → EReal) y = (V c main_v10 : S1x256.Idx → EReal) y := by
  obtain ⟨-, -, -, -, -, -, e0, e1, -⟩ := idx_facts1 t
  unfold iblk1
  rw [View.read_apply]
  show (V c main_v10 : S1x256.Idx → EReal) _ = _
  congr 1
  funext a
  apply Fin.ext
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- The first bias's row (window 3): its block is its whole array at every point. -/
theorem blk1_3_at (t : Fin cfg1.N) (y : S1x256.Idx) : (iblk1 (F := Ideal) V c 3 t : S1x256.Idx → EReal) y = (V c main_v11 : S1x256.Idx → EReal) y := by
  obtain ⟨-, -, -, -, -, -, -, -, e0, e1, -⟩ := idx_facts1 t
  unfold iblk1
  rw [View.read_apply]
  show (V c main_v11 : S1x256.Idx → EReal) _ = _
  congr 1
  funext a
  apply Fin.ext
  match a with
  | ⟨0, _⟩ => show win1_3.index t (0 : Fin 2) * 1 + 1 * (y 0).val = (y 0).val; omega
  | ⟨1, _⟩ => show win1_3.index t (1 : Fin 2) * 256 + 1 * (y 1).val = (y 1).val; omega

/-- The second bias's block is its whole one-word array at every point. -/
theorem blk1_4_at (t : Fin cfg1.N) (y : S1x1.Idx) : (iblk1 (F := Ideal) V c 4 t : S1x1.Idx → EReal) y = (V c main_v12 : S1x1.Idx → EReal) y := by
  obtain ⟨-, -, -, -, -, -, -, -, -, -, e0, e1⟩ := idx_facts1 t
  unfold iblk1
  rw [View.read_apply]
  show (V c main_v12 : S1x1.Idx → EReal) _ = _
  congr 1
  funext a
  apply Fin.ext
  match a with
  | ⟨0, _⟩ => show win1_4.index t (0 : Fin 2) * 1 + 1 * (y 0).val = (y 0).val; omega
  | ⟨1, _⟩ => show win1_4.index t (1 : Fin 2) * 1 + 1 * (y 1).val = (y 1).val; omega

/-! ## The same facts at coordinates -/

/-- Row ii, hidden unit h of the first projection's block at point t. -/
theorem blk1_0_apply (t : Fin cfg1.N) (ii : Fin 64) (h : Fin 256) :
    (iblk1 (F := Ideal) V c 0 t : S1x64x256.Idx → EReal) (ix3 0 ii h)
      = (V c main_v7 : S8x256x256.Idx → EReal)
          (ix3 ⟨t.val / 16, by have := lt_128 t; omega⟩ ⟨t.val / 4 % 4 * 64 + ii.val, by have := ii.isLt; omega⟩ h) :=
  blk1_0_at V c t _ _ rfl rfl rfl

/-- Row jj, hidden unit h of the second projection's block at point t. -/
theorem blk1_1_apply (t : Fin cfg1.N) (jj : Fin 64) (h : Fin 256) :
    (iblk1 (F := Ideal) V c 1 t : S1x64x256.Idx → EReal) (ix3 0 jj h)
      = (V c main_v8 : S8x256x256.Idx → EReal)
          (ix3 ⟨t.val / 16, by have := lt_128 t; omega⟩ ⟨t.val % 4 * 64 + jj.val, by have := jj.isLt; omega⟩ h) :=
  blk1_1_at V c t _ _ rfl rfl rfl

theorem blk1_2_apply (t : Fin cfg1.N) (h : Fin 256) :
    (iblk1 (F := Ideal) V c 2 t : S1x256.Idx → EReal) (ix2 0 h) = (V c main_v10 : S1x256.Idx → EReal) (ix2 0 h) :=
  blk1_2_at V c t _

theorem blk1_3_apply (t : Fin cfg1.N) (h : Fin 256) :
    (iblk1 (F := Ideal) V c 3 t : S1x256.Idx → EReal) (ix2 0 h) = (V c main_v11 : S1x256.Idx → EReal) (ix2 0 h) :=
  blk1_3_at V c t _

theorem blk1_4_apply (t : Fin cfg1.N) :
    (iblk1 (F := Ideal) V c 4 t : S1x1.Idx → EReal) (ix2 0 0) = (V c main_v12 : S1x1.Idx → EReal) (ix2 0 0) :=
  blk1_4_at V c t _

end Cert.KernelIdeal.Val

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.KI.Val0.lean ====
/-
  What region 0 leaves in its two output arrays, in the extended reals.

  At grid point t the body multiplies the block of a feature array at batch entry t (196 × 512) with a weight half
  (512 × 256) and the pipeline writes the product back as block t of the output array. The eight blocks tile the
  array, so after the region each output array is ONE function of the region's input arrays: at (b, l, h) the sum over
  the 512 channels k of feature (b, l, k) times weight (k, h).
-/
import proofs.«180940_j64441689309605_1_alg».proof.Proof.KI.Reg0
import proofs.«180940_j64441689309605_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b)) (c : Dev nD)

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## The body's two products, at an index -/

/-- The first store's payload at (u, p, q): row p of the feature block against column q of the weight half. The casts
    to 196 × 512 and back to 1 × 196 × 256 only drop and add the unit axis, and rounding to bf16 is the identity in
    the extended reals. -/
theorem pay1_apply (v0 : Vec Ideal S1x196x512 .f32) (v6 : Vec Ideal S512x256 .f32) (u : Fin 1) (p : Fin 196) (q : Fin 256) :
    (k0_pay1 v0 v6 : S1x196x256.Idx → EReal) (ix3 u p q)
      = ∑ k : Fin 512, (v0 : S1x196x512.Idx → EReal) (ix3 0 p k) * (v6 : S512x256.Idx → EReal) (ix2 k q) := by
  unfold k0_pay1
  rw [shapeCast_ab_1ab_apply]
  rw [RowOps.matmul_plain_apply (M := 196) (K := 512) (N := 256) dot_S196x512_S512x256_S196x256_1_0_0_1_n_n rfl]
  simp only [truncf_apply, shapeCast_self, shapeCast_1ab_ab_apply]

/-- The second store's payload, the same product of the other feature block and weight half. -/
theorem pay2_apply (v3 : Vec Ideal S1x196x512 .f32) (v9 : Vec Ideal S512x256 .f32) (u : Fin 1) (p : Fin 196) (q : Fin 256) :
    (k0_pay2 v3 v9 : S1x196x256.Idx → EReal) (ix3 u p q)
      = ∑ k : Fin 512, (v3 : S1x196x512.Idx → EReal) (ix3 0 p k) * (v9 : S512x256.Idx → EReal) (ix2 k q) :=
  pay1_apply v3 v9 u p q

/-- What the body leaves in the first output's buffer, at an index: the one whole store's payload. -/
theorem out4_apply (x0 : Vec Ideal S1x196x512 .f32) (x2 : Vec Ideal S512x256 .f32) (y : S1x196x256.Idx) :
    (out0_4 x0 x2 : S1x196x256.Idx → EReal) y
      = ∑ k : Fin 512, (x0 : S1x196x512.Idx → EReal) (ix3 0 (y 1) k) * (x2 : S512x256.Idx → EReal) (ix2 k (y 2)) := by
  unfold out0_4
  rw [View.canon_unit_zero zeros3]
  simp only [View.ld_unit_zero (S := S1x196x512) zeros3, View.ld_unit_zero (S := S512x256) zeros2]
  exact (congrArg (k0_pay1 x0 x2) (eq_ix3 y)).trans (pay1_apply x0 x2 (y 0) (y 1) (y 2))

theorem out5_apply (x1 : Vec Ideal S1x196x512 .f32) (x3 : Vec Ideal S512x256 .f32) (y : S1x196x256.Idx) :
    (out0_5 x1 x3 : S1x196x256.Idx → EReal) y
      = ∑ k : Fin 512, (x1 : S1x196x512.Idx → EReal) (ix3 0 (y 1) k) * (x3 : S512x256.Idx → EReal) (ix2 k (y 2)) := by
  unfold out0_5
  rw [View.canon_unit_zero zeros3]
  simp only [View.ld_unit_zero (S := S1x196x512) zeros3, View.ld_unit_zero (S := S512x256) zeros2]
  exact (congrArg (k0_pay2 x1 x3) (eq_ix3 y)).trans (pay2_apply x1 x3 (y 0) (y 1) (y 2))

/-! ## The blocks, read off the arrays -/

/-- The printed index maps over the grid: the feature and output windows sit at block (t, 0, 0), the weight windows
    at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The first feature window's block at point t is batch entry t of its array. -/
theorem blk0_apply (t : Fin cfg0.N) (y : S1x196x512.Idx) (i : S8x196x512.Idx)
    (h0 : (i 0).val = t.val) (h1 : (i 1).val = (y 1).val) (h2 : (i 2).val = (y 2).val) :
    (iblk0 V c 0 t : S1x196x512.Idx → EReal) y = (V c main_v1 : S8x196x512.Idx → EReal) i := by
  obtain ⟨e0, e1, e2, -⟩ := idx_facts t
  have hy : (y 0).val < 1 := (y 0).isLt
  unfold iblk0
  rw [View.read_apply]
  show (V c main_v1 : S8x196x512.Idx → EReal) _ = _
  congr 1
  funext a
  apply Fin.ext
  match a with
  | ⟨0, _⟩ => show win0_0.index t (0 : Fin 3) * 1 + 1 * (y 0).val = (i 0).val; omega
  | ⟨1, _⟩ => show win0_0.index t (1 : Fin 3) * 196 + 1 * (y 1).val = (i 1).val; omega
  | ⟨2, _⟩ => show win0_0.index t (2 : Fin 3) * 512 + 1 * (y 2).val = (i 2).val; omega

/-- The second feature window's block at point t is batch entry t of its array. -/
theorem blk1_apply (t : Fin cfg0.N) (y : S1x196x512.Idx) (i : S8x196x512.Idx)
    (h0 : (i 0).val = t.val) (h1 : (i 1).val = (y 1).val) (h2 : (i 2).val = (y 2).val) :
    (iblk0 V c 1 t : S1x196x512.Idx → EReal) y = (V c main_v3 : S8x196x512.Idx → EReal) i := by
  obtain ⟨-, -, -, e0, e1, e2, -⟩ := idx_facts t
  have hy : (y 0).val < 1 := (y 0).isLt
  unfold iblk0
  rw [View.read_apply]
  show (V c main_v3 : S8x196x512.Idx → EReal) _ = _
  congr 1
  funext a
  apply Fin.ext
  match a with
  | ⟨0, _⟩ => show win0_1.index t (0 : Fin 3) * 1 + 1 * (y 0).val = (i 0).val; omega
  | ⟨1, _⟩ => show win0_1.index t (1 : Fin 3) * 196 + 1 * (y 1).val = (i 1).val; omega
  | ⟨2, _⟩ => show win0_1.index t (2 : Fin 3) * 512 + 1 * (y 2).val = (i 2).val; omega

/-- The upper weight half's block is its whole array at every point. -/
theorem blk2_apply (t : Fin cfg0.N) (y : S512x256.Idx) : (iblk0 V c 2 t : S512x256.Idx → EReal) y = (V c main_v4 : S512x256.Idx → EReal) y := by
  obtain ⟨-, -, -, -, -, -, e0, e1, -⟩ := idx_facts t
  unfold iblk0
  rw [View.read_apply]
  show (V c main_v4 : S512x256.Idx → EReal) _ = _
  congr 1
  funext a
  apply Fin.ext
  match a with
  | ⟨0, _⟩ => show win0_2.index t (0 : Fin 2) * 512 + 1 * (y 0).val = (y 0).val; omega
  | ⟨1, _⟩ => show win0_2.index t (1 : Fin 2) * 256 + 1 * (y 1).val = (y 1).val; omega

/-- The lower weight half's block is its whole array at every point. -/
theorem blk3_apply (t : Fin cfg0.N) (y : S512x256.Idx) : (iblk0 V c 3 t : S512x256.Idx → EReal) y = (V c main_v5 : S512x256.Idx → EReal) y := by
  obtain ⟨-, -, -, -, -, -, -, -, e0, e1, -⟩ := idx_facts t
  unfold iblk0
  rw [View.read_apply]
  show (V c main_v5 : S512x256.Idx → EReal) _ = _
  congr 1
  funext a
  apply Fin.ext
  match a with
  | ⟨0, _⟩ => show win0_3.index t (0 : Fin 2) * 512 + 1 * (y 0).val = (y 0).val; omega
  | ⟨1, _⟩ => show win0_3.index t (1 : Fin 2) * 256 + 1 * (y 1).val = (y 1).val; omega

/-! ## Each output array as one function of the input arrays -/

/-- The projection of a feature array by a weight half: at (b, l, h) the sum over the channels. -/
def projArr (x : S8x196x512.Idx → EReal) (w : S512x256.Idx → EReal) : S8x196x256.Idx → EReal :=
  fun i => ∑ k : Fin 512, x (ix3 (i 0) (i 1) k) * w (ix2 k (i 2))

/-- What the body leaves for the first output at point t, at buffer index y, is the projection at the array index
    (t, y 1, y 2). -/
theorem out4_blk (t : Fin cfg0.N) (y : S1x196x256.Idx) (i : S8x196x256.Idx)
    (h0 : (i 0).val = t.val) (h1 : (i 1).val = (y 1).val) (h2 : (i 2).val = (y 2).val) :
    (out0_4 (iblk0 V c 0 t) (iblk0 V c 2 t) : S1x196x256.Idx → EReal) y = projArr (V c main_v1) (V c main_v4) i := by
  refine (out4_apply _ _ y).trans ?_
  unfold projArr
  refine Finset.sum_congr rfl fun k _ => ?_
  have e2 : (ix2 k (y 2) : S512x256.Idx) = ix2 k (i 2) := by
    funext a
    match a with
    | ⟨0, _⟩ => rfl
    | ⟨1, _⟩ => exact Fin.ext h2.symm
  rw [blk0_apply V c t (ix3 0 (y 1) k) (ix3 (i 0) (i 1) k) h0 h1 rfl, blk2_apply V c t, e2]
  rfl

theorem out5_blk (t : Fin cfg0.N) (y : S1x196x256.Idx) (i : S8x196x256.Idx)
    (h0 : (i 0).val = t.val) (h1 : (i 1).val = (y 1).val) (h2 : (i 2).val = (y 2).val) :
    (out0_5 (iblk0 V c 1 t) (iblk0 V c 3 t) : S1x196x256.Idx → EReal) y = projArr (V c main_v3) (V c main_v5) i := by
  refine (out5_apply _ _ y).trans ?_
  unfold projArr
  refine Finset.sum_congr rfl fun k _ => ?_
  have e2 : (ix2 k (y 2) : S512x256.Idx) = ix2 k (i 2) := by
    funext a
    match a with
    | ⟨0, _⟩ => rfl
    | ⟨1, _⟩ => exact Fin.ext h2.symm
  rw [blk1_apply V c t (ix3 0 (y 1) k) (ix3 (i 0) (i 1) k) h0 h1 rfl, blk3_apply V c t, e2]
  rfl

/-- What point t writes back to the first output array is block t of the projection. -/
theorem flushed4_eq (t : Fin cfg0.N) :
    (dat0 V c).flushed 4 t = ((cfg0.win 4).blk t).view.read (Elt Ideal) (projArr (V c main_v1) (V c main_v4)) := by
  show (cfg0.win 4).cut (grid0.coords t) ((dat0 V c).after 4 t) = _
  rw [after0_4]
  obtain ⟨-, -, -, -, -, -, -, -, -, -, e0, e1, e2, -⟩ := idx_facts t
  funext j
  have hj : (j 0).val < 1 := (j 0).isLt
  refine out4_blk V c t _ _ ?_ ?_ ?_
  · show win0_4.index t (0 : Fin 3) * 1 + 1 * (j 0).val = t.val; omega
  · show win0_4.index t (1 : Fin 3) * 196 + 1 * (j 1).val = (j 1).val; omega
  · show win0_4.index t (2 : Fin 3) * 256 + 1 * (j 2).val = (j 2).val; omega

theorem flushed5_eq (t : Fin cfg0.N) :
    (dat0 V c).flushed 5 t = ((cfg0.win 5).blk t).view.read (Elt Ideal) (projArr (V c main_v3) (V c main_v5)) := by
  show (cfg0.win 5).cut (grid0.coords t) ((dat0 V c).after 5 t) = _
  rw [after0_5]
  obtain ⟨-, -, -, -, -, -, -, -, -, -, -, -, -, e0, e1, e2⟩ := idx_facts t
  funext j
  have hj : (j 0).val < 1 := (j 0).isLt
  refine out5_blk V c t _ _ ?_ ?_ ?_
  · show win0_5.index t (0 : Fin 3) * 1 + 1 * (j 0).val = t.val; omega
  · show win0_5.index t (1 : Fin 3) * 196 + 1 * (j 1).val = (j 1).val; omega
  · show win0_5.index t (2 : Fin 3) * 256 + 1 * (j 2).val = (j 2).val; omega

/-- An index of the first output array is in point t's block iff each coordinate is in the block's range. -/
theorem mem_blk4 (t : Fin cfg0.N) (i : S8x196x256.Idx) :
    i ∈ ((cfg0.win 4).blk t).view.set ↔ ∀ a : Fin 3, win0_4.index t a * S1x196x256.size a ≤ (i a).val ∧ (i a).val < win0_4.index t a * S1x196x256.size a + S1x196x256.size a := by
  show i ∈ ((View.whole main_v6_0).slice (win0_4.rect t)).set ↔ _
  rw [View.set_slice_whole, Rect.mem_set_unit]
  exact Iff.rfl

theorem mem_blk5 (t : Fin cfg0.N) (i : S8x196x256.Idx) :
    i ∈ ((cfg0.win 5).blk t).view.set ↔ ∀ a : Fin 3, win0_5.index t a * S1x196x256.size a ≤ (i a).val ∧ (i a).val < win0_5.index t a * S1x196x256.size a + S1x196x256.size a := by
  show i ∈ ((View.whole main_v6_1).slice (win0_5.rect t)).set ↔ _
  rw [View.set_slice_whole, Rect.mem_set_unit]
  exact Iff.rfl

/-- The eight blocks cover the array: batch entry b is point b's block. -/
theorem cover4 (i : S8x196x256.Idx) : ∃ t : Fin cfg0.N, (cfg0.win 4).flush t = true ∧ i ∈ ((cfg0.win 4).blk t).view.set := by
  have hi0 : (i 0).val < 8 := (i 0).isLt
  have hi1 : (i 1).val < 196 := (i 1).isLt
  have hi2 : (i 2).val < 256 := (i 2).isLt
  obtain ⟨t, ht⟩ : ∃ t : Fin cfg0.N, t.val = (i 0).val := ⟨⟨(i 0).val, by rw [show cfg0.N = 8 from N_0]; exact hi0⟩, rfl⟩
  obtain ⟨-, -, -, -, -, -, -, -, -, -, e0, e1, e2, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 196 ≤ (i 1).val ∧ (i 1).val < win0_4.index t (1 : Fin 3) * 196 + 196; omega
  | ⟨2, _⟩ => show win0_4.index t (2 : Fin 3) * 256 ≤ (i 2).val ∧ (i 2).val < win0_4.index t (2 : Fin 3) * 256 + 256; omega

theorem cover5 (i : S8x196x256.Idx) : ∃ t : Fin cfg0.N, (cfg0.win 5).flush t = true ∧ i ∈ ((cfg0.win 5).blk t).view.set := by
  have hi0 : (i 0).val < 8 := (i 0).isLt
  have hi1 : (i 1).val < 196 := (i 1).isLt
  have hi2 : (i 2).val < 256 := (i 2).isLt
  obtain ⟨t, ht⟩ : ∃ t : Fin cfg0.N, t.val = (i 0).val := ⟨⟨(i 0).val, by rw [show cfg0.N = 8 from N_0]; exact hi0⟩, rfl⟩
  obtain ⟨-, -, -, -, -, -, -, -, -, -, -, -, -, e0, e1, e2⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 196 ≤ (i 1).val ∧ (i 1).val < win0_5.index t (1 : Fin 3) * 196 + 196; omega
  | ⟨2, _⟩ => show win0_5.index t (2 : Fin 3) * 256 ≤ (i 2).val ∧ (i 2).val < win0_5.index t (2 : Fin 3) * 256 + 256; omega

/-- The first output array after the region: the projection of the first feature array by the upper weight half. -/
theorem arr0_4_eq : (dat0 (F := Ideal) V c).arrAt 4 cfg0.N = projArr (V c main_v1) (V c main_v4) :=
  (dat0 V c).arrAt_eq_of_cover 4 (projArr (V c main_v1) (V c main_v4)) (fun t _ => flushed4_eq V c t) (cover4)

/-- The second output array after the region: the projection of the second feature array by the lower weight half. -/
theorem arr0_5_eq : (dat0 (F := Ideal) V c).arrAt 5 cfg0.N = projArr (V c main_v3) (V c main_v5) :=
  (dat0 V c).arrAt_eq_of_cover 5 (projArr (V c main_v3) (V c main_v5)) (fun t _ => flushed5_eq V c t) (cover5)

/-- The projection at an index. -/
theorem projArr_apply (x : S8x196x512.Idx → EReal) (w : S512x256.Idx → EReal) (i : S8x196x256.Idx) :
    projArr x w i = ∑ k : Fin 512, x (ix3 (i 0) (i 1) k) * w (ix2 k (i 2)) := rfl

theorem arr0_4 (i : S8x196x256.Idx) :
    ((dat0 (F := Ideal) V c).arrAt 4 cfg0.N : S8x196x256.Idx → EReal) i = projArr (V c main_v1) (V c main_v4) i :=
  congrFun (arr0_4_eq V c) i

theorem arr0_5 (i : S8x196x256.Idx) :
    ((dat0 (F := Ideal) V c).arrAt 5 cfg0.N : S8x196x256.Idx → EReal) i = projArr (V c main_v3) (V c main_v5) i :=
  congrFun (arr0_5_eq V c) i

end Cert.KernelIdeal.Val

end
-- ==== Proof.KI.Chain.lean ====
/-
  What the host operations of the kernel's program put in the buffers its two regions read, as functions of the six
  arguments.

  Before the projection region the host reshapes each feature map to its 196 locations (location `l` is row `l / 14`,
  column `l % 14`) and makes the channel the last axis, and cuts the first weight into its upper and lower 512 rows; so
  after that region its two results are the two projections of the specification.  Between the regions the host appends
  sixty rows of the scalar zero to either projection (256 locations, those from 196 on holding zero) and reads the
  second weight, the first bias and the second bias as rows.  After the relation region the host reads its 8 × 1 × 1
  result as 8 × 1.  No operation and no region writes an argument.
-/
import proofs.«180940_j64441689309605_1_alg».proof.Proof.KI.Fold
import proofs.«180940_j64441689309605_1_alg».proof.Proof.Gen.KernelIdeal.Regions
import proofs.«180940_j64441689309605_1_alg».proof.Proof.KI.Val0
import proofs.«180940_j64441689309605_1_alg».proof.Proof.Spec
import Idealize.ShloMosaic.Lib.StableHlo.Run
import Idealize.ShloMosaic.Lib.KernelVsHost

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx Idealize.ShloMosaic.StableHlo
open scoped BigOperators

section Kept
variable {F : FTy → Type} [FloatOps F] (m : (ℓ : Loc nD τ sig) → Buf (Elt F) ℓ) (c : Dev nD)

theorem W9_of_W8 (r : Ref sig .tc) (h : r ∉ hostOps2_W) : W9 m c (Proc.devRef .tc r) = W8 m c (Proc.devRef .tc r) :=
  StableHlo.after_of_writes_sub hostOps2 _ hostOps2_writes h
theorem W7_of_W6 (r : Ref sig .tc) (h : r ∉ hostOps1_4_W) : W7 m c (Proc.devRef .tc r) = W6 m c (Proc.devRef .tc r) :=
  StableHlo.after_of_writes_sub hostOps1_4 _ hostOps1_4_writes h
theorem W6_of_W5 (r : Ref sig .tc) (h : r ∉ hostOps1_3_W) : W6 m c (Proc.devRef .tc r) = W5 m c (Proc.devRef .tc r) :=
  StableHlo.after_of_writes_sub hostOps1_3 _ hostOps1_3_writes h
theorem W5_of_W4 (r : Ref sig .tc) (h : r ∉ hostOps1_2_W) : W5 m c (Proc.devRef .tc r) = W4 m c (Proc.devRef .tc r) :=
  StableHlo.after_of_writes_sub hostOps1_2 _ hostOps1_2_writes h
theorem W4_of_W3 (r : Ref sig .tc) (h : r ∉ hostOps1_1_W) : W4 m c (Proc.devRef .tc r) = W3 m c (Proc.devRef .tc r) :=
  StableHlo.after_of_writes_sub hostOps1_1 _ hostOps1_1_writes h
theorem W3_of_W2 (r : Ref sig .tc) (h : r ∉ hostOps1_W) : W3 m c (Proc.devRef .tc r) = W2 m c (Proc.devRef .tc r) :=
  StableHlo.after_of_writes_sub hostOps1 _ hostOps1_writes h
theorem W1_of_W0 (r : Ref sig .tc) (h : r ∉ hostOps0_W) : W1 m c (Proc.devRef .tc r) = m ((c.tc : Thread nD τ).loc r) :=
  StableHlo.after_of_writes_sub hostOps0 _ hostOps0_writes h

theorem arg0_kept : W9 m c (Proc.devRef .tc main_arg0) = m ((c.tc : Thread nD τ).loc main_arg0) :=
  (W9_of_W8 m c main_arg0 (by decide)).trans <| (W8_of_ne m c main_arg0 (by decide)).trans <| (W7_of_W6 m c main_arg0 (by decide)).trans <|
    (W6_of_W5 m c main_arg0 (by decide)).trans <| (W5_of_W4 m c main_arg0 (by decide)).trans <| (W4_of_W3 m c main_arg0 (by decide)).trans <|
    (W3_of_W2 m c main_arg0 (by decide)).trans <| (W2_of_ne m c main_arg0 (by decide)).trans <| W1_of_W0 m c main_arg0 (by decide)

theorem arg1_kept : W9 m c (Proc.devRef .tc main_arg1) = m ((c.tc : Thread nD τ).loc main_arg1) :=
  (W9_of_W8 m c main_arg1 (by decide)).trans <| (W8_of_ne m c main_arg1 (by decide)).trans <| (W7_of_W6 m c main_arg1 (by decide)).trans <|
    (W6_of_W5 m c main_arg1 (by decide)).trans <| (W5_of_W4 m c main_arg1 (by decide)).trans <| (W4_of_W3 m c main_arg1 (by decide)).trans <|
    (W3_of_W2 m c main_arg1 (by decide)).trans <| (W2_of_ne m c main_arg1 (by decide)).trans <| W1_of_W0 m c main_arg1 (by decide)

theorem arg2_kept : W9 m c (Proc.devRef .tc main_arg2) = m ((c.tc : Thread nD τ).loc main_arg2) :=
  (W9_of_W8 m c main_arg2 (by decide)).trans <| (W8_of_ne m c main_arg2 (by decide)).trans <| (W7_of_W6 m c main_arg2 (by decide)).trans <|
    (W6_of_W5 m c main_arg2 (by decide)).trans <| (W5_of_W4 m c main_arg2 (by decide)).trans <| (W4_of_W3 m c main_arg2 (by decide)).trans <|
    (W3_of_W2 m c main_arg2 (by decide)).trans <| (W2_of_ne m c main_arg2 (by decide)).trans <| W1_of_W0 m c main_arg2 (by decide)

theorem arg3_kept : W9 m c (Proc.devRef .tc main_arg3) = m ((c.tc : Thread nD τ).loc main_arg3) :=
  (W9_of_W8 m c main_arg3 (by decide)).trans <| (W8_of_ne m c main_arg3 (by decide)).trans <| (W7_of_W6 m c main_arg3 (by decide)).trans <|
    (W6_of_W5 m c main_arg3 (by decide)).trans <| (W5_of_W4 m c main_arg3 (by decide)).trans <| (W4_of_W3 m c main_arg3 (by decide)).trans <|
    (W3_of_W2 m c main_arg3 (by decide)).trans <| (W2_of_ne m c main_arg3 (by decide)).trans <| W1_of_W0 m c main_arg3 (by decide)

theorem arg4_kept : W9 m c (Proc.devRef .tc main_arg4) = m ((c.tc : Thread nD τ).loc main_arg4) :=
  (W9_of_W8 m c main_arg4 (by decide)).trans <| (W8_of_ne m c main_arg4 (by decide)).trans <| (W7_of_W6 m c main_arg4 (by decide)).trans <|
    (W6_of_W5 m c main_arg4 (by decide)).trans <| (W5_of_W4 m c main_arg4 (by decide)).trans <| (W4_of_W3 m c main_arg4 (by decide)).trans <|
    (W3_of_W2 m c main_arg4 (by decide)).trans <| (W2_of_ne m c main_arg4 (by decide)).trans <| W1_of_W0 m c main_arg4 (by decide)

theorem arg5_kept : W9 m c (Proc.devRef .tc main_arg5) = m ((c.tc : Thread nD τ).loc main_arg5) :=
  (W9_of_W8 m c main_arg5 (by decide)).trans <| (W8_of_ne m c main_arg5 (by decide)).trans <| (W7_of_W6 m c main_arg5 (by decide)).trans <|
    (W6_of_W5 m c main_arg5 (by decide)).trans <| (W5_of_W4 m c main_arg5 (by decide)).trans <| (W4_of_W3 m c main_arg5 (by decide)).trans <|
    (W3_of_W2 m c main_arg5 (by decide)).trans <| (W2_of_ne m c main_arg5 (by decide)).trans <| W1_of_W0 m c main_arg5 (by decide)

end Kept

/-! ## The layout operations at an index -/

section Layout

/-- A feature map reshaped to 196 locations and transposed to location-major: location `l` is row `l / 14`, column
    `l % 14`. -/
theorem feat_apply (x : S8x512x14x14.Idx → EReal) (b : Fin 8) (l : Fin 196) (k : Fin 512) :
    transpose S8x196x512 [0, 2, 1] (shapeCast S8x512x196 x shapeCasts_S8x512x14x14_S8x512x196) transposes_S8x512x196_S8x196x512_0_2_1 (ix3 b l k)
      = x (ix4 b k ⟨l.val / 14, by omega⟩ ⟨l.val % 14, by omega⟩) := by
  rw [transpose_apply [0, 2, 1] _ transposes_S8x512x196_S8x196x512_0_2_1 (ix3 b l k) (ix3 b k l) (fun a => match a with
    | ⟨0, _⟩ => rfl
    | ⟨1, _⟩ => rfl
    | ⟨2, _⟩ => rfl)]
  exact shapeCast_apply x shapeCasts_S8x512x14x14_S8x512x196 (ix3 b k l) (ix4 b k ⟨l.val / 14, by omega⟩ ⟨l.val % 14, by omega⟩)
    (by rewrite [Shape.rowMajor_val_four, Shape.rowMajor_val_three]
        have hb := b.isLt; have hk := k.isLt; have hl := l.isLt
        show ((b.val * 512 + k.val) * 14 + l.val / 14) * 14 + l.val % 14 = (b.val * 512 + k.val) * 196 + l.val
        omega)

/-- The upper half of the first weight: rows from `0` on. -/
theorem sliceLo_apply (w : S1024x256.Idx → EReal) (k : Fin 512) (h : Fin 256) :
    extractStridedSlice S512x256 ![0, 0] w slices_S1024x256_S512x256_0_0 (ix2 k h) = w (ix2 ⟨0 + k.val, by omega⟩ h) :=
  extractStridedSlice_apply ![0, 0] w slices_S1024x256_S512x256_0_0 (ix2 k h) (ix2 ⟨0 + k.val, by omega⟩ h) (fun a => match a with
    | ⟨0, _⟩ => rfl
    | ⟨1, _⟩ => by show h.val = 0 + h.val; omega)

/-- The lower half of the first weight: rows from `512` on. -/
theorem sliceHi_apply (w : S1024x256.Idx → EReal) (k : Fin 512) (h : Fin 256) :
    extractStridedSlice S512x256 ![512, 0] w slices_S1024x256_S512x256_512_0 (ix2 k h) = w (ix2 ⟨512 + k.val, by omega⟩ h) :=
  extractStridedSlice_apply ![512, 0] w slices_S1024x256_S512x256_512_0 (ix2 k h) (ix2 ⟨512 + k.val, by omega⟩ h) (fun a => match a with
    | ⟨0, _⟩ => rfl
    | ⟨1, _⟩ => by show h.val = 0 + h.val; omega)

/-- Sixty rows of a scalar appended on the location axis: a row below 196 is the operand's, a row from 196 on the scalar. -/
theorem padRows_apply (x : S8x196x256.Idx → EReal) (v : S_.Idx → EReal) (b : Fin 8) (l : Fin 256) (h : Fin 256) :
    pad S8x256x256 ![0, 0, 0] ![0, 60, 0] ![0, 0, 0] x v pads_S8x196x256_S8x256x256_000_0600_000 h_S_ (ix3 b l h)
      = if hl : l.val < 196 then x (ix3 b ⟨l.val, hl⟩ h) else v (Shape.Idx.first h_S_) := by
  by_cases hl : l.val < 196
  · rw [dif_pos hl]
    exact pad_apply_of_inside ![0, 0, 0] ![0, 60, 0] ![0, 0, 0] x v pads_S8x196x256_S8x256x256_000_0600_000 h_S_ (ix3 b l h)
      (ix3 b ⟨l.val, hl⟩ h) (fun a => match a with
        | ⟨0, _⟩ => by show b.val = 0 + b.val * (0 + 1); omega
        | ⟨1, _⟩ => by show l.val = 0 + l.val * (0 + 1); omega
        | ⟨2, _⟩ => by show h.val = 0 + h.val * (0 + 1); omega)
  · rw [dif_neg hl]
    exact pad_apply_of_not_inside ![0, 0, 0] ![0, 60, 0] ![0, 0, 0] x v pads_S8x196x256_S8x256x256_000_0600_000 h_S_ (ix3 b l h)
      (1 : Fin 3) (by
        show ¬(0 ≤ l.val ∧ (l.val - 0) % (0 + 1) = 0 ∧ (l.val - 0) / (0 + 1) < 196)
        omega)

/-- The integer zero converted to a float is zero. -/
theorem sitofp_zero : FloatOps.sitofp (F := Ideal) .f32 (0#32 : BitVec 32) = (0 : EReal) := by
  show (((0#32 : BitVec 32).toInt : ℝ) : EReal) = 0
  simp

/-- A 256 × 1 column read as one row. -/
theorem colRow_apply (w : S256x1.Idx → EReal) (h : Fin 256) :
    shapeCast S1x256 (shapeCast S256 w shapeCasts_S256x1_S256) shapeCasts_S256_S1x256 (ix2 (0 : Fin 1) h) = w (ix2 h (0 : Fin 1)) := by
  rw [shapeCast_apply _ shapeCasts_S256_S1x256 (ix2 (0 : Fin 1) h) (ix1 h)
    (by rewrite [Shape.rowMajor_val_one, Shape.rowMajor_val_two]; show h.val = 0 * 256 + h.val; omega)]
  exact shapeCast_apply w shapeCasts_S256x1_S256 (ix1 h) (ix2 h (0 : Fin 1))
    (by rewrite [Shape.rowMajor_val_two, Shape.rowMajor_val_one]; show h.val * 1 + 0 = h.val; omega)

/-- A vector of 256 read as one row. -/
theorem vecRow_apply (v : S256.Idx → EReal) (h : Fin 256) :
    shapeCast S1x256 v shapeCasts_S256_S1x256 (ix2 (0 : Fin 1) h) = v (ix1 h) :=
  shapeCast_apply v shapeCasts_S256_S1x256 (ix2 (0 : Fin 1) h) (ix1 h)
    (by rewrite [Shape.rowMajor_val_one, Shape.rowMajor_val_two]; show h.val = 0 * 256 + h.val; omega)

/-- A vector of one entry read as a 1 × 1 array. -/
theorem oneOne_apply (v : S1.Idx → EReal) :
    shapeCast S1x1 v shapeCasts_S1_S1x1 (ix2 (0 : Fin 1) (0 : Fin 1)) = v (ix1 (0 : Fin 1)) :=
  shapeCast_apply v shapeCasts_S1_S1x1 (ix2 (0 : Fin 1) (0 : Fin 1)) (ix1 (0 : Fin 1))
    (by rewrite [Shape.rowMajor_val_one, Shape.rowMajor_val_two]; show 0 = 0 * 1 + 0; omega)

/-- An 8 × 1 × 1 array read as 8 × 1. -/
theorem dropUnit_apply (y : S8x1x1.Idx → EReal) (b : Fin 8) (z : Fin 1) :
    shapeCast S8x1 y shapeCasts_S8x1x1_S8x1 (ix2 b z) = y (ix3 b (0 : Fin 1) (0 : Fin 1)) :=
  shapeCast_apply y shapeCasts_S8x1x1_S8x1 (ix2 b z) (ix3 b (0 : Fin 1) (0 : Fin 1))
    (by rewrite [Shape.rowMajor_val_three, Shape.rowMajor_val_two]; have hz := z.isLt; show (b.val * 1 + 0) * 1 + 0 = b.val * 1 + z.val; omega)

end Layout

section Host
variable (m : (ℓ : Loc nD τ sig) → Buf (Elt Ideal) ℓ) (c : Dev nD)

/-! ## What the first host stretch leaves for the projection region -/

theorem v1_eq : (Vr1 m c main_v1 : S8x196x512.Idx → EReal)
    = transpose S8x196x512 [0, 2, 1] (shapeCast S8x512x196 (m ((c.tc : Thread nD τ).loc main_arg0) : S8x512x14x14.Idx → EReal) shapeCasts_S8x512x14x14_S8x512x196) transposes_S8x512x196_S8x196x512_0_2_1 := by
  show StableHlo.after hostOps0 _ (Proc.devRef .tc main_v1) = _
  after_results <;> rfl

theorem v3_eq : (Vr1 m c main_v3 : S8x196x512.Idx → EReal)
    = transpose S8x196x512 [0, 2, 1] (shapeCast S8x512x196 (m ((c.tc : Thread nD τ).loc main_arg1) : S8x512x14x14.Idx → EReal) shapeCasts_S8x512x14x14_S8x512x196) transposes_S8x512x196_S8x196x512_0_2_1 := by
  show StableHlo.after hostOps0 _ (Proc.devRef .tc main_v3) = _
  after_results <;> rfl

theorem v4_eq : (Vr1 m c main_v4 : S512x256.Idx → EReal)
    = extractStridedSlice S512x256 ![0, 0] (m ((c.tc : Thread nD τ).loc main_arg2) : S1024x256.Idx → EReal) slices_S1024x256_S512x256_0_0 := by
  show StableHlo.after hostOps0 _ (Proc.devRef .tc main_v4) = _
  after_results <;> rfl

theorem v5_eq : (Vr1 m c main_v5 : S512x256.Idx → EReal)
    = extractStridedSlice S512x256 ![512, 0] (m ((c.tc : Thread nD τ).loc main_arg2) : S1024x256.Idx → EReal) slices_S1024x256_S512x256_512_0 := by
  show StableHlo.after hostOps0 _ (Proc.devRef .tc main_v5) = _
  after_results <;> rfl

/-- After the projection region its first result holds the first map's projection. -/
theorem p1_eq (b : Fin 8) (l : Fin 196) (h : Fin 256) :
    (W2 m c (Proc.devRef .tc main_v6_0) : S8x196x256.Idx → EReal) (ix3 b l h)
      = Cert.Relation.proj (m ((c.tc : Thread nD τ).loc main_arg0)) (m ((c.tc : Thread nD τ).loc main_arg2)) 0 (by omega) b l h := by
  refine (congrFun ((W2_arr m c 4).trans (arr0_4_eq (Vr1 m) c)) (ix3 b l h)).trans ?_
  show @Eq EReal (projArr (Vr1 m c main_v1) (Vr1 m c main_v4) (ix3 b l h)) _
  rw [v1_eq, v4_eq, projArr_apply]
  unfold Cert.Relation.proj
  exact Finset.sum_congr rfl fun k _ => congrArg₂ (· * ·) (feat_apply _ b l k) (sliceLo_apply _ k h)

/-- After the projection region its second result holds the second map's projection. -/
theorem p2_eq (b : Fin 8) (l : Fin 196) (h : Fin 256) :
    (W2 m c (Proc.devRef .tc main_v6_1) : S8x196x256.Idx → EReal) (ix3 b l h)
      = Cert.Relation.proj (m ((c.tc : Thread nD τ).loc main_arg1)) (m ((c.tc : Thread nD τ).loc main_arg2)) 512 (by omega) b l h := by
  refine (congrFun ((W2_arr m c 5).trans (arr0_5_eq (Vr1 m) c)) (ix3 b l h)).trans ?_
  show @Eq EReal (projArr (Vr1 m c main_v3) (Vr1 m c main_v5) (ix3 b l h)) _
  rw [v3_eq, v5_eq, projArr_apply]
  unfold Cert.Relation.proj
  exact Finset.sum_congr rfl fun k _ => congrArg₂ (· * ·) (feat_apply _ b l k) (sliceHi_apply _ k h)

/-! ## What the host stretches between the regions leave for the relation region -/

theorem c_eq : (W3 m c (Proc.devRef .tc main_c) : S_.Idx → BitVec 32) = constantI S_ 32 0#32 := by
  show StableHlo.after hostOps1 _ (Proc.devRef .tc main_c) = _
  after_results

theorem v7_eq : (Vr7 m c main_v7 : S8x256x256.Idx → EReal)
    = pad S8x256x256 ![0, 0, 0] ![0, 60, 0] ![0, 0, 0] (W2 m c (Proc.devRef .tc main_v6_0) : S8x196x256.Idx → EReal)
        (sitofp (F := Ideal) .f32 (constantI S_ 32 0#32)) pads_S8x196x256_S8x256x256_000_0600_000 h_S_ := by
  have e7 : Vr7 m c main_v7 = W4 m c (Proc.devRef .tc main_v7) :=
    (W7_of_W6 m c main_v7 (by decide)).trans <| (W6_of_W5 m c main_v7 (by decide)).trans (W5_of_W4 m c main_v7 (by decide))
  rw [e7]
  show StableHlo.after hostOps1_1 (W3 m c) (Proc.devRef .tc main_v7) = _
  after_results
  rfl

theorem v8_eq : (Vr7 m c main_v8 : S8x256x256.Idx → EReal)
    = pad S8x256x256 ![0, 0, 0] ![0, 60, 0] ![0, 0, 0] (W2 m c (Proc.devRef .tc main_v6_1) : S8x196x256.Idx → EReal)
        (sitofp (F := Ideal) .f32 (constantI S_ 32 0#32)) pads_S8x196x256_S8x256x256_000_0600_000 h_S_ := by
  have e8 : Vr7 m c main_v8 = W6 m c (Proc.devRef .tc main_v8) := W7_of_W6 m c main_v8 (by decide)
  rw [e8]
  show StableHlo.after hostOps1_3 (W5 m c) (Proc.devRef .tc main_v8) = _
  after_results
  rfl

theorem v10_eq : (Vr7 m c main_v10 : S1x256.Idx → EReal)
    = shapeCast S1x256 (shapeCast S256 (m ((c.tc : Thread nD τ).loc main_arg4) : S256x1.Idx → EReal) shapeCasts_S256x1_S256) shapeCasts_S256_S1x256 := by
  show StableHlo.after hostOps1_4 (W6 m c) (Proc.devRef .tc main_v10) = _
  after_results
  rw [(W2_of_ne m c main_arg4 (by decide)).trans (W1_of_W0 m c main_arg4 (by decide))]
  rfl

theorem v11_eq : (Vr7 m c main_v11 : S1x256.Idx → EReal)
    = shapeCast S1x256 (m ((c.tc : Thread nD τ).loc main_arg3) : S256.Idx → EReal) shapeCasts_S256_S1x256 := by
  show StableHlo.after hostOps1_4 (W6 m c) (Proc.devRef .tc main_v11) = _
  after_results
  rw [(W2_of_ne m c main_arg3 (by decide)).trans (W1_of_W0 m c main_arg3 (by decide))]
  rfl

theorem v12_eq : (Vr7 m c main_v12 : S1x1.Idx → EReal)
    = shapeCast S1x1 (m ((c.tc : Thread nD τ).loc main_arg5) : S1.Idx → EReal) shapeCasts_S1_S1x1 := by
  show StableHlo.after hostOps1_4 (W6 m c) (Proc.devRef .tc main_v12) = _
  after_results
  rw [(W2_of_ne m c main_arg5 (by decide)).trans (W1_of_W0 m c main_arg5 (by decide))]
  rfl

theorem v14_eq : (W9 m c (Proc.devRef .tc main_v14) : S8x1.Idx → EReal)
    = shapeCast S8x1 (W8 m c (Proc.devRef .tc main_v13) : S8x1x1.Idx → EReal) shapeCasts_S8x1x1_S8x1 := by
  show StableHlo.after hostOps2 (W8 m c) (Proc.devRef .tc main_v14) = _
  after_results
  rfl

/-- The first padded projection: the first map's projection on the rows below 196, zero from row 196 on. -/
theorem pad1_eq (b : Fin 8) (l : Fin 256) (h : Fin 256) :
    (Vr7 m c main_v7 : S8x256x256.Idx → EReal) (ix3 b l h)
      = if hl : l.val < 196 then Cert.Relation.proj (m ((c.tc : Thread nD τ).loc main_arg0)) (m ((c.tc : Thread nD τ).loc main_arg2)) 0 (by omega) b ⟨l.val, hl⟩ h else 0 := by
  rw [v7_eq, padRows_apply]
  by_cases hl : l.val < 196
  · rw [dif_pos hl, dif_pos hl, p1_eq]
  · rw [dif_neg hl, dif_neg hl]
    exact sitofp_zero

/-- The second padded projection. -/
theorem pad2_eq (b : Fin 8) (l : Fin 256) (h : Fin 256) :
    (Vr7 m c main_v8 : S8x256x256.Idx → EReal) (ix3 b l h)
      = if hl : l.val < 196 then Cert.Relation.proj (m ((c.tc : Thread nD τ).loc main_arg1)) (m ((c.tc : Thread nD τ).loc main_arg2)) 512 (by omega) b ⟨l.val, hl⟩ h else 0 := by
  rw [v8_eq, padRows_apply]
  by_cases hl : l.val < 196
  · rw [dif_pos hl, dif_pos hl, p2_eq]
  · rw [dif_neg hl, dif_neg hl]
    exact sitofp_zero

/-- The second weight as a row. -/
theorem w2_eq (h : Fin 256) :
    (Vr7 m c main_v10 : S1x256.Idx → EReal) (ix2 (0 : Fin 1) h) = (m ((c.tc : Thread nD τ).loc main_arg4) : S256x1.Idx → EReal) (ix2 h (0 : Fin 1)) := by
  rw [v10_eq, colRow_apply]

/-- The first bias as a row. -/
theorem b1_eq (h : Fin 256) :
    (Vr7 m c main_v11 : S1x256.Idx → EReal) (ix2 (0 : Fin 1) h) = (m ((c.tc : Thread nD τ).loc main_arg3) : S256.Idx → EReal) (ix1 h) := by
  rw [v11_eq, vecRow_apply]

/-- The second bias as a 1 × 1 array. -/
theorem b2_eq :
    (Vr7 m c main_v12 : S1x1.Idx → EReal) (ix2 (0 : Fin 1) (0 : Fin 1)) = (m ((c.tc : Thread nD τ).loc main_arg5) : S1.Idx → EReal) (ix1 (0 : Fin 1)) := by
  rw [v12_eq, oneOne_apply]

/-- The program's result is the relation region's result with its two unit axes read as one. -/
theorem out_at (b : Fin 8) (z : Fin 1) :
    (W9 m c (Proc.devRef .tc main_v14) : S8x1.Idx → EReal) (ix2 b z) = (W8 m c (Proc.devRef .tc main_v13) : S8x1x1.Idx → EReal) (ix3 b (0 : Fin 1) (0 : Fin 1)) := by
  rw [v14_eq, dropUnit_apply]

theorem out_eq (i : S8x1.Idx) :
    (W9 m c (Proc.devRef .tc main_v14) : S8x1.Idx → EReal) i = (W8 m c (Proc.devRef .tc main_v13) : S8x1x1.Idx → EReal) (ix3 (i 0) (0 : Fin 1) (0 : Fin 1)) := by
  obtain ⟨b, z, rfl⟩ : ∃ (b : Fin 8) (z : Fin 1), i = ix2 b z := ⟨i 0, i 1, eq_ix2 i⟩
  exact out_at m c b z

end Host

/-! ## The same, as whole arrays -/

/-- A projection padded with zero rows to 256 locations. -/
def projPad (x : Cert.Relation.Feat) (W : Cert.Relation.Wt1) (off : ℕ) (hoff : off + 512 ≤ 1024) : S8x256x256.Idx → EReal :=
  fun i => if hl : (i 1).val < 196 then Cert.Relation.proj x W off hoff (i 0) ⟨(i 1).val, hl⟩ (i 2) else 0

section Arrays
variable (m : (ℓ : Loc nD τ sig) → Buf (Elt Ideal) ℓ) (c : Dev nD)

theorem v7_arr : (Vr7 m c main_v7 : S8x256x256.Idx → EReal)
    = projPad (m ((c.tc : Thread nD τ).loc main_arg0)) (m ((c.tc : Thread nD τ).loc main_arg2)) 0 (by omega) := by
  funext i
  obtain ⟨b, l, h, rfl⟩ : ∃ (b : Fin 8) (l : Fin 256) (h : Fin 256), i = ix3 b l h := ⟨i 0, i 1, i 2, eq_ix3 i⟩
  exact pad1_eq m c b l h

theorem v8_arr : (Vr7 m c main_v8 : S8x256x256.Idx → EReal)
    = projPad (m ((c.tc : Thread nD τ).loc main_arg1)) (m ((c.tc : Thread nD τ).loc main_arg2)) 512 (by omega) := by
  funext i
  obtain ⟨b, l, h, rfl⟩ : ∃ (b : Fin 8) (l : Fin 256) (h : Fin 256), i = ix3 b l h := ⟨i 0, i 1, i 2, eq_ix3 i⟩
  exact pad2_eq m c b l h

theorem v10_arr : (Vr7 m c main_v10 : S1x256.Idx → EReal)
    = fun i => (m ((c.tc : Thread nD τ).loc main_arg4) : S256x1.Idx → EReal) (ix2 (i 1) (0 : Fin 1)) := by
  funext i
  obtain ⟨z, h, rfl⟩ : ∃ (z : Fin 1) (h : Fin 256), i = ix2 z h := ⟨i 0, i 1, eq_ix2 i⟩
  obtain rfl : z = 0 := Subsingleton.elim _ _
  exact w2_eq m c h

theorem v11_arr : (Vr7 m c main_v11 : S1x256.Idx → EReal)
    = fun i => (m ((c.tc : Thread nD τ).loc main_arg3) : S256.Idx → EReal) (ix1 (i 1)) := by
  funext i
  obtain ⟨z, h, rfl⟩ : ∃ (z : Fin 1) (h : Fin 256), i = ix2 z h := ⟨i 0, i 1, eq_ix2 i⟩
  obtain rfl : z = 0 := Subsingleton.elim _ _
  exact b1_eq m c h

theorem v12_arr : (Vr7 m c main_v12 : S1x1.Idx → EReal)
    = fun _ => (m ((c.tc : Thread nD τ).loc main_arg5) : S1.Idx → EReal) (ix1 (0 : Fin 1)) := by
  funext i
  obtain ⟨z, z', rfl⟩ : ∃ (z : Fin 1) (z' : Fin 1), i = ix2 z z' := ⟨i 0, i 1, eq_ix2 i⟩
  obtain rfl : z = 0 := Subsingleton.elim _ _
  obtain rfl : z' = 0 := Subsingleton.elim _ _
  exact b2_eq m c

end Arrays

end Cert.KernelIdeal.Val

end
-- ==== Proof.KI.Bridge.lean ====
/-
  The kernel program's result is the specification's result, in the extended reals.

  The program's last host operation reshapes the relation region's 8 × 1 × 1 output array to 8 × 1.  Entry b of
  that array is the running total of the sixteen tiles of batch entry b, which is their sum.  Tile q = (q / 4, q % 4)
  contributes the masked sum of its 64 × 64 lane values; a lane in range reads row q / 4 · 64 + ii of the first padded
  projection and row q % 4 · 64 + jj of the second, the first bias, the second layer's weights and the second bias, so
  its value is the specification's score of that pair of locations.  The sixteen masked tiles exhaust the 196 × 196
  pairs once each, so the sum is the specification's total.  Only commutativity and associativity of addition in
  the extended reals are used.
-/
import proofs.«180940_j64441689309605_1_alg».proof.Proof.KI.Fold
import proofs.«180940_j64441689309605_1_alg».proof.Proof.KI.Val1Acc
import proofs.«180940_j64441689309605_1_alg».proof.Proof.KI.Val1Blocks
import proofs.«180940_j64441689309605_1_alg».proof.Proof.KI.Chain
import proofs.«180940_j64441689309605_1_alg».proof.Proof.SpecSums
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open Cert.Relation (running)
open scoped BigOperators

/-- Two rank-3 indices with equal coordinates are equal. -/
theorem ix3_congr {n0 n1 n2 : ℕ} {a a' : Fin n0} {b b' : Fin n1} {d d' : Fin n2}
    (ha : a.val = a'.val) (hb : b.val = b'.val) (hd : d.val = d'.val) : ix3 a b d = ix3 a' b' d' := by
  obtain rfl := Fin.ext ha; obtain rfl := Fin.ext hb; obtain rfl := Fin.ext hd; rfl

variable (m : (ℓ : Loc nD τ sig) → Buf (Elt Ideal) ℓ) (c : Dev nD)

/-! ## The six argument arrays, at the specification's types -/

abbrev inF1 : Cert.Relation.Feat := m ((c.tc : Thread nD τ).loc main_arg0)
abbrev inF2 : Cert.Relation.Feat := m ((c.tc : Thread nD τ).loc main_arg1)
abbrev inW1 : Cert.Relation.Wt1 := m ((c.tc : Thread nD τ).loc main_arg2)
abbrev inB1 : Cert.Relation.Bias1 := m ((c.tc : Thread nD τ).loc main_arg3)
abbrev inW2 : Cert.Relation.Wt2 := m ((c.tc : Thread nD τ).loc main_arg4)
abbrev inB2 : Cert.Relation.Bias2 := m ((c.tc : Thread nD τ).loc main_arg5)

/-- The score of the pair of locations (i, j) of batch entry b, zero where a location is 196 or more. -/
def scN (b : Fin 8) (i j : ℕ) : EReal :=
  if h : i < 196 ∧ j < 196 then
    Cert.Relation.score (inF1 m c) (inF2 m c) (inW1 m c) (inB1 m c) (inW2 m c) (inB2 m c) b ⟨i, h.1⟩ ⟨j, h.2⟩
  else 0

/-- Tile q of batch entry b: its masked sum of the kernel's lane values is the masked sum of the specification's scores of
    the tile's pairs.  In range the row block of the first padded projection is the projection of location
    q / 4 · 64 + ii, the column block of the second that of location q % 4 · 64 + jj, and the lane value is the score. -/
theorem tile_eq (b : Fin 8) (q : Fin 16) :
    tileAt (Vr7 m) c (16 * b.val + q.val)
      = ∑ ii : Fin 64, ∑ jj : Fin 64,
          if q.val / 4 * 64 + ii.val < 196 ∧ q.val % 4 * 64 + jj.val < 196 then
            scN m c b (q.val / 4 * 64 + ii.val) (q.val % 4 * 64 + jj.val) else 0 := by
  have hN : 16 * b.val + q.val < cfg1.N := by rw [show cfg1.N = 128 from N_1]; omega
  have e1 : (16 * b.val + q.val) / 4 % 4 = q.val / 4 := by omega
  have e2 : (16 * b.val + q.val) % 4 = q.val % 4 := by omega
  have e3 : (16 * b.val + q.val) / 16 = b.val := by omega
  unfold tileAt
  rw [dif_pos hN, e1, e2]
  unfold tilePart
  refine Finset.sum_congr rfl fun ii _ => Finset.sum_congr rfl fun jj _ => ?_
  by_cases hin : q.val / 4 * 64 + ii.val < 196 ∧ q.val % 4 * 64 + jj.val < 196
  · rw [if_pos hin, if_pos hin]
    unfold scN
    rw [dif_pos hin]
    unfold Cert.Relation.score Cert.Relation.hidden
    refine congrArg₂ (· + ·) (Finset.sum_congr rfl fun h _ => ?_) ?_
    · refine congrArg₂ (· * ·) (congrArg (fun z => max z 0) (congrArg₂ (· + ·) (congrArg₂ (· + ·) ?_ ?_) ?_)) ?_
      · refine (blk1_0_apply (Vr7 m) c ⟨16 * b.val + q.val, hN⟩ ii h).trans ?_
        refine (congrArg (Vr7 m c main_v7 : S8x256x256.Idx → EReal)
          (ix3_congr (b' := (⟨q.val / 4 * 64 + ii.val, by omega⟩ : Fin 256)) e3
            (by show (16 * b.val + q.val) / 4 % 4 * 64 + ii.val = q.val / 4 * 64 + ii.val; omega) rfl)).trans ?_
        exact (pad1_eq m c b _ h).trans (dif_pos hin.1)
      · refine (blk1_1_apply (Vr7 m) c ⟨16 * b.val + q.val, hN⟩ jj h).trans ?_
        refine (congrArg (Vr7 m c main_v8 : S8x256x256.Idx → EReal)
          (ix3_congr (b' := (⟨q.val % 4 * 64 + jj.val, by omega⟩ : Fin 256)) e3
            (by show (16 * b.val + q.val) % 4 * 64 + jj.val = q.val % 4 * 64 + jj.val; omega) rfl)).trans ?_
        exact (pad2_eq m c b _ h).trans (dif_pos hin.2)
      · exact (blk1_3_apply (Vr7 m) c ⟨16 * b.val + q.val, hN⟩ h).trans (b1_eq m c h)
      · exact (blk1_2_apply (Vr7 m) c ⟨16 * b.val + q.val, hN⟩ h).trans (w2_eq m c h)
    · exact (blk1_4_apply (Vr7 m) c ⟨16 * b.val + q.val, hN⟩).trans (b2_eq m c)
  · rw [if_neg hin, if_neg hin]

/-- Entry b of the relation region's output array is the specification's total for batch entry b: the running total of
    the sixteen tiles is their sum, the tiles exhaust the 196 × 196 pairs, and each pair's term is its score. -/
theorem arr_total (b : Fin 8) :
    (W8 m c (Proc.devRef .tc main_v13) : S8x1x1.Idx → EReal) (ix3 b 0 0)
      = Cert.Relation.total (inF1 m c) (inF2 m c) (inW1 m c) (inB1 m c) (inW2 m c) (inB2 m c) b := by
  refine (congrFun (W8_arr m c 5) (ix3 b 0 0)).trans ?_
  refine (arr1_5 (Vr7 m) c b).trans ?_
  refine (Cert.Relation.running_eq_sum _ 15).trans ?_
  refine (Finset.sum_congr rfl fun q _ => tile_eq m c b q).trans ?_
  refine (Cert.Relation.tiles_sum (scN m c b)).trans ?_
  unfold Cert.Relation.total
  refine Finset.sum_congr rfl fun i _ => Finset.sum_congr rfl fun j _ => ?_
  unfold scN
  exact dif_pos ⟨i.isLt, j.isLt⟩

/-- THE KERNEL'S RESULT: the result buffer of the kernel program holds the specification's result array. -/
theorem kernel_result :
    W9 (F := Ideal) m c (Proc.devRef .tc main_v14)
      = Cert.Relation.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  funext i
  exact (out_eq m c i).trans (arr_total m c (i 0))

end Cert.KernelIdeal.Val

end
-- ==== Proof.Ref.lean ====
/-
  The reference computes the specification.

  Read one operation at a time, the reference program projects every location of either feature map on the 256
  hidden units (location `l` of a map being row `l / 14`, column `l % 14`; the first map through the rows of the
  first weight from `0` on, the second through the rows from `512` on), adds the two projections and the bias for
  every pair of locations, takes the positive part, contracts the hidden units with the second weight, adds the
  second bias, and sums the 196 · 196 scores of a batch entry, numbered `k = i * 196 + j`, in one flat sum started
  from zero.  Index by index these are `proj`, `hidden`, `score`, `total` and `result` of the specification; the only
  regrouping is the flat sum read as the double sum over the pairs.
-/
import proofs.«180940_j64441689309605_1_alg».proof.Proof.Gen.ReferenceIdeal.Read
import proofs.«180940_j64441689309605_1_alg».proof.Proof.Spec
import proofs.«180940_j64441689309605_1_alg».proof.Proof.SpecSums

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.ValueIdx

/-- The first map's projection: the reshape sends location `l` to row `l / 14`, column `l % 14`, the transpose makes
    the channel the contracted axis, and the upper 512 rows of the first weight are the rows from `0` on. -/
theorem proj_fst (x0 : (⟨S8x512x14x14, .f32⟩ : BufTy).Contents (Elt Ideal)) (x2 : (⟨S1024x256, .f32⟩ : BufTy).Contents (Elt Ideal))
    (b : Fin 8) (l : Fin 196) (h : Fin 256) :
    val_main_v5 (F := Ideal) x0 x2 (ix3 b l h) = Cert.Relation.proj x0 x2 0 (by omega) b l h := by
  rw [val_main_v5_apply]
  unfold Cert.Relation.proj
  refine Finset.sum_congr rfl fun k _ => ?_
  rw [val_main_v1_apply, val_main_v0_apply, val_main_v4_apply]
  have e0 : idx_main_v0 (idx_main_v1 (lidx_main_v5 (ix3 b l h) k)) = ix4 b k ⟨l.val / 14, by omega⟩ ⟨l.val % 14, by omega⟩ :=
    funext fun a => Fin.ext (by
      have hb := b.isLt; have hk := k.isLt; have hl := l.isLt
      match a with
      | ⟨0, _⟩ => show ((b.val * 512 + k.val) * 196 + l.val) / 100352 = b.val; omega
      | ⟨1, _⟩ => show ((b.val * 512 + k.val) * 196 + l.val) / 196 % 512 = k.val; omega
      | ⟨2, _⟩ => show ((b.val * 512 + k.val) * 196 + l.val) / 14 % 14 = l.val / 14; omega
      | ⟨3, _⟩ => show ((b.val * 512 + k.val) * 196 + l.val) % 14 = l.val % 14; omega)
  have e1 : idx_main_v4 (ridx_main_v5 (ix3 b l h) k) = ix2 ⟨0 + k.val, by omega⟩ h :=
    funext fun a => Fin.ext (by
      match a with
      | ⟨0, _⟩ => show k.val = 0 + k.val; omega
      | ⟨1, _⟩ => rfl)
  rw [e0, e1]

/-- The second map's projection: the same, with the lower 512 rows of the first weight, the rows from `512` on. -/
theorem proj_snd (x1 : (⟨S8x512x14x14, .f32⟩ : BufTy).Contents (Elt Ideal)) (x2 : (⟨S1024x256, .f32⟩ : BufTy).Contents (Elt Ideal))
    (b : Fin 8) (l : Fin 196) (h : Fin 256) :
    val_main_v7 (F := Ideal) x1 x2 (ix3 b l h) = Cert.Relation.proj x1 x2 512 (by omega) b l h := by
  rw [val_main_v7_apply]
  unfold Cert.Relation.proj
  refine Finset.sum_congr rfl fun k _ => ?_
  rw [val_main_v3_apply, val_main_v2_apply, val_main_v6_apply]
  have e0 : idx_main_v2 (idx_main_v3 (lidx_main_v7 (ix3 b l h) k)) = ix4 b k ⟨l.val / 14, by omega⟩ ⟨l.val % 14, by omega⟩ :=
    funext fun a => Fin.ext (by
      have hb := b.isLt; have hk := k.isLt; have hl := l.isLt
      match a with
      | ⟨0, _⟩ => show ((b.val * 512 + k.val) * 196 + l.val) / 100352 = b.val; omega
      | ⟨1, _⟩ => show ((b.val * 512 + k.val) * 196 + l.val) / 196 % 512 = k.val; omega
      | ⟨2, _⟩ => show ((b.val * 512 + k.val) * 196 + l.val) / 14 % 14 = l.val / 14; omega
      | ⟨3, _⟩ => show ((b.val * 512 + k.val) * 196 + l.val) % 14 = l.val % 14; omega)
  have e1 : idx_main_v6 (ridx_main_v7 (ix3 b l h) k) = ix2 ⟨512 + k.val, by omega⟩ h :=
    funext fun a => Fin.ext (by
      match a with
      | ⟨0, _⟩ => rfl
      | ⟨1, _⟩ => rfl)
  rw [e0, e1]

/-- The hidden layer of a pair: both projections broadcast over the other map's locations, the bias over everything,
    and the positive part as the maximum with a zero constant. -/
theorem hidden_at (x0 x1 : (⟨S8x512x14x14, .f32⟩ : BufTy).Contents (Elt Ideal)) (x2 : (⟨S1024x256, .f32⟩ : BufTy).Contents (Elt Ideal))
    (x3 : (⟨S256, .f32⟩ : BufTy).Contents (Elt Ideal)) (b : Fin 8) (i j : Fin 196) (h : Fin 256) :
    val_main_v16 (F := Ideal) x0 x1 x2 x3 (ix4 b i j h) = Cert.Relation.hidden x0 x1 x2 x3 b i j h := by
  have e5 : idx_main_v8 (idx_main_v10 (ix4 b i j h)) = ix3 b i h :=
    funext fun a => Fin.ext (by match a with | ⟨0, _⟩ => rfl | ⟨1, _⟩ => rfl | ⟨2, _⟩ => rfl)
  have e7 : idx_main_v9 (idx_main_v11 (ix4 b i j h)) = ix3 b j h :=
    funext fun a => Fin.ext (by match a with | ⟨0, _⟩ => rfl | ⟨1, _⟩ => rfl | ⟨2, _⟩ => rfl)
  have e3 : idx_main_v13 (idx_main_v14 (ix4 b i j h)) = ix1 h :=
    funext fun a => Fin.ext (by match a with | ⟨0, _⟩ => rfl)
  rw [val_main_v16_apply, val_main_v15_apply, val_main_v12_apply, val_main_v10_apply, val_main_v8_apply, val_main_v11_apply,
    val_main_v9_apply, val_main_v14_apply, val_main_v13_apply, val_main_call0_v0_apply, val_main_call0_cst_apply,
    e5, e7, e3, proj_fst, proj_snd]
  simp only [Ideal.maximumf_def, Ideal.addf_def, Ideal.ofBits_def, Ideal.ofBits_zero_f32]
  rfl

/-- The score of a pair: the second layer contracts the hidden units; its one output column is column `0`. -/
theorem score_at (x0 x1 : (⟨S8x512x14x14, .f32⟩ : BufTy).Contents (Elt Ideal)) (x2 : (⟨S1024x256, .f32⟩ : BufTy).Contents (Elt Ideal))
    (x3 : (⟨S256, .f32⟩ : BufTy).Contents (Elt Ideal)) (x4 : (⟨S256x1, .f32⟩ : BufTy).Contents (Elt Ideal))
    (x5 : (⟨S1, .f32⟩ : BufTy).Contents (Elt Ideal)) (b : Fin 8) (i j : Fin 196) :
    val_main_v20 (F := Ideal) x0 x1 x2 x3 x4 x5 (ix4 b i j (0 : Fin 1)) = Cert.Relation.score x0 x1 x2 x3 x4 x5 b i j := by
  have e5 : idx_main_v18 (idx_main_v19 (ix4 b i j (0 : Fin 1))) = ix1 (0 : Fin 1) :=
    funext fun a => Fin.ext (by match a with | ⟨0, _⟩ => rfl)
  rw [val_main_v20_apply, val_main_v17_apply, val_main_v19_apply, val_main_v18_apply, e5]
  unfold Cert.Relation.score
  simp only [Ideal.addf_def]
  refine congrArg (· + _) (Finset.sum_congr rfl fun k _ => ?_)
  have el : lidx_main_v17 (ix4 b i j (0 : Fin 1)) k = ix4 b i j k :=
    funext fun a => Fin.ext (by match a with | ⟨0, _⟩ => rfl | ⟨1, _⟩ => rfl | ⟨2, _⟩ => rfl | ⟨3, _⟩ => rfl)
  have er : ridx_main_v17 (ix4 b i j (0 : Fin 1)) k = ix2 k (0 : Fin 1) :=
    funext fun a => Fin.ext (by match a with | ⟨0, _⟩ => rfl | ⟨1, _⟩ => rfl)
  rw [el, er, hidden_at]

/-- The sum over all pairs: the reshape numbers the pair `(i, j)` as `k = i * 196 + j`, so the flat sum over `k` of the
    score of `(k / 196, k % 196)`, started from the zero constant, is the double sum. -/
theorem total_at (x0 x1 : (⟨S8x512x14x14, .f32⟩ : BufTy).Contents (Elt Ideal)) (x2 : (⟨S1024x256, .f32⟩ : BufTy).Contents (Elt Ideal))
    (x3 : (⟨S256, .f32⟩ : BufTy).Contents (Elt Ideal)) (x4 : (⟨S256x1, .f32⟩ : BufTy).Contents (Elt Ideal))
    (x5 : (⟨S1, .f32⟩ : BufTy).Contents (Elt Ideal)) (b : Fin 8) :
    val_main_v22 (F := Ideal) x0 x1 x2 x3 x4 x5 (ix1 b) = Cert.Relation.total x0 x1 x2 x3 x4 x5 b := by
  rw [val_main_v22_apply, val_main_cst_apply]
  simp only [Ideal.ofBits_def, Ideal.ofBits_zero_f32]
  unfold Cert.Relation.total
  have hsum := Cert.Relation.flat_sum (fun i j => if h : i < 196 ∧ j < 196 then
    Cert.Relation.score x0 x1 x2 x3 x4 x5 b ⟨i, h.1⟩ ⟨j, h.2⟩ else 0)
  have hr : (∑ i : Fin 196, ∑ j : Fin 196, (fun (i j : ℕ) => if h : i < 196 ∧ j < 196 then
      Cert.Relation.score x0 x1 x2 x3 x4 x5 b ⟨i, h.1⟩ ⟨j, h.2⟩ else 0) i.val j.val)
      = ∑ i : Fin 196, ∑ j : Fin 196, Cert.Relation.score x0 x1 x2 x3 x4 x5 b i j :=
    Finset.sum_congr rfl fun i _ => Finset.sum_congr rfl fun j _ => dif_pos ⟨i.isLt, j.isLt⟩
  rw [← hr, ← hsum]
  refine congrArg (_ + ·) (Finset.sum_congr rfl fun k _ => ?_)
  have hk := k.isLt
  have e : idx_main_v21 (idx_main_v22 (ix1 b) k) = ix4 b (⟨k.val / 196, by omega⟩ : Fin 196) (⟨k.val % 196, by omega⟩ : Fin 196) (0 : Fin 1) :=
    funext fun a => Fin.ext (by
      have hb := b.isLt
      match a with
      | ⟨0, _⟩ => show (b.val * 38416 + k.val) / 38416 = b.val; omega
      | ⟨1, _⟩ => show (b.val * 38416 + k.val) / 196 % 196 = k.val / 196; omega
      | ⟨2, _⟩ => show (b.val * 38416 + k.val) / 1 % 196 = k.val % 196; omega
      | ⟨3, _⟩ => rfl)
  rw [val_main_v21_apply, e, score_at]
  rw [dif_pos (show k.val / 196 < 196 ∧ k.val % 196 < 196 from ⟨by omega, by omega⟩)]

/-- The reference's result array is the specification's. -/
theorem ref_result (x0 x1 : (⟨S8x512x14x14, .f32⟩ : BufTy).Contents (Elt Ideal)) (x2 : (⟨S1024x256, .f32⟩ : BufTy).Contents (Elt Ideal))
    (x3 : (⟨S256, .f32⟩ : BufTy).Contents (Elt Ideal)) (x4 : (⟨S256x1, .f32⟩ : BufTy).Contents (Elt Ideal))
    (x5 : (⟨S1, .f32⟩ : BufTy).Contents (Elt Ideal)) :
    Cert.ReferenceIdeal.Read.val_main_v23 (F := Ideal) x0 x1 x2 x3 x4 x5 = Cert.Relation.result x0 x1 x2 x3 x4 x5 := by
  funext idx
  obtain ⟨b, z, rfl⟩ : ∃ (b : Fin 8) (z : Fin 1), idx = ix2 b z := ⟨idx 0, idx 1, eq_ix2 idx⟩
  have e : idx_main_v23 (ix2 b z) = ix1 b := funext fun a => Fin.ext (by match a with | ⟨0, _⟩ => rfl)
  rw [val_main_v23_apply, e, total_at]
  rfl

/-- Every weakly fair execution of the reference ends with the result array at the specification's function of the
    argument arrays, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = Cert.Relation.result (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans ((val_main_v23_eq (F := Ideal) _ _ _ _ _ _).trans (ref_result _ _ _ _ _ _)), (h c).2⟩)
    (Cert.ReferenceIdeal.Value.run (F := Ideal) m ρ)

end Cert.ReferenceIdeal.RefValue

end
-- ==== Proof.lean ====
/-
  The relation head on two 14 × 14 feature maps: a Pallas kernel pair against its jnp reference, equal over the
  extended reals.

  The reference projects every location of each map by one half of the first layer's weight (an einsum over the 512
  channels), adds the two projections of every pair of locations and the bias, takes the positive part, applies the
  second layer, and sums the 196 · 196 scores of a batch entry in one flat sum.  The kernel computes the same two
  projections on the matrix unit (its casts to bf16 are the identity over the reals), pads them from 196 to 256 rows,
  and sums the scores tile by tile — 4 × 4 tiles of 64 × 64 pairs, the pairs with a padded index masked to zero — into
  a one-word running total that it copies out after the last tile.  Both are the function `Cert.Relation.result` of the
  six arguments (Proof/Spec.lean): the reference by reading its run one operation at a time (Proof/Ref.lean), the
  kernel by following the buffers through @main's items and reading each region's output array as a function of its
  input arrays (Proof/KI/*.lean).  Joining the two only regroups a finite sum, which in the extended reals — a
  commutative monoid under addition — needs no finiteness; the precondition is never opened.

  The three frames: the reference's is its run with the result dropped; the two kernel programs (one text in two
  namespaces, the idealization having rewritten nothing) have the same frame proof, stated once for any float
  instance (Proof/KI/Frame.lean, Proof/K/Frame.lean).  Nothing was rewritten, so `preserves` is trivial.
-/
import proofs.«180940_j64441689309605_1_alg».proof.Defs
import proofs.«180940_j64441689309605_1_alg».proof.Proof.Gen.Kernel
import proofs.«180940_j64441689309605_1_alg».proof.Proof.Gen.KernelIdeal
import proofs.«180940_j64441689309605_1_alg».proof.Proof.Gen.ReferenceIdeal
import proofs.«180940_j64441689309605_1_alg».proof.Proof.Gen.Pre_finite_inputs
import proofs.«180940_j64441689309605_1_alg».proof.Proof.Gen.ReferenceIdeal.Run
import proofs.«180940_j64441689309605_1_alg».proof.Proof.Gen.ReferenceIdeal.Read
import proofs.«180940_j64441689309605_1_alg».proof.Proof.K.Frame
import proofs.«180940_j64441689309605_1_alg».proof.Proof.KI.Frame
import proofs.«180940_j64441689309605_1_alg».proof.Proof.KI.Bridge
import proofs.«180940_j64441689309605_1_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the specification's result of the (agreeing) arguments. -/
theorem algebraic : Cert.algebraic_KernelIdeal_ReferenceIdeal := by
  intro m ρ m' ρ' _ hagree
  refine ⟨fun c => Cert.Relation.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.Val.kernel_result m c), (h c).2⟩)
      (Cert.KernelIdeal.Fr.run_named (F := Ideal) m ρ)
  · refine (θ_run Cert.ReferenceIdeal.defs _ _).mono (fun _ h c => ⟨(h c).1.trans ?_, (h c).2⟩)
      (Cert.ReferenceIdeal.RefValue.ref_run m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
